-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x27x32x32 : Shape := ⟨4, ![8, 27, 32, 32]⟩
abbrev S27x27x3x3 : Shape := ⟨4, ![27, 27, 3, 3]⟩
abbrev S_ : Shape := ⟨0, ![]⟩

class Facts : Prop where
  bcast_S_S8x27x32x32 : S_.BroadcastsInDim S8x27x32x32 (![] : Fin 0 → Fin S8x27x32x32.rank)
  reducesTo_S8x27x32x32_S_d0_1_2_3 : S8x27x32x32.ReducesTo [0, 1, 2, 3] S_
  h_S_ : 0 < S_.numel
  bcast_S_S27x27x3x3 : S_.BroadcastsInDim S27x27x3x3 (![] : Fin 0 → Fin S27x27x3x3.rank)
  reducesTo_S27x27x3x3_S_d0_1_2_3 : S27x27x3x3.ReducesTo [0, 1, 2, 3] S_

variable [Facts]

def fn {F : FTy → Type} [FloatOps F] (main_arg0 : FVec F S8x27x32x32 .f32) (main_arg1 : FVec F S27x27x3x3 .f32) : IVec S_ 1 :=
  let main_v0 : FVec F S8x27x32x32 .f32 := Host.absf main_arg0
  let main_cst : FVec F S_ .f32 := constant S_ .f32 0x7F800000#32
  let main_v1 : FVec F S8x27x32x32 .f32 := broadcastInDim S8x27x32x32 ![] bcast_S_S8x27x32x32 main_cst
  let main_v2 : IVec S8x27x32x32 1 := cmpf .olt main_v0 main_v1
  let main_c : IVec S_ 1 := constantI S_ 1 1#1
  let main_v3 : IVec S_ 1 := (fun x v => Host.reduce IntOp.andi x v reducesTo_S8x27x32x32_S_d0_1_2_3 h_S_) main_v2 main_c
  let main_v4 : FVec F S27x27x3x3 .f32 := Host.absf main_arg1
  let main_cst_0 : FVec F S_ .f32 := constant S_ .f32 0x7F800000#32
  let main_v5 : FVec F S27x27x3x3 .f32 := broadcastInDim S27x27x3x3 ![] bcast_S_S27x27x3x3 main_cst_0
  let main_v6 : IVec S27x27x3x3 1 := cmpf .olt main_v4 main_v5
  let main_c_1 : IVec S_ 1 := constantI S_ 1 1#1
  let main_v7 : IVec S_ 1 := (fun x v => Host.reduce IntOp.andi x v reducesTo_S27x27x3x3_S_d0_1_2_3 h_S_) main_v6 main_c_1
  let main_v8 : IVec S_ 1 := andi main_v3 main_v7
  main_v8
-- ==== Kernel.lean ====
abbrev S8x27x32x32 : Shape := ⟨4, ![8, 27, 32, 32]⟩
abbrev S27x27x3x3 : Shape := ⟨4, ![27, 27, 3, 3]⟩
abbrev S_ : Shape := ⟨0, ![]⟩
abbrev S8x27x34x34 : Shape := ⟨4, ![8, 27, 34, 34]⟩
abbrev S27x3x3x27 : Shape := ⟨4, ![27, 3, 3, 27]⟩
abbrev S1x27x34x34 : Shape := ⟨4, ![1, 27, 34, 34]⟩
abbrev S1x27x32x32 : Shape := ⟨4, ![1, 27, 32, 32]⟩
abbrev S27x34x34 : Shape := ⟨3, ![27, 34, 34]⟩
abbrev S1x32x32 : Shape := ⟨3, ![1, 32, 32]⟩
abbrev S32x32 : Shape := ⟨2, ![32, 32]⟩
abbrev S1x1x1x27 : Shape := ⟨4, ![1, 1, 1, 27]⟩
abbrev S27 : Shape := ⟨1, ![27]⟩
abbrev S27x1x1 : Shape := ⟨3, ![27, 1, 1]⟩
abbrev S27x32x32 : Shape := ⟨3, ![27, 32, 32]⟩

abbrev nBuf : Space → Nat
  | .hbm => 7
  | .vmem => 5
  | .smem => 0
  | _ => 0

abbrev bufTy : (tb : Table) → Fin (tcTables nBuf tb) → BufTy
  | .hbm, ⟨0, _⟩ => ⟨S8x27x32x32, .f32⟩
  | .hbm, ⟨1, _⟩ => ⟨S27x27x3x3, .f32⟩
  | .hbm, ⟨2, _⟩ => ⟨S_, .f32⟩
  | .hbm, ⟨3, _⟩ => ⟨S_, .f32⟩
  | .hbm, ⟨4, _⟩ => ⟨S8x27x34x34, .f32⟩
  | .hbm, ⟨5, _⟩ => ⟨S27x3x3x27, .f32⟩
  | .hbm, ⟨6, _⟩ => ⟨S8x27x32x32, .f32⟩
  | .local _ .vmem, ⟨0, _⟩ => ⟨S1x27x34x34, .f32⟩
  | .local _ .vmem, ⟨1, _⟩ => ⟨S1x27x34x34, .f32⟩
  | .local _ .vmem, ⟨2, _⟩ => ⟨S27x3x3x27, .f32⟩
  | .local _ .vmem, ⟨3, _⟩ => ⟨S1x27x32x32, .f32⟩
  | .local _ .vmem, ⟨4, _⟩ => ⟨S1x27x32x32, .f32⟩
  | _, _ => ⟨S8x27x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x27x34x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x3x3x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x27x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x27x32x32_S8x27x34x34_000_000_110_110 : S8x27x32x32.Pads (![0, 0, 1, 1] : Fin 4 → Nat) ![0, 0, 1, 1] ![0, 0, 0, 0] S8x27x34x34
  h_S_ : 0 < S_.numel
  transposes_S27x27x3x3_S27x3x3x27_1_2_3_0 : S27x27x3x3.Transposes [1, 2, 3, 0] S27x3x3x27
  inb_S1x27x34x34_S1x27x34x34_0_0_0_0 : ∀ a, (![0, 0, 0, 0] : Fin 4 → Nat) a + S1x27x34x34.size a ≤ S1x27x34x34.size a
  h_S1x27x34x34 : 0 < S1x27x34x34.numel
  shapeCasts_S1x27x34x34_S27x34x34 : S1x27x34x34.ShapeCasts S27x34x34
  inb_S27x3x3x27_S27x3x3x27_0_0_0_0 : ∀ a, (![0, 0, 0, 0] : Fin 4 → Nat) a + S27x3x3x27.size a ≤ S27x3x3x27.size a
  h_S27x3x3x27 : 0 < S27x3x3x27.numel
  shapeCasts_S27x3x3x27_S27x3x3x27 : S27x3x3x27.ShapeCasts S27x3x3x27
  slices_S27x34x34_o0_0_0_S1x32x32 : S27x34x34.Slices ![0, 0, 0] S1x32x32
  shapeCasts_S1x32x32_S32x32 : S1x32x32.ShapeCasts S32x32
  slices_S27x3x3x27_o0_0_0_0_S1x1x1x27 : S27x3x3x27.Slices ![0, 0, 0, 0] S1x1x1x27
  shapeCasts_S1x1x1x27_S27 : S1x1x1x27.ShapeCasts S27
  shapeCasts_S27_S27x1x1 : S27.ShapeCasts S27x1x1
  shapeCasts_S32x32_S1x32x32 : S32x32.ShapeCasts S1x32x32
  broadcasts_S27x1x1_S27x32x32 : S27x1x1.Broadcasts S27x32x32
  broadcasts_S1x32x32_S27x32x32 : S1x32x32.Broadcasts S27x32x32
  slices_S27x34x34_o0_0_1_S1x32x32 : S27x34x34.Slices ![0, 0, 1] S1x32x32
  slices_S27x3x3x27_o0_0_1_0_S1x1x1x27 : S27x3x3x27.Slices ![0, 0, 1, 0] S1x1x1x27
  slices_S27x34x34_o0_0_2_S1x32x32 : S27x34x34.Slices ![0, 0, 2] S1x32x32
  slices_S27x3x3x27_o0_0_2_0_S1x1x1x27 : S27x3x3x27.Slices ![0, 0, 2, 0] S1x1x1x27
  slices_S27x34x34_o0_1_0_S1x32x32 : S27x34x34.Slices ![0, 1, 0] S1x32x32
  slices_S27x3x3x27_o0_1_0_0_S1x1x1x27 : S27x3x3x27.Slices ![0, 1, 0, 0] S1x1x1x27
  slices_S27x34x34_o0_1_1_S1x32x32 : S27x34x34.Slices ![0, 1, 1] S1x32x32
  slices_S27x3x3x27_o0_1_1_0_S1x1x1x27 : S27x3x3x27.Slices ![0, 1, 1, 0] S1x1x1x27
  slices_S27x34x34_o0_1_2_S1x32x32 : S27x34x34.Slices ![0, 1, 2] S1x32x32
  slices_S27x3x3x27_o0_1_2_0_S1x1x1x27 : S27x3x3x27.Slices ![0, 1, 2, 0] S1x1x1x27
  slices_S27x34x34_o0_2_0_S1x32x32 : S27x34x34.Slices ![0, 2, 0] S1x32x32
  slices_S27x3x3x27_o0_2_0_0_S1x1x1x27 : S27x3x3x27.Slices ![0, 2, 0, 0] S1x1x1x27
  slices_S27x34x34_o0_2_1_S1x32x32 : S27x34x34.Slices ![0, 2, 1] S1x32x32
  slices_S27x3x3x27_o0_2_1_0_S1x1x1x27 : S27x3x3x27.Slices ![0, 2, 1, 0] S1x1x1x27
  slices_S27x34x34_o0_2_2_S1x32x32 : S27x34x34.Slices ![0, 2, 2] S1x32x32
  slices_S27x3x3x27_o0_2_2_0_S1x1x1x27 : S27x3x3x27.Slices ![0, 2, 2, 0] S1x1x1x27
  slices_S27x34x34_o1_0_0_S1x32x32 : S27x34x34.Slices ![1, 0, 0] S1x32x32
  slices_S27x3x3x27_o1_0_0_0_S1x1x1x27 : S27x3x3x27.Slices ![1, 0, 0, 0] S1x1x1x27
  slices_S27x34x34_o1_0_1_S1x32x32 : S27x34x34.Slices ![1, 0, 1] S1x32x32
  slices_S27x3x3x27_o1_0_1_0_S1x1x1x27 : S27x3x3x27.Slices ![1, 0, 1, 0] S1x1x1x27
  slices_S27x34x34_o1_0_2_S1x32x32 : S27x34x34.Slices ![1, 0, 2] S1x32x32
  slices_S27x3x3x27_o1_0_2_0_S1x1x1x27 : S27x3x3x27.Slices ![1, 0, 2, 0] S1x1x1x27
  slices_S27x34x34_o1_1_0_S1x32x32 : S27x34x34.Slices ![1, 1, 0] S1x32x32
  slices_S27x3x3x27_o1_1_0_0_S1x1x1x27 : S27x3x3x27.Slices ![1, 1, 0, 0] S1x1x1x27
  slices_S27x34x34_o1_1_1_S1x32x32 : S27x34x34.Slices ![1, 1, 1] S1x32x32
  slices_S27x3x3x27_o1_1_1_0_S1x1x1x27 : S27x3x3x27.Slices ![1, 1, 1, 0] S1x1x1x27
  slices_S27x34x34_o1_1_2_S1x32x32 : S27x34x34.Slices ![1, 1, 2] S1x32x32
  slices_S27x3x3x27_o1_1_2_0_S1x1x1x27 : S27x3x3x27.Slices ![1, 1, 2, 0] S1x1x1x27
  slices_S27x34x34_o1_2_0_S1x32x32 : S27x34x34.Slices ![1, 2, 0] S1x32x32
  slices_S27x3x3x27_o1_2_0_0_S1x1x1x27 : S27x3x3x27.Slices ![1, 2, 0, 0] S1x1x1x27
  slices_S27x34x34_o1_2_1_S1x32x32 : S27x34x34.Slices ![1, 2, 1] S1x32x32
  slices_S27x3x3x27_o1_2_1_0_S1x1x1x27 : S27x3x3x27.Slices ![1, 2, 1, 0] S1x1x1x27
  slices_S27x34x34_o1_2_2_S1x32x32 : S27x34x34.Slices ![1, 2, 2] S1x32x32
  slices_S27x3x3x27_o1_2_2_0_S1x1x1x27 : S27x3x3x27.Slices ![1, 2, 2, 0] S1x1x1x27
  slices_S27x34x34_o2_0_0_S1x32x32 : S27x34x34.Slices ![2, 0, 0] S1x32x32
  slices_S27x3x3x27_o2_0_0_0_S1x1x1x27 : S27x3x3x27.Slices ![2, 0, 0, 0] S1x1x1x27
  slices_S27x34x34_o2_0_1_S1x32x32 : S27x34x34.Slices ![2, 0, 1] S1x32x32
  slices_S27x3x3x27_o2_0_1_0_S1x1x1x27 : S27x3x3x27.Slices ![2, 0, 1, 0] S1x1x1x27
  slices_S27x34x34_o2_0_2_S1x32x32 : S27x34x34.Slices ![2, 0, 2] S1x32x32
  slices_S27x3x3x27_o2_0_2_0_S1x1x1x27 : S27x3x3x27.Slices ![2, 0, 2, 0] S1x1x1x27
  slices_S27x34x34_o2_1_0_S1x32x32 : S27x34x34.Slices ![2, 1, 0] S1x32x32
  slices_S27x3x3x27_o2_1_0_0_S1x1x1x27 : S27x3x3x27.Slices ![2, 1, 0, 0] S1x1x1x27
  slices_S27x34x34_o2_1_1_S1x32x32 : S27x34x34.Slices ![2, 1, 1] S1x32x32
  slices_S27x3x3x27_o2_1_1_0_S1x1x1x27 : S27x3x3x27.Slices ![2, 1, 1, 0] S1x1x1x27
  slices_S27x34x34_o2_1_2_S1x32x32 : S27x34x34.Slices ![2, 1, 2] S1x32x32
  slices_S27x3x3x27_o2_1_2_0_S1x1x1x27 : S27x3x3x27.Slices ![2, 1, 2, 0] S1x1x1x27
  slices_S27x34x34_o2_2_0_S1x32x32 : S27x34x34.Slices ![2, 2, 0] S1x32x32
  slices_S27x3x3x27_o2_2_0_0_S1x1x1x27 : S27x3x3x27.Slices ![2, 2, 0, 0] S1x1x1x27
  slices_S27x34x34_o2_2_1_S1x32x32 : S27x34x34.Slices ![2, 2, 1] S1x32x32
  slices_S27x3x3x27_o2_2_1_0_S1x1x1x27 : S27x3x3x27.Slices ![2, 2, 1, 0] S1x1x1x27
  slices_S27x34x34_o2_2_2_S1x32x32 : S27x34x34.Slices ![2, 2, 2] S1x32x32
  slices_S27x3x3x27_o2_2_2_0_S1x1x1x27 : S27x3x3x27.Slices ![2, 2, 2, 0] S1x1x1x27
  slices_S27x34x34_o3_0_0_S1x32x32 : S27x34x34.Slices ![3, 0, 0] S1x32x32
  slices_S27x3x3x27_o3_0_0_0_S1x1x1x27 : S27x3x3x27.Slices ![3, 0, 0, 0] S1x1x1x27
  slices_S27x34x34_o3_0_1_S1x32x32 : S27x34x34.Slices ![3, 0, 1] S1x32x32
  slices_S27x3x3x27_o3_0_1_0_S1x1x1x27 : S27x3x3x27.Slices ![3, 0, 1, 0] S1x1x1x27
  slices_S27x34x34_o3_0_2_S1x32x32 : S27x34x34.Slices ![3, 0, 2] S1x32x32
  slices_S27x3x3x27_o3_0_2_0_S1x1x1x27 : S27x3x3x27.Slices ![3, 0, 2, 0] S1x1x1x27
  slices_S27x34x34_o3_1_0_S1x32x32 : S27x34x34.Slices ![3, 1, 0] S1x32x32
  slices_S27x3x3x27_o3_1_0_0_S1x1x1x27 : S27x3x3x27.Slices ![3, 1, 0, 0] S1x1x1x27
  slices_S27x34x34_o3_1_1_S1x32x32 : S27x34x34.Slices ![3, 1, 1] S1x32x32
  slices_S27x3x3x27_o3_1_1_0_S1x1x1x27 : S27x3x3x27.Slices ![3, 1, 1, 0] S1x1x1x27
  slices_S27x34x34_o3_1_2_S1x32x32 : S27x34x34.Slices ![3, 1, 2] S1x32x32
  slices_S27x3x3x27_o3_1_2_0_S1x1x1x27 : S27x3x3x27.Slices ![3, 1, 2, 0] S1x1x1x27
  slices_S27x34x34_o3_2_0_S1x32x32 : S27x34x34.Slices ![3, 2, 0] S1x32x32
  slices_S27x3x3x27_o3_2_0_0_S1x1x1x27 : S27x3x3x27.Slices ![3, 2, 0, 0] S1x1x1x27
  slices_S27x34x34_o3_2_1_S1x32x32 : S27x34x34.Slices ![3, 2, 1] S1x32x32
  slices_S27x3x3x27_o3_2_1_0_S1x1x1x27 : S27x3x3x27.Slices ![3, 2, 1, 0] S1x1x1x27
  slices_S27x34x34_o3_2_2_S1x32x32 : S27x34x34.Slices ![3, 2, 2] S1x32x32
  slices_S27x3x3x27_o3_2_2_0_S1x1x1x27 : S27x3x3x27.Slices ![3, 2, 2, 0] S1x1x1x27
  slices_S27x34x34_o4_0_0_S1x32x32 : S27x34x34.Slices ![4, 0, 0] S1x32x32
  slices_S27x3x3x27_o4_0_0_0_S1x1x1x27 : S27x3x3x27.Slices ![4, 0, 0, 0] S1x1x1x27
  slices_S27x34x34_o4_0_1_S1x32x32 : S27x34x34.Slices ![4, 0, 1] S1x32x32
  slices_S27x3x3x27_o4_0_1_0_S1x1x1x27 : S27x3x3x27.Slices ![4, 0, 1, 0] S1x1x1x27
  slices_S27x34x34_o4_0_2_S1x32x32 : S27x34x34.Slices ![4, 0, 2] S1x32x32
  slices_S27x3x3x27_o4_0_2_0_S1x1x1x27 : S27x3x3x27.Slices ![4, 0, 2, 0] S1x1x1x27
  slices_S27x34x34_o4_1_0_S1x32x32 : S27x34x34.Slices ![4, 1, 0] S1x32x32
  slices_S27x3x3x27_o4_1_0_0_S1x1x1x27 : S27x3x3x27.Slices ![4, 1, 0, 0] S1x1x1x27
  slices_S27x34x34_o4_1_1_S1x32x32 : S27x34x34.Slices ![4, 1, 1] S1x32x32
  slices_S27x3x3x27_o4_1_1_0_S1x1x1x27 : S27x3x3x27.Slices ![4, 1, 1, 0] S1x1x1x27
  slices_S27x34x34_o4_1_2_S1x32x32 : S27x34x34.Slices ![4, 1, 2] S1x32x32
  slices_S27x3x3x27_o4_1_2_0_S1x1x1x27 : S27x3x3x27.Slices ![4, 1, 2, 0] S1x1x1x27
  slices_S27x34x34_o4_2_0_S1x32x32 : S27x34x34.Slices ![4, 2, 0] S1x32x32
  slices_S27x3x3x27_o4_2_0_0_S1x1x1x27 : S27x3x3x27.Slices ![4, 2, 0, 0] S1x1x1x27
  slices_S27x34x34_o4_2_1_S1x32x32 : S27x34x34.Slices ![4, 2, 1] S1x32x32
  slices_S27x3x3x27_o4_2_1_0_S1x1x1x27 : S27x3x3x27.Slices ![4, 2, 1, 0] S1x1x1x27
  slices_S27x34x34_o4_2_2_S1x32x32 : S27x34x34.Slices ![4, 2, 2] S1x32x32
  slices_S27x3x3x27_o4_2_2_0_S1x1x1x27 : S27x3x3x27.Slices ![4, 2, 2, 0] S1x1x1x27
  slices_S27x34x34_o5_0_0_S1x32x32 : S27x34x34.Slices ![5, 0, 0] S1x32x32
  slices_S27x3x3x27_o5_0_0_0_S1x1x1x27 : S27x3x3x27.Slices ![5, 0, 0, 0] S1x1x1x27
  slices_S27x34x34_o5_0_1_S1x32x32 : S27x34x34.Slices ![5, 0, 1] S1x32x32
  slices_S27x3x3x27_o5_0_1_0_S1x1x1x27 : S27x3x3x27.Slices ![5, 0, 1, 0] S1x1x1x27
  slices_S27x34x34_o5_0_2_S1x32x32 : S27x34x34.Slices ![5, 0, 2] S1x32x32
  slices_S27x3x3x27_o5_0_2_0_S1x1x1x27 : S27x3x3x27.Slices ![5, 0, 2, 0] S1x1x1x27
  slices_S27x34x34_o5_1_0_S1x32x32 : S27x34x34.Slices ![5, 1, 0] S1x32x32
  slices_S27x3x3x27_o5_1_0_0_S1x1x1x27 : S27x3x3x27.Slices ![5, 1, 0, 0] S1x1x1x27
  slices_S27x34x34_o5_1_1_S1x32x32 : S27x34x34.Slices ![5, 1, 1] S1x32x32
  slices_S27x3x3x27_o5_1_1_0_S1x1x1x27 : S27x3x3x27.Slices ![5, 1, 1, 0] S1x1x1x27
  slices_S27x34x34_o5_1_2_S1x32x32 : S27x34x34.Slices ![5, 1, 2] S1x32x32
  slices_S27x3x3x27_o5_1_2_0_S1x1x1x27 : S27x3x3x27.Slices ![5, 1, 2, 0] S1x1x1x27
  slices_S27x34x34_o5_2_0_S1x32x32 : S27x34x34.Slices ![5, 2, 0] S1x32x32
  slices_S27x3x3x27_o5_2_0_0_S1x1x1x27 : S27x3x3x27.Slices ![5, 2, 0, 0] S1x1x1x27
  slices_S27x34x34_o5_2_1_S1x32x32 : S27x34x34.Slices ![5, 2, 1] S1x32x32
  slices_S27x3x3x27_o5_2_1_0_S1x1x1x27 : S27x3x3x27.Slices ![5, 2, 1, 0] S1x1x1x27
  slices_S27x34x34_o5_2_2_S1x32x32 : S27x34x34.Slices ![5, 2, 2] S1x32x32
  slices_S27x3x3x27_o5_2_2_0_S1x1x1x27 : S27x3x3x27.Slices ![5, 2, 2, 0] S1x1x1x27
  slices_S27x34x34_o6_0_0_S1x32x32 : S27x34x34.Slices ![6, 0, 0] S1x32x32
  slices_S27x3x3x27_o6_0_0_0_S1x1x1x27 : S27x3x3x27.Slices ![6, 0, 0, 0] S1x1x1x27
  slices_S27x34x34_o6_0_1_S1x32x32 : S27x34x34.Slices ![6, 0, 1] S1x32x32
  slices_S27x3x3x27_o6_0_1_0_S1x1x1x27 : S27x3x3x27.Slices ![6, 0, 1, 0] S1x1x1x27
  slices_S27x34x34_o6_0_2_S1x32x32 : S27x34x34.Slices ![6, 0, 2] S1x32x32
  slices_S27x3x3x27_o6_0_2_0_S1x1x1x27 : S27x3x3x27.Slices ![6, 0, 2, 0] S1x1x1x27
  slices_S27x34x34_o6_1_0_S1x32x32 : S27x34x34.Slices ![6, 1, 0] S1x32x32
  slices_S27x3x3x27_o6_1_0_0_S1x1x1x27 : S27x3x3x27.Slices ![6, 1, 0, 0] S1x1x1x27
  slices_S27x34x34_o6_1_1_S1x32x32 : S27x34x34.Slices ![6, 1, 1] S1x32x32
  slices_S27x3x3x27_o6_1_1_0_S1x1x1x27 : S27x3x3x27.Slices ![6, 1, 1, 0] S1x1x1x27
  slices_S27x34x34_o6_1_2_S1x32x32 : S27x34x34.Slices ![6, 1, 2] S1x32x32
  slices_S27x3x3x27_o6_1_2_0_S1x1x1x27 : S27x3x3x27.Slices ![6, 1, 2, 0] S1x1x1x27
  slices_S27x34x34_o6_2_0_S1x32x32 : S27x34x34.Slices ![6, 2, 0] S1x32x32
  slices_S27x3x3x27_o6_2_0_0_S1x1x1x27 : S27x3x3x27.Slices ![6, 2, 0, 0] S1x1x1x27
  slices_S27x34x34_o6_2_1_S1x32x32 : S27x34x34.Slices ![6, 2, 1] S1x32x32
  slices_S27x3x3x27_o6_2_1_0_S1x1x1x27 : S27x3x3x27.Slices ![6, 2, 1, 0] S1x1x1x27
  slices_S27x34x34_o6_2_2_S1x32x32 : S27x34x34.Slices ![6, 2, 2] S1x32x32
  slices_S27x3x3x27_o6_2_2_0_S1x1x1x27 : S27x3x3x27.Slices ![6, 2, 2, 0] S1x1x1x27
  slices_S27x34x34_o7_0_0_S1x32x32 : S27x34x34.Slices ![7, 0, 0] S1x32x32
  slices_S27x3x3x27_o7_0_0_0_S1x1x1x27 : S27x3x3x27.Slices ![7, 0, 0, 0] S1x1x1x27
  slices_S27x34x34_o7_0_1_S1x32x32 : S27x34x34.Slices ![7, 0, 1] S1x32x32
  slices_S27x3x3x27_o7_0_1_0_S1x1x1x27 : S27x3x3x27.Slices ![7, 0, 1, 0] S1x1x1x27
  slices_S27x34x34_o7_0_2_S1x32x32 : S27x34x34.Slices ![7, 0, 2] S1x32x32
  slices_S27x3x3x27_o7_0_2_0_S1x1x1x27 : S27x3x3x27.Slices ![7, 0, 2, 0] S1x1x1x27
  slices_S27x34x34_o7_1_0_S1x32x32 : S27x34x34.Slices ![7, 1, 0] S1x32x32
  slices_S27x3x3x27_o7_1_0_0_S1x1x1x27 : S27x3x3x27.Slices ![7, 1, 0, 0] S1x1x1x27
  slices_S27x34x34_o7_1_1_S1x32x32 : S27x34x34.Slices ![7, 1, 1] S1x32x32
  slices_S27x3x3x27_o7_1_1_0_S1x1x1x27 : S27x3x3x27.Slices ![7, 1, 1, 0] S1x1x1x27
  slices_S27x34x34_o7_1_2_S1x32x32 : S27x34x34.Slices ![7, 1, 2] S1x32x32
  slices_S27x3x3x27_o7_1_2_0_S1x1x1x27 : S27x3x3x27.Slices ![7, 1, 2, 0] S1x1x1x27
  slices_S27x34x34_o7_2_0_S1x32x32 : S27x34x34.Slices ![7, 2, 0] S1x32x32
  slices_S27x3x3x27_o7_2_0_0_S1x1x1x27 : S27x3x3x27.Slices ![7, 2, 0, 0] S1x1x1x27
  slices_S27x34x34_o7_2_1_S1x32x32 : S27x34x34.Slices ![7, 2, 1] S1x32x32
  slices_S27x3x3x27_o7_2_1_0_S1x1x1x27 : S27x3x3x27.Slices ![7, 2, 1, 0] S1x1x1x27
  slices_S27x34x34_o7_2_2_S1x32x32 : S27x34x34.Slices ![7, 2, 2] S1x32x32
  slices_S27x3x3x27_o7_2_2_0_S1x1x1x27 : S27x3x3x27.Slices ![7, 2, 2, 0] S1x1x1x27
  slices_S27x34x34_o8_0_0_S1x32x32 : S27x34x34.Slices ![8, 0, 0] S1x32x32
  slices_S27x3x3x27_o8_0_0_0_S1x1x1x27 : S27x3x3x27.Slices ![8, 0, 0, 0] S1x1x1x27
  slices_S27x34x34_o8_0_1_S1x32x32 : S27x34x34.Slices ![8, 0, 1] S1x32x32
  slices_S27x3x3x27_o8_0_1_0_S1x1x1x27 : S27x3x3x27.Slices ![8, 0, 1, 0] S1x1x1x27
  slices_S27x34x34_o8_0_2_S1x32x32 : S27x34x34.Slices ![8, 0, 2] S1x32x32
  slices_S27x3x3x27_o8_0_2_0_S1x1x1x27 : S27x3x3x27.Slices ![8, 0, 2, 0] S1x1x1x27
  slices_S27x34x34_o8_1_0_S1x32x32 : S27x34x34.Slices ![8, 1, 0] S1x32x32
  slices_S27x3x3x27_o8_1_0_0_S1x1x1x27 : S27x3x3x27.Slices ![8, 1, 0, 0] S1x1x1x27
  slices_S27x34x34_o8_1_1_S1x32x32 : S27x34x34.Slices ![8, 1, 1] S1x32x32
  slices_S27x3x3x27_o8_1_1_0_S1x1x1x27 : S27x3x3x27.Slices ![8, 1, 1, 0] S1x1x1x27
  slices_S27x34x34_o8_1_2_S1x32x32 : S27x34x34.Slices ![8, 1, 2] S1x32x32
  slices_S27x3x3x27_o8_1_2_0_S1x1x1x27 : S27x3x3x27.Slices ![8, 1, 2, 0] S1x1x1x27
  slices_S27x34x34_o8_2_0_S1x32x32 : S27x34x34.Slices ![8, 2, 0] S1x32x32
  slices_S27x3x3x27_o8_2_0_0_S1x1x1x27 : S27x3x3x27.Slices ![8, 2, 0, 0] S1x1x1x27
  slices_S27x34x34_o8_2_1_S1x32x32 : S27x34x34.Slices ![8, 2, 1] S1x32x32
  slices_S27x3x3x27_o8_2_1_0_S1x1x1x27 : S27x3x3x27.Slices ![8, 2, 1, 0] S1x1x1x27
  slices_S27x34x34_o8_2_2_S1x32x32 : S27x34x34.Slices ![8, 2, 2] S1x32x32
  slices_S27x3x3x27_o8_2_2_0_S1x1x1x27 : S27x3x3x27.Slices ![8, 2, 2, 0] S1x1x1x27
  slices_S27x34x34_o9_0_0_S1x32x32 : S27x34x34.Slices ![9, 0, 0] S1x32x32
  slices_S27x3x3x27_o9_0_0_0_S1x1x1x27 : S27x3x3x27.Slices ![9, 0, 0, 0] S1x1x1x27
  slices_S27x34x34_o9_0_1_S1x32x32 : S27x34x34.Slices ![9, 0, 1] S1x32x32
  slices_S27x3x3x27_o9_0_1_0_S1x1x1x27 : S27x3x3x27.Slices ![9, 0, 1, 0] S1x1x1x27
  slices_S27x34x34_o9_0_2_S1x32x32 : S27x34x34.Slices ![9, 0, 2] S1x32x32
  slices_S27x3x3x27_o9_0_2_0_S1x1x1x27 : S27x3x3x27.Slices ![9, 0, 2, 0] S1x1x1x27
  slices_S27x34x34_o9_1_0_S1x32x32 : S27x34x34.Slices ![9, 1, 0] S1x32x32
  slices_S27x3x3x27_o9_1_0_0_S1x1x1x27 : S27x3x3x27.Slices ![9, 1, 0, 0] S1x1x1x27
  slices_S27x34x34_o9_1_1_S1x32x32 : S27x34x34.Slices ![9, 1, 1] S1x32x32
  slices_S27x3x3x27_o9_1_1_0_S1x1x1x27 : S27x3x3x27.Slices ![9, 1, 1, 0] S1x1x1x27
  slices_S27x34x34_o9_1_2_S1x32x32 : S27x34x34.Slices ![9, 1, 2] S1x32x32
  slices_S27x3x3x27_o9_1_2_0_S1x1x1x27 : S27x3x3x27.Slices ![9, 1, 2, 0] S1x1x1x27
  slices_S27x34x34_o9_2_0_S1x32x32 : S27x34x34.Slices ![9, 2, 0] S1x32x32
  slices_S27x3x3x27_o9_2_0_0_S1x1x1x27 : S27x3x3x27.Slices ![9, 2, 0, 0] S1x1x1x27
  slices_S27x34x34_o9_2_1_S1x32x32 : S27x34x34.Slices ![9, 2, 1] S1x32x32
  slices_S27x3x3x27_o9_2_1_0_S1x1x1x27 : S27x3x3x27.Slices ![9, 2, 1, 0] S1x1x1x27
  slices_S27x34x34_o9_2_2_S1x32x32 : S27x34x34.Slices ![9, 2, 2] S1x32x32
  slices_S27x3x3x27_o9_2_2_0_S1x1x1x27 : S27x3x3x27.Slices ![9, 2, 2, 0] S1x1x1x27
  slices_S27x34x34_o10_0_0_S1x32x32 : S27x34x34.Slices ![10, 0, 0] S1x32x32
  slices_S27x3x3x27_o10_0_0_0_S1x1x1x27 : S27x3x3x27.Slices ![10, 0, 0, 0] S1x1x1x27
  slices_S27x34x34_o10_0_1_S1x32x32 : S27x34x34.Slices ![10, 0, 1] S1x32x32
  slices_S27x3x3x27_o10_0_1_0_S1x1x1x27 : S27x3x3x27.Slices ![10, 0, 1, 0] S1x1x1x27
  slices_S27x34x34_o10_0_2_S1x32x32 : S27x34x34.Slices ![10, 0, 2] S1x32x32
  slices_S27x3x3x27_o10_0_2_0_S1x1x1x27 : S27x3x3x27.Slices ![10, 0, 2, 0] S1x1x1x27
  slices_S27x34x34_o10_1_0_S1x32x32 : S27x34x34.Slices ![10, 1, 0] S1x32x32
  slices_S27x3x3x27_o10_1_0_0_S1x1x1x27 : S27x3x3x27.Slices ![10, 1, 0, 0] S1x1x1x27
  slices_S27x34x34_o10_1_1_S1x32x32 : S27x34x34.Slices ![10, 1, 1] S1x32x32
  slices_S27x3x3x27_o10_1_1_0_S1x1x1x27 : S27x3x3x27.Slices ![10, 1, 1, 0] S1x1x1x27
  slices_S27x34x34_o10_1_2_S1x32x32 : S27x34x34.Slices ![10, 1, 2] S1x32x32
  slices_S27x3x3x27_o10_1_2_0_S1x1x1x27 : S27x3x3x27.Slices ![10, 1, 2, 0] S1x1x1x27
  slices_S27x34x34_o10_2_0_S1x32x32 : S27x34x34.Slices ![10, 2, 0] S1x32x32
  slices_S27x3x3x27_o10_2_0_0_S1x1x1x27 : S27x3x3x27.Slices ![10, 2, 0, 0] S1x1x1x27
  slices_S27x34x34_o10_2_1_S1x32x32 : S27x34x34.Slices ![10, 2, 1] S1x32x32
  slices_S27x3x3x27_o10_2_1_0_S1x1x1x27 : S27x3x3x27.Slices ![10, 2, 1, 0] S1x1x1x27
  slices_S27x34x34_o10_2_2_S1x32x32 : S27x34x34.Slices ![10, 2, 2] S1x32x32
  slices_S27x3x3x27_o10_2_2_0_S1x1x1x27 : S27x3x3x27.Slices ![10, 2, 2, 0] S1x1x1x27
  slices_S27x34x34_o11_0_0_S1x32x32 : S27x34x34.Slices ![11, 0, 0] S1x32x32
  slices_S27x3x3x27_o11_0_0_0_S1x1x1x27 : S27x3x3x27.Slices ![11, 0, 0, 0] S1x1x1x27
  slices_S27x34x34_o11_0_1_S1x32x32 : S27x34x34.Slices ![11, 0, 1] S1x32x32
  slices_S27x3x3x27_o11_0_1_0_S1x1x1x27 : S27x3x3x27.Slices ![11, 0, 1, 0] S1x1x1x27
  slices_S27x34x34_o11_0_2_S1x32x32 : S27x34x34.Slices ![11, 0, 2] S1x32x32
  slices_S27x3x3x27_o11_0_2_0_S1x1x1x27 : S27x3x3x27.Slices ![11, 0, 2, 0] S1x1x1x27
  slices_S27x34x34_o11_1_0_S1x32x32 : S27x34x34.Slices ![11, 1, 0] S1x32x32
  slices_S27x3x3x27_o11_1_0_0_S1x1x1x27 : S27x3x3x27.Slices ![11, 1, 0, 0] S1x1x1x27
  slices_S27x34x34_o11_1_1_S1x32x32 : S27x34x34.Slices ![11, 1, 1] S1x32x32
  slices_S27x3x3x27_o11_1_1_0_S1x1x1x27 : S27x3x3x27.Slices ![11, 1, 1, 0] S1x1x1x27
  slices_S27x34x34_o11_1_2_S1x32x32 : S27x34x34.Slices ![11, 1, 2] S1x32x32
  slices_S27x3x3x27_o11_1_2_0_S1x1x1x27 : S27x3x3x27.Slices ![11, 1, 2, 0] S1x1x1x27
  slices_S27x34x34_o11_2_0_S1x32x32 : S27x34x34.Slices ![11, 2, 0] S1x32x32
  slices_S27x3x3x27_o11_2_0_0_S1x1x1x27 : S27x3x3x27.Slices ![11, 2, 0, 0] S1x1x1x27
  slices_S27x34x34_o11_2_1_S1x32x32 : S27x34x34.Slices ![11, 2, 1] S1x32x32
  slices_S27x3x3x27_o11_2_1_0_S1x1x1x27 : S27x3x3x27.Slices ![11, 2, 1, 0] S1x1x1x27
  slices_S27x34x34_o11_2_2_S1x32x32 : S27x34x34.Slices ![11, 2, 2] S1x32x32
  slices_S27x3x3x27_o11_2_2_0_S1x1x1x27 : S27x3x3x27.Slices ![11, 2, 2, 0] S1x1x1x27
  slices_S27x34x34_o12_0_0_S1x32x32 : S27x34x34.Slices ![12, 0, 0] S1x32x32
  slices_S27x3x3x27_o12_0_0_0_S1x1x1x27 : S27x3x3x27.Slices ![12, 0, 0, 0] S1x1x1x27
  slices_S27x34x34_o12_0_1_S1x32x32 : S27x34x34.Slices ![12, 0, 1] S1x32x32
  slices_S27x3x3x27_o12_0_1_0_S1x1x1x27 : S27x3x3x27.Slices ![12, 0, 1, 0] S1x1x1x27
  slices_S27x34x34_o12_0_2_S1x32x32 : S27x34x34.Slices ![12, 0, 2] S1x32x32
  slices_S27x3x3x27_o12_0_2_0_S1x1x1x27 : S27x3x3x27.Slices ![12, 0, 2, 0] S1x1x1x27
  slices_S27x34x34_o12_1_0_S1x32x32 : S27x34x34.Slices ![12, 1, 0] S1x32x32
  slices_S27x3x3x27_o12_1_0_0_S1x1x1x27 : S27x3x3x27.Slices ![12, 1, 0, 0] S1x1x1x27
  slices_S27x34x34_o12_1_1_S1x32x32 : S27x34x34.Slices ![12, 1, 1] S1x32x32
  slices_S27x3x3x27_o12_1_1_0_S1x1x1x27 : S27x3x3x27.Slices ![12, 1, 1, 0] S1x1x1x27
  slices_S27x34x34_o12_1_2_S1x32x32 : S27x34x34.Slices ![12, 1, 2] S1x32x32
  slices_S27x3x3x27_o12_1_2_0_S1x1x1x27 : S27x3x3x27.Slices ![12, 1, 2, 0] S1x1x1x27
  slices_S27x34x34_o12_2_0_S1x32x32 : S27x34x34.Slices ![12, 2, 0] S1x32x32
  slices_S27x3x3x27_o12_2_0_0_S1x1x1x27 : S27x3x3x27.Slices ![12, 2, 0, 0] S1x1x1x27
  slices_S27x34x34_o12_2_1_S1x32x32 : S27x34x34.Slices ![12, 2, 1] S1x32x32
  slices_S27x3x3x27_o12_2_1_0_S1x1x1x27 : S27x3x3x27.Slices ![12, 2, 1, 0] S1x1x1x27
  slices_S27x34x34_o12_2_2_S1x32x32 : S27x34x34.Slices ![12, 2, 2] S1x32x32
  slices_S27x3x3x27_o12_2_2_0_S1x1x1x27 : S27x3x3x27.Slices ![12, 2, 2, 0] S1x1x1x27
  slices_S27x34x34_o13_0_0_S1x32x32 : S27x34x34.Slices ![13, 0, 0] S1x32x32
  slices_S27x3x3x27_o13_0_0_0_S1x1x1x27 : S27x3x3x27.Slices ![13, 0, 0, 0] S1x1x1x27
  slices_S27x34x34_o13_0_1_S1x32x32 : S27x34x34.Slices ![13, 0, 1] S1x32x32
  slices_S27x3x3x27_o13_0_1_0_S1x1x1x27 : S27x3x3x27.Slices ![13, 0, 1, 0] S1x1x1x27
  slices_S27x34x34_o13_0_2_S1x32x32 : S27x34x34.Slices ![13, 0, 2] S1x32x32
  slices_S27x3x3x27_o13_0_2_0_S1x1x1x27 : S27x3x3x27.Slices ![13, 0, 2, 0] S1x1x1x27
  slices_S27x34x34_o13_1_0_S1x32x32 : S27x34x34.Slices ![13, 1, 0] S1x32x32
  slices_S27x3x3x27_o13_1_0_0_S1x1x1x27 : S27x3x3x27.Slices ![13, 1, 0, 0] S1x1x1x27
  slices_S27x34x34_o13_1_1_S1x32x32 : S27x34x34.Slices ![13, 1, 1] S1x32x32
  slices_S27x3x3x27_o13_1_1_0_S1x1x1x27 : S27x3x3x27.Slices ![13, 1, 1, 0] S1x1x1x27
  slices_S27x34x34_o13_1_2_S1x32x32 : S27x34x34.Slices ![13, 1, 2] S1x32x32
  slices_S27x3x3x27_o13_1_2_0_S1x1x1x27 : S27x3x3x27.Slices ![13, 1, 2, 0] S1x1x1x27
  slices_S27x34x34_o13_2_0_S1x32x32 : S27x34x34.Slices ![13, 2, 0] S1x32x32
  slices_S27x3x3x27_o13_2_0_0_S1x1x1x27 : S27x3x3x27.Slices ![13, 2, 0, 0] S1x1x1x27
  slices_S27x34x34_o13_2_1_S1x32x32 : S27x34x34.Slices ![13, 2, 1] S1x32x32
  slices_S27x3x3x27_o13_2_1_0_S1x1x1x27 : S27x3x3x27.Slices ![13, 2, 1, 0] S1x1x1x27
  slices_S27x34x34_o13_2_2_S1x32x32 : S27x34x34.Slices ![13, 2, 2] S1x32x32
  slices_S27x3x3x27_o13_2_2_0_S1x1x1x27 : S27x3x3x27.Slices ![13, 2, 2, 0] S1x1x1x27
  slices_S27x34x34_o14_0_0_S1x32x32 : S27x34x34.Slices ![14, 0, 0] S1x32x32
  slices_S27x3x3x27_o14_0_0_0_S1x1x1x27 : S27x3x3x27.Slices ![14, 0, 0, 0] S1x1x1x27
  slices_S27x34x34_o14_0_1_S1x32x32 : S27x34x34.Slices ![14, 0, 1] S1x32x32
  slices_S27x3x3x27_o14_0_1_0_S1x1x1x27 : S27x3x3x27.Slices ![14, 0, 1, 0] S1x1x1x27
  slices_S27x34x34_o14_0_2_S1x32x32 : S27x34x34.Slices ![14, 0, 2] S1x32x32
  slices_S27x3x3x27_o14_0_2_0_S1x1x1x27 : S27x3x3x27.Slices ![14, 0, 2, 0] S1x1x1x27
  slices_S27x34x34_o14_1_0_S1x32x32 : S27x34x34.Slices ![14, 1, 0] S1x32x32
  slices_S27x3x3x27_o14_1_0_0_S1x1x1x27 : S27x3x3x27.Slices ![14, 1, 0, 0] S1x1x1x27
  slices_S27x34x34_o14_1_1_S1x32x32 : S27x34x34.Slices ![14, 1, 1] S1x32x32
  slices_S27x3x3x27_o14_1_1_0_S1x1x1x27 : S27x3x3x27.Slices ![14, 1, 1, 0] S1x1x1x27
  slices_S27x34x34_o14_1_2_S1x32x32 : S27x34x34.Slices ![14, 1, 2] S1x32x32
  slices_S27x3x3x27_o14_1_2_0_S1x1x1x27 : S27x3x3x27.Slices ![14, 1, 2, 0] S1x1x1x27
  slices_S27x34x34_o14_2_0_S1x32x32 : S27x34x34.Slices ![14, 2, 0] S1x32x32
  slices_S27x3x3x27_o14_2_0_0_S1x1x1x27 : S27x3x3x27.Slices ![14, 2, 0, 0] S1x1x1x27
  slices_S27x34x34_o14_2_1_S1x32x32 : S27x34x34.Slices ![14, 2, 1] S1x32x32
  slices_S27x3x3x27_o14_2_1_0_S1x1x1x27 : S27x3x3x27.Slices ![14, 2, 1, 0] S1x1x1x27
  slices_S27x34x34_o14_2_2_S1x32x32 : S27x34x34.Slices ![14, 2, 2] S1x32x32
  slices_S27x3x3x27_o14_2_2_0_S1x1x1x27 : S27x3x3x27.Slices ![14, 2, 2, 0] S1x1x1x27
  slices_S27x34x34_o15_0_0_S1x32x32 : S27x34x34.Slices ![15, 0, 0] S1x32x32
  slices_S27x3x3x27_o15_0_0_0_S1x1x1x27 : S27x3x3x27.Slices ![15, 0, 0, 0] S1x1x1x27
  slices_S27x34x34_o15_0_1_S1x32x32 : S27x34x34.Slices ![15, 0, 1] S1x32x32
  slices_S27x3x3x27_o15_0_1_0_S1x1x1x27 : S27x3x3x27.Slices ![15, 0, 1, 0] S1x1x1x27
  slices_S27x34x34_o15_0_2_S1x32x32 : S27x34x34.Slices ![15, 0, 2] S1x32x32
  slices_S27x3x3x27_o15_0_2_0_S1x1x1x27 : S27x3x3x27.Slices ![15, 0, 2, 0] S1x1x1x27
  slices_S27x34x34_o15_1_0_S1x32x32 : S27x34x34.Slices ![15, 1, 0] S1x32x32
  slices_S27x3x3x27_o15_1_0_0_S1x1x1x27 : S27x3x3x27.Slices ![15, 1, 0, 0] S1x1x1x27
  slices_S27x34x34_o15_1_1_S1x32x32 : S27x34x34.Slices ![15, 1, 1] S1x32x32
  slices_S27x3x3x27_o15_1_1_0_S1x1x1x27 : S27x3x3x27.Slices ![15, 1, 1, 0] S1x1x1x27
  slices_S27x34x34_o15_1_2_S1x32x32 : S27x34x34.Slices ![15, 1, 2] S1x32x32
  slices_S27x3x3x27_o15_1_2_0_S1x1x1x27 : S27x3x3x27.Slices ![15, 1, 2, 0] S1x1x1x27
  slices_S27x34x34_o15_2_0_S1x32x32 : S27x34x34.Slices ![15, 2, 0] S1x32x32
  slices_S27x3x3x27_o15_2_0_0_S1x1x1x27 : S27x3x3x27.Slices ![15, 2, 0, 0] S1x1x1x27
  slices_S27x34x34_o15_2_1_S1x32x32 : S27x34x34.Slices ![15, 2, 1] S1x32x32
  slices_S27x3x3x27_o15_2_1_0_S1x1x1x27 : S27x3x3x27.Slices ![15, 2, 1, 0] S1x1x1x27
  slices_S27x34x34_o15_2_2_S1x32x32 : S27x34x34.Slices ![15, 2, 2] S1x32x32
  slices_S27x3x3x27_o15_2_2_0_S1x1x1x27 : S27x3x3x27.Slices ![15, 2, 2, 0] S1x1x1x27
  slices_S27x34x34_o16_0_0_S1x32x32 : S27x34x34.Slices ![16, 0, 0] S1x32x32
  slices_S27x3x3x27_o16_0_0_0_S1x1x1x27 : S27x3x3x27.Slices ![16, 0, 0, 0] S1x1x1x27
  slices_S27x34x34_o16_0_1_S1x32x32 : S27x34x34.Slices ![16, 0, 1] S1x32x32
  slices_S27x3x3x27_o16_0_1_0_S1x1x1x27 : S27x3x3x27.Slices ![16, 0, 1, 0] S1x1x1x27
  slices_S27x34x34_o16_0_2_S1x32x32 : S27x34x34.Slices ![16, 0, 2] S1x32x32
  slices_S27x3x3x27_o16_0_2_0_S1x1x1x27 : S27x3x3x27.Slices ![16, 0, 2, 0] S1x1x1x27
  slices_S27x34x34_o16_1_0_S1x32x32 : S27x34x34.Slices ![16, 1, 0] S1x32x32
  slices_S27x3x3x27_o16_1_0_0_S1x1x1x27 : S27x3x3x27.Slices ![16, 1, 0, 0] S1x1x1x27
  slices_S27x34x34_o16_1_1_S1x32x32 : S27x34x34.Slices ![16, 1, 1] S1x32x32
  slices_S27x3x3x27_o16_1_1_0_S1x1x1x27 : S27x3x3x27.Slices ![16, 1, 1, 0] S1x1x1x27
  slices_S27x34x34_o16_1_2_S1x32x32 : S27x34x34.Slices ![16, 1, 2] S1x32x32
  slices_S27x3x3x27_o16_1_2_0_S1x1x1x27 : S27x3x3x27.Slices ![16, 1, 2, 0] S1x1x1x27
  slices_S27x34x34_o16_2_0_S1x32x32 : S27x34x34.Slices ![16, 2, 0] S1x32x32
  slices_S27x3x3x27_o16_2_0_0_S1x1x1x27 : S27x3x3x27.Slices ![16, 2, 0, 0] S1x1x1x27
  slices_S27x34x34_o16_2_1_S1x32x32 : S27x34x34.Slices ![16, 2, 1] S1x32x32
  slices_S27x3x3x27_o16_2_1_0_S1x1x1x27 : S27x3x3x27.Slices ![16, 2, 1, 0] S1x1x1x27
  slices_S27x34x34_o16_2_2_S1x32x32 : S27x34x34.Slices ![16, 2, 2] S1x32x32
  slices_S27x3x3x27_o16_2_2_0_S1x1x1x27 : S27x3x3x27.Slices ![16, 2, 2, 0] S1x1x1x27
  slices_S27x34x34_o17_0_0_S1x32x32 : S27x34x34.Slices ![17, 0, 0] S1x32x32
  slices_S27x3x3x27_o17_0_0_0_S1x1x1x27 : S27x3x3x27.Slices ![17, 0, 0, 0] S1x1x1x27
  slices_S27x34x34_o17_0_1_S1x32x32 : S27x34x34.Slices ![17, 0, 1] S1x32x32
  slices_S27x3x3x27_o17_0_1_0_S1x1x1x27 : S27x3x3x27.Slices ![17, 0, 1, 0] S1x1x1x27
  slices_S27x34x34_o17_0_2_S1x32x32 : S27x34x34.Slices ![17, 0, 2] S1x32x32
  slices_S27x3x3x27_o17_0_2_0_S1x1x1x27 : S27x3x3x27.Slices ![17, 0, 2, 0] S1x1x1x27
  slices_S27x34x34_o17_1_0_S1x32x32 : S27x34x34.Slices ![17, 1, 0] S1x32x32
  slices_S27x3x3x27_o17_1_0_0_S1x1x1x27 : S27x3x3x27.Slices ![17, 1, 0, 0] S1x1x1x27
  slices_S27x34x34_o17_1_1_S1x32x32 : S27x34x34.Slices ![17, 1, 1] S1x32x32
  slices_S27x3x3x27_o17_1_1_0_S1x1x1x27 : S27x3x3x27.Slices ![17, 1, 1, 0] S1x1x1x27
  slices_S27x34x34_o17_1_2_S1x32x32 : S27x34x34.Slices ![17, 1, 2] S1x32x32
  slices_S27x3x3x27_o17_1_2_0_S1x1x1x27 : S27x3x3x27.Slices ![17, 1, 2, 0] S1x1x1x27
  slices_S27x34x34_o17_2_0_S1x32x32 : S27x34x34.Slices ![17, 2, 0] S1x32x32
  slices_S27x3x3x27_o17_2_0_0_S1x1x1x27 : S27x3x3x27.Slices ![17, 2, 0, 0] S1x1x1x27
  slices_S27x34x34_o17_2_1_S1x32x32 : S27x34x34.Slices ![17, 2, 1] S1x32x32
  slices_S27x3x3x27_o17_2_1_0_S1x1x1x27 : S27x3x3x27.Slices ![17, 2, 1, 0] S1x1x1x27
  slices_S27x34x34_o17_2_2_S1x32x32 : S27x34x34.Slices ![17, 2, 2] S1x32x32
  slices_S27x3x3x27_o17_2_2_0_S1x1x1x27 : S27x3x3x27.Slices ![17, 2, 2, 0] S1x1x1x27
  slices_S27x34x34_o18_0_0_S1x32x32 : S27x34x34.Slices ![18, 0, 0] S1x32x32
  slices_S27x3x3x27_o18_0_0_0_S1x1x1x27 : S27x3x3x27.Slices ![18, 0, 0, 0] S1x1x1x27
  slices_S27x34x34_o18_0_1_S1x32x32 : S27x34x34.Slices ![18, 0, 1] S1x32x32
  slices_S27x3x3x27_o18_0_1_0_S1x1x1x27 : S27x3x3x27.Slices ![18, 0, 1, 0] S1x1x1x27
  slices_S27x34x34_o18_0_2_S1x32x32 : S27x34x34.Slices ![18, 0, 2] S1x32x32
  slices_S27x3x3x27_o18_0_2_0_S1x1x1x27 : S27x3x3x27.Slices ![18, 0, 2, 0] S1x1x1x27
  slices_S27x34x34_o18_1_0_S1x32x32 : S27x34x34.Slices ![18, 1, 0] S1x32x32
  slices_S27x3x3x27_o18_1_0_0_S1x1x1x27 : S27x3x3x27.Slices ![18, 1, 0, 0] S1x1x1x27
  slices_S27x34x34_o18_1_1_S1x32x32 : S27x34x34.Slices ![18, 1, 1] S1x32x32
  slices_S27x3x3x27_o18_1_1_0_S1x1x1x27 : S27x3x3x27.Slices ![18, 1, 1, 0] S1x1x1x27
  slices_S27x34x34_o18_1_2_S1x32x32 : S27x34x34.Slices ![18, 1, 2] S1x32x32
  slices_S27x3x3x27_o18_1_2_0_S1x1x1x27 : S27x3x3x27.Slices ![18, 1, 2, 0] S1x1x1x27
  slices_S27x34x34_o18_2_0_S1x32x32 : S27x34x34.Slices ![18, 2, 0] S1x32x32
  slices_S27x3x3x27_o18_2_0_0_S1x1x1x27 : S27x3x3x27.Slices ![18, 2, 0, 0] S1x1x1x27
  slices_S27x34x34_o18_2_1_S1x32x32 : S27x34x34.Slices ![18, 2, 1] S1x32x32
  slices_S27x3x3x27_o18_2_1_0_S1x1x1x27 : S27x3x3x27.Slices ![18, 2, 1, 0] S1x1x1x27
  slices_S27x34x34_o18_2_2_S1x32x32 : S27x34x34.Slices ![18, 2, 2] S1x32x32
  slices_S27x3x3x27_o18_2_2_0_S1x1x1x27 : S27x3x3x27.Slices ![18, 2, 2, 0] S1x1x1x27
  slices_S27x34x34_o19_0_0_S1x32x32 : S27x34x34.Slices ![19, 0, 0] S1x32x32
  slices_S27x3x3x27_o19_0_0_0_S1x1x1x27 : S27x3x3x27.Slices ![19, 0, 0, 0] S1x1x1x27
  slices_S27x34x34_o19_0_1_S1x32x32 : S27x34x34.Slices ![19, 0, 1] S1x32x32
  slices_S27x3x3x27_o19_0_1_0_S1x1x1x27 : S27x3x3x27.Slices ![19, 0, 1, 0] S1x1x1x27
  slices_S27x34x34_o19_0_2_S1x32x32 : S27x34x34.Slices ![19, 0, 2] S1x32x32
  slices_S27x3x3x27_o19_0_2_0_S1x1x1x27 : S27x3x3x27.Slices ![19, 0, 2, 0] S1x1x1x27
  slices_S27x34x34_o19_1_0_S1x32x32 : S27x34x34.Slices ![19, 1, 0] S1x32x32
  slices_S27x3x3x27_o19_1_0_0_S1x1x1x27 : S27x3x3x27.Slices ![19, 1, 0, 0] S1x1x1x27
  slices_S27x34x34_o19_1_1_S1x32x32 : S27x34x34.Slices ![19, 1, 1] S1x32x32
  slices_S27x3x3x27_o19_1_1_0_S1x1x1x27 : S27x3x3x27.Slices ![19, 1, 1, 0] S1x1x1x27
  slices_S27x34x34_o19_1_2_S1x32x32 : S27x34x34.Slices ![19, 1, 2] S1x32x32
  slices_S27x3x3x27_o19_1_2_0_S1x1x1x27 : S27x3x3x27.Slices ![19, 1, 2, 0] S1x1x1x27
  slices_S27x34x34_o19_2_0_S1x32x32 : S27x34x34.Slices ![19, 2, 0] S1x32x32
  slices_S27x3x3x27_o19_2_0_0_S1x1x1x27 : S27x3x3x27.Slices ![19, 2, 0, 0] S1x1x1x27
  slices_S27x34x34_o19_2_1_S1x32x32 : S27x34x34.Slices ![19, 2, 1] S1x32x32
  slices_S27x3x3x27_o19_2_1_0_S1x1x1x27 : S27x3x3x27.Slices ![19, 2, 1, 0] S1x1x1x27
  slices_S27x34x34_o19_2_2_S1x32x32 : S27x34x34.Slices ![19, 2, 2] S1x32x32
  slices_S27x3x3x27_o19_2_2_0_S1x1x1x27 : S27x3x3x27.Slices ![19, 2, 2, 0] S1x1x1x27
  slices_S27x34x34_o20_0_0_S1x32x32 : S27x34x34.Slices ![20, 0, 0] S1x32x32
  slices_S27x3x3x27_o20_0_0_0_S1x1x1x27 : S27x3x3x27.Slices ![20, 0, 0, 0] S1x1x1x27
  slices_S27x34x34_o20_0_1_S1x32x32 : S27x34x34.Slices ![20, 0, 1] S1x32x32
  slices_S27x3x3x27_o20_0_1_0_S1x1x1x27 : S27x3x3x27.Slices ![20, 0, 1, 0] S1x1x1x27
  slices_S27x34x34_o20_0_2_S1x32x32 : S27x34x34.Slices ![20, 0, 2] S1x32x32
  slices_S27x3x3x27_o20_0_2_0_S1x1x1x27 : S27x3x3x27.Slices ![20, 0, 2, 0] S1x1x1x27
  slices_S27x34x34_o20_1_0_S1x32x32 : S27x34x34.Slices ![20, 1, 0] S1x32x32
  slices_S27x3x3x27_o20_1_0_0_S1x1x1x27 : S27x3x3x27.Slices ![20, 1, 0, 0] S1x1x1x27
  slices_S27x34x34_o20_1_1_S1x32x32 : S27x34x34.Slices ![20, 1, 1] S1x32x32
  slices_S27x3x3x27_o20_1_1_0_S1x1x1x27 : S27x3x3x27.Slices ![20, 1, 1, 0] S1x1x1x27
  slices_S27x34x34_o20_1_2_S1x32x32 : S27x34x34.Slices ![20, 1, 2] S1x32x32
  slices_S27x3x3x27_o20_1_2_0_S1x1x1x27 : S27x3x3x27.Slices ![20, 1, 2, 0] S1x1x1x27
  slices_S27x34x34_o20_2_0_S1x32x32 : S27x34x34.Slices ![20, 2, 0] S1x32x32
  slices_S27x3x3x27_o20_2_0_0_S1x1x1x27 : S27x3x3x27.Slices ![20, 2, 0, 0] S1x1x1x27
  slices_S27x34x34_o20_2_1_S1x32x32 : S27x34x34.Slices ![20, 2, 1] S1x32x32
  slices_S27x3x3x27_o20_2_1_0_S1x1x1x27 : S27x3x3x27.Slices ![20, 2, 1, 0] S1x1x1x27
  slices_S27x34x34_o20_2_2_S1x32x32 : S27x34x34.Slices ![20, 2, 2] S1x32x32
  slices_S27x3x3x27_o20_2_2_0_S1x1x1x27 : S27x3x3x27.Slices ![20, 2, 2, 0] S1x1x1x27
  slices_S27x34x34_o21_0_0_S1x32x32 : S27x34x34.Slices ![21, 0, 0] S1x32x32
  slices_S27x3x3x27_o21_0_0_0_S1x1x1x27 : S27x3x3x27.Slices ![21, 0, 0, 0] S1x1x1x27
  slices_S27x34x34_o21_0_1_S1x32x32 : S27x34x34.Slices ![21, 0, 1] S1x32x32
  slices_S27x3x3x27_o21_0_1_0_S1x1x1x27 : S27x3x3x27.Slices ![21, 0, 1, 0] S1x1x1x27
  slices_S27x34x34_o21_0_2_S1x32x32 : S27x34x34.Slices ![21, 0, 2] S1x32x32
  slices_S27x3x3x27_o21_0_2_0_S1x1x1x27 : S27x3x3x27.Slices ![21, 0, 2, 0] S1x1x1x27
  slices_S27x34x34_o21_1_0_S1x32x32 : S27x34x34.Slices ![21, 1, 0] S1x32x32
  slices_S27x3x3x27_o21_1_0_0_S1x1x1x27 : S27x3x3x27.Slices ![21, 1, 0, 0] S1x1x1x27
  slices_S27x34x34_o21_1_1_S1x32x32 : S27x34x34.Slices ![21, 1, 1] S1x32x32
  slices_S27x3x3x27_o21_1_1_0_S1x1x1x27 : S27x3x3x27.Slices ![21, 1, 1, 0] S1x1x1x27
  slices_S27x34x34_o21_1_2_S1x32x32 : S27x34x34.Slices ![21, 1, 2] S1x32x32
  slices_S27x3x3x27_o21_1_2_0_S1x1x1x27 : S27x3x3x27.Slices ![21, 1, 2, 0] S1x1x1x27
  slices_S27x34x34_o21_2_0_S1x32x32 : S27x34x34.Slices ![21, 2, 0] S1x32x32
  slices_S27x3x3x27_o21_2_0_0_S1x1x1x27 : S27x3x3x27.Slices ![21, 2, 0, 0] S1x1x1x27
  slices_S27x34x34_o21_2_1_S1x32x32 : S27x34x34.Slices ![21, 2, 1] S1x32x32
  slices_S27x3x3x27_o21_2_1_0_S1x1x1x27 : S27x3x3x27.Slices ![21, 2, 1, 0] S1x1x1x27
  slices_S27x34x34_o21_2_2_S1x32x32 : S27x34x34.Slices ![21, 2, 2] S1x32x32
  slices_S27x3x3x27_o21_2_2_0_S1x1x1x27 : S27x3x3x27.Slices ![21, 2, 2, 0] S1x1x1x27
  slices_S27x34x34_o22_0_0_S1x32x32 : S27x34x34.Slices ![22, 0, 0] S1x32x32
  slices_S27x3x3x27_o22_0_0_0_S1x1x1x27 : S27x3x3x27.Slices ![22, 0, 0, 0] S1x1x1x27
  slices_S27x34x34_o22_0_1_S1x32x32 : S27x34x34.Slices ![22, 0, 1] S1x32x32
  slices_S27x3x3x27_o22_0_1_0_S1x1x1x27 : S27x3x3x27.Slices ![22, 0, 1, 0] S1x1x1x27
  slices_S27x34x34_o22_0_2_S1x32x32 : S27x34x34.Slices ![22, 0, 2] S1x32x32
  slices_S27x3x3x27_o22_0_2_0_S1x1x1x27 : S27x3x3x27.Slices ![22, 0, 2, 0] S1x1x1x27
  slices_S27x34x34_o22_1_0_S1x32x32 : S27x34x34.Slices ![22, 1, 0] S1x32x32
  slices_S27x3x3x27_o22_1_0_0_S1x1x1x27 : S27x3x3x27.Slices ![22, 1, 0, 0] S1x1x1x27
  slices_S27x34x34_o22_1_1_S1x32x32 : S27x34x34.Slices ![22, 1, 1] S1x32x32
  slices_S27x3x3x27_o22_1_1_0_S1x1x1x27 : S27x3x3x27.Slices ![22, 1, 1, 0] S1x1x1x27
  slices_S27x34x34_o22_1_2_S1x32x32 : S27x34x34.Slices ![22, 1, 2] S1x32x32
  slices_S27x3x3x27_o22_1_2_0_S1x1x1x27 : S27x3x3x27.Slices ![22, 1, 2, 0] S1x1x1x27
  slices_S27x34x34_o22_2_0_S1x32x32 : S27x34x34.Slices ![22, 2, 0] S1x32x32
  slices_S27x3x3x27_o22_2_0_0_S1x1x1x27 : S27x3x3x27.Slices ![22, 2, 0, 0] S1x1x1x27
  slices_S27x34x34_o22_2_1_S1x32x32 : S27x34x34.Slices ![22, 2, 1] S1x32x32
  slices_S27x3x3x27_o22_2_1_0_S1x1x1x27 : S27x3x3x27.Slices ![22, 2, 1, 0] S1x1x1x27
  slices_S27x34x34_o22_2_2_S1x32x32 : S27x34x34.Slices ![22, 2, 2] S1x32x32
  slices_S27x3x3x27_o22_2_2_0_S1x1x1x27 : S27x3x3x27.Slices ![22, 2, 2, 0] S1x1x1x27
  slices_S27x34x34_o23_0_0_S1x32x32 : S27x34x34.Slices ![23, 0, 0] S1x32x32
  slices_S27x3x3x27_o23_0_0_0_S1x1x1x27 : S27x3x3x27.Slices ![23, 0, 0, 0] S1x1x1x27
  slices_S27x34x34_o23_0_1_S1x32x32 : S27x34x34.Slices ![23, 0, 1] S1x32x32
  slices_S27x3x3x27_o23_0_1_0_S1x1x1x27 : S27x3x3x27.Slices ![23, 0, 1, 0] S1x1x1x27
  slices_S27x34x34_o23_0_2_S1x32x32 : S27x34x34.Slices ![23, 0, 2] S1x32x32
  slices_S27x3x3x27_o23_0_2_0_S1x1x1x27 : S27x3x3x27.Slices ![23, 0, 2, 0] S1x1x1x27
  slices_S27x34x34_o23_1_0_S1x32x32 : S27x34x34.Slices ![23, 1, 0] S1x32x32
  slices_S27x3x3x27_o23_1_0_0_S1x1x1x27 : S27x3x3x27.Slices ![23, 1, 0, 0] S1x1x1x27
  slices_S27x34x34_o23_1_1_S1x32x32 : S27x34x34.Slices ![23, 1, 1] S1x32x32
  slices_S27x3x3x27_o23_1_1_0_S1x1x1x27 : S27x3x3x27.Slices ![23, 1, 1, 0] S1x1x1x27
  slices_S27x34x34_o23_1_2_S1x32x32 : S27x34x34.Slices ![23, 1, 2] S1x32x32
  slices_S27x3x3x27_o23_1_2_0_S1x1x1x27 : S27x3x3x27.Slices ![23, 1, 2, 0] S1x1x1x27
  slices_S27x34x34_o23_2_0_S1x32x32 : S27x34x34.Slices ![23, 2, 0] S1x32x32
  slices_S27x3x3x27_o23_2_0_0_S1x1x1x27 : S27x3x3x27.Slices ![23, 2, 0, 0] S1x1x1x27
  slices_S27x34x34_o23_2_1_S1x32x32 : S27x34x34.Slices ![23, 2, 1] S1x32x32
  slices_S27x3x3x27_o23_2_1_0_S1x1x1x27 : S27x3x3x27.Slices ![23, 2, 1, 0] S1x1x1x27
  slices_S27x34x34_o23_2_2_S1x32x32 : S27x34x34.Slices ![23, 2, 2] S1x32x32
  slices_S27x3x3x27_o23_2_2_0_S1x1x1x27 : S27x3x3x27.Slices ![23, 2, 2, 0] S1x1x1x27
  slices_S27x34x34_o24_0_0_S1x32x32 : S27x34x34.Slices ![24, 0, 0] S1x32x32
  slices_S27x3x3x27_o24_0_0_0_S1x1x1x27 : S27x3x3x27.Slices ![24, 0, 0, 0] S1x1x1x27
  slices_S27x34x34_o24_0_1_S1x32x32 : S27x34x34.Slices ![24, 0, 1] S1x32x32
  slices_S27x3x3x27_o24_0_1_0_S1x1x1x27 : S27x3x3x27.Slices ![24, 0, 1, 0] S1x1x1x27
  slices_S27x34x34_o24_0_2_S1x32x32 : S27x34x34.Slices ![24, 0, 2] S1x32x32
  slices_S27x3x3x27_o24_0_2_0_S1x1x1x27 : S27x3x3x27.Slices ![24, 0, 2, 0] S1x1x1x27
  slices_S27x34x34_o24_1_0_S1x32x32 : S27x34x34.Slices ![24, 1, 0] S1x32x32
  slices_S27x3x3x27_o24_1_0_0_S1x1x1x27 : S27x3x3x27.Slices ![24, 1, 0, 0] S1x1x1x27
  slices_S27x34x34_o24_1_1_S1x32x32 : S27x34x34.Slices ![24, 1, 1] S1x32x32
  slices_S27x3x3x27_o24_1_1_0_S1x1x1x27 : S27x3x3x27.Slices ![24, 1, 1, 0] S1x1x1x27
  slices_S27x34x34_o24_1_2_S1x32x32 : S27x34x34.Slices ![24, 1, 2] S1x32x32
  slices_S27x3x3x27_o24_1_2_0_S1x1x1x27 : S27x3x3x27.Slices ![24, 1, 2, 0] S1x1x1x27
  slices_S27x34x34_o24_2_0_S1x32x32 : S27x34x34.Slices ![24, 2, 0] S1x32x32
  slices_S27x3x3x27_o24_2_0_0_S1x1x1x27 : S27x3x3x27.Slices ![24, 2, 0, 0] S1x1x1x27
  slices_S27x34x34_o24_2_1_S1x32x32 : S27x34x34.Slices ![24, 2, 1] S1x32x32
  slices_S27x3x3x27_o24_2_1_0_S1x1x1x27 : S27x3x3x27.Slices ![24, 2, 1, 0] S1x1x1x27
  slices_S27x34x34_o24_2_2_S1x32x32 : S27x34x34.Slices ![24, 2, 2] S1x32x32
  slices_S27x3x3x27_o24_2_2_0_S1x1x1x27 : S27x3x3x27.Slices ![24, 2, 2, 0] S1x1x1x27
  slices_S27x34x34_o25_0_0_S1x32x32 : S27x34x34.Slices ![25, 0, 0] S1x32x32
  slices_S27x3x3x27_o25_0_0_0_S1x1x1x27 : S27x3x3x27.Slices ![25, 0, 0, 0] S1x1x1x27
  slices_S27x34x34_o25_0_1_S1x32x32 : S27x34x34.Slices ![25, 0, 1] S1x32x32
  slices_S27x3x3x27_o25_0_1_0_S1x1x1x27 : S27x3x3x27.Slices ![25, 0, 1, 0] S1x1x1x27
  slices_S27x34x34_o25_0_2_S1x32x32 : S27x34x34.Slices ![25, 0, 2] S1x32x32
  slices_S27x3x3x27_o25_0_2_0_S1x1x1x27 : S27x3x3x27.Slices ![25, 0, 2, 0] S1x1x1x27
  slices_S27x34x34_o25_1_0_S1x32x32 : S27x34x34.Slices ![25, 1, 0] S1x32x32
  slices_S27x3x3x27_o25_1_0_0_S1x1x1x27 : S27x3x3x27.Slices ![25, 1, 0, 0] S1x1x1x27
  slices_S27x34x34_o25_1_1_S1x32x32 : S27x34x34.Slices ![25, 1, 1] S1x32x32
  slices_S27x3x3x27_o25_1_1_0_S1x1x1x27 : S27x3x3x27.Slices ![25, 1, 1, 0] S1x1x1x27
  slices_S27x34x34_o25_1_2_S1x32x32 : S27x34x34.Slices ![25, 1, 2] S1x32x32
  slices_S27x3x3x27_o25_1_2_0_S1x1x1x27 : S27x3x3x27.Slices ![25, 1, 2, 0] S1x1x1x27
  slices_S27x34x34_o25_2_0_S1x32x32 : S27x34x34.Slices ![25, 2, 0] S1x32x32
  slices_S27x3x3x27_o25_2_0_0_S1x1x1x27 : S27x3x3x27.Slices ![25, 2, 0, 0] S1x1x1x27
  slices_S27x34x34_o25_2_1_S1x32x32 : S27x34x34.Slices ![25, 2, 1] S1x32x32
  slices_S27x3x3x27_o25_2_1_0_S1x1x1x27 : S27x3x3x27.Slices ![25, 2, 1, 0] S1x1x1x27
  slices_S27x34x34_o25_2_2_S1x32x32 : S27x34x34.Slices ![25, 2, 2] S1x32x32
  slices_S27x3x3x27_o25_2_2_0_S1x1x1x27 : S27x3x3x27.Slices ![25, 2, 2, 0] S1x1x1x27
  slices_S27x34x34_o26_0_0_S1x32x32 : S27x34x34.Slices ![26, 0, 0] S1x32x32
  slices_S27x3x3x27_o26_0_0_0_S1x1x1x27 : S27x3x3x27.Slices ![26, 0, 0, 0] S1x1x1x27
  slices_S27x34x34_o26_0_1_S1x32x32 : S27x34x34.Slices ![26, 0, 1] S1x32x32
  slices_S27x3x3x27_o26_0_1_0_S1x1x1x27 : S27x3x3x27.Slices ![26, 0, 1, 0] S1x1x1x27
  slices_S27x34x34_o26_0_2_S1x32x32 : S27x34x34.Slices ![26, 0, 2] S1x32x32
  slices_S27x3x3x27_o26_0_2_0_S1x1x1x27 : S27x3x3x27.Slices ![26, 0, 2, 0] S1x1x1x27
  slices_S27x34x34_o26_1_0_S1x32x32 : S27x34x34.Slices ![26, 1, 0] S1x32x32
  slices_S27x3x3x27_o26_1_0_0_S1x1x1x27 : S27x3x3x27.Slices ![26, 1, 0, 0] S1x1x1x27
  slices_S27x34x34_o26_1_1_S1x32x32 : S27x34x34.Slices ![26, 1, 1] S1x32x32
  slices_S27x3x3x27_o26_1_1_0_S1x1x1x27 : S27x3x3x27.Slices ![26, 1, 1, 0] S1x1x1x27
  slices_S27x34x34_o26_1_2_S1x32x32 : S27x34x34.Slices ![26, 1, 2] S1x32x32
  slices_S27x3x3x27_o26_1_2_0_S1x1x1x27 : S27x3x3x27.Slices ![26, 1, 2, 0] S1x1x1x27
  slices_S27x34x34_o26_2_0_S1x32x32 : S27x34x34.Slices ![26, 2, 0] S1x32x32
  slices_S27x3x3x27_o26_2_0_0_S1x1x1x27 : S27x3x3x27.Slices ![26, 2, 0, 0] S1x1x1x27
  slices_S27x34x34_o26_2_1_S1x32x32 : S27x34x34.Slices ![26, 2, 1] S1x32x32
  slices_S27x3x3x27_o26_2_1_0_S1x1x1x27 : S27x3x3x27.Slices ![26, 2, 1, 0] S1x1x1x27
  slices_S27x34x34_o26_2_2_S1x32x32 : S27x34x34.Slices ![26, 2, 2] S1x32x32
  slices_S27x3x3x27_o26_2_2_0_S1x1x1x27 : S27x3x3x27.Slices ![26, 2, 2, 0] S1x1x1x27
  inb_S1x27x32x32_S1x27x32x32_0_0_0_0 : ∀ a, (![0, 0, 0, 0] : Fin 4 → Nat) a + S1x27x32x32.size a ≤ S1x27x32x32.size a
  h_S1x27x32x32 : 0 < S1x27x32x32.numel
  shapeCasts_S1x27x32x32_S27x32x32 : S1x27x32x32.ShapeCasts S27x32x32
  shapeCasts_S27x32x32_S1x27x32x32 : S27x32x32.ShapeCasts S1x27x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x27x34x34.size a ≤ S8x27x34x34.size a
  hwx0_0 : ∀ i : grid0.Coords, EltTy.bits .f32 = 32 ∨ (Rect.block (s := S8x27x34x34) S1x27x34x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x3x3x27.size a ≤ S27x3x3x27.size a
  hwx0_1 : ∀ i : grid0.Coords, EltTy.bits .f32 = 32 ∨ (Rect.block (s := S27x3x3x27) S27x3x3x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x27x32x32.size a ≤ S8x27x32x32.size a
  hwx0_2 : ∀ i : grid0.Coords, EltTy.bits .f32 = 32 ∨ (Rect.block (s := S8x27x32x32) S1x27x32x32.size (cc0_transform_2 i) (hinb0_2 i)).WholeWords (EltTy.packing .f32)

variable [Facts₀]

abbrev win0_0 : Pipeline.Window sig grid0 :=
  Pipeline.Window.ofSpec (Memref.whole main_v0) S1x27x34x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S27x3x3x27.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x27x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x27x32x32 : Shape := ⟨4, ![8, 27, 32, 32]⟩
abbrev S27x27x3x3 : Shape := ⟨4, ![27, 27, 3, 3]⟩
abbrev S_ : Shape := ⟨0, ![]⟩
abbrev S8x27x34x34 : Shape := ⟨4, ![8, 27, 34, 34]⟩
abbrev S8x27x1x32x32 : Shape := ⟨5, ![8, 27, 1, 32, 32]⟩
abbrev S8x27x9x32x32 : Shape := ⟨5, ![8, 27, 9, 32, 32]⟩
abbrev S8x243x1024 : Shape := ⟨3, ![8, 243, 1024]⟩
abbrev S27x243 : Shape := ⟨2, ![27, 243]⟩
abbrev S8x1x243x1024 : Shape := ⟨4, ![8, 1, 243, 1024]⟩
abbrev S1x27x243x1 : Shape := ⟨4, ![1, 27, 243, 1]⟩
abbrev S8x27x243x1024 : Shape := ⟨4, ![8, 27, 243, 1024]⟩
abbrev S8x27x1024x243 : Shape := ⟨4, ![8, 27, 1024, 243]⟩
abbrev S8x27x1024x81x3 : Shape := ⟨5, ![8, 27, 1024, 81, 3]⟩
abbrev S8x27x1024x81x1 : Shape := ⟨5, ![8, 27, 1024, 81, 1]⟩
abbrev S8x27x1024x81 : Shape := ⟨4, ![8, 27, 1024, 81]⟩
abbrev S8x27x1024x27x3 : Shape := ⟨5, ![8, 27, 1024, 27, 3]⟩
abbrev S8x27x1024x27x1 : Shape := ⟨5, ![8, 27, 1024, 27, 1]⟩
abbrev S8x27x1024x27 : Shape := ⟨4, ![8, 27, 1024, 27]⟩
abbrev S8x27x1024x9x3 : Shape := ⟨5, ![8, 27, 1024, 9, 3]⟩
abbrev S8x27x1024x9x1 : Shape := ⟨5, ![8, 27, 1024, 9, 1]⟩
abbrev S8x27x1024x9 : Shape := ⟨4, ![8, 27, 1024, 9]⟩
abbrev S8x27x1024x3x3 : Shape := ⟨5, ![8, 27, 1024, 3, 3]⟩
abbrev S8x27x1024x3x1 : Shape := ⟨5, ![8, 27, 1024, 3, 1]⟩
abbrev S8x27x1024x3 : Shape := ⟨4, ![8, 27, 1024, 3]⟩
abbrev S8x27x1024x1x3 : Shape := ⟨5, ![8, 27, 1024, 1, 3]⟩
abbrev S8x27x1024x1x1 : Shape := ⟨5, ![8, 27, 1024, 1, 1]⟩
abbrev S8x27x1024x1 : Shape := ⟨4, ![8, 27, 1024, 1]⟩
abbrev S8x27x1024 : Shape := ⟨3, ![8, 27, 1024]⟩

abbrev nBuf : Space → Nat
  | .hbm => 184
  | .vmem => 0
  | .smem => 0
  | _ => 0

abbrev hbmTy0_0 (i : Nat) : BufTy := match i % 128 with
  | 0 => ⟨S8x27x32x32, .f32⟩
  | 1 => ⟨S27x27x3x3, .f32⟩
  | 2 => ⟨S_, .f32⟩
  | 3 => ⟨S_, .f32⟩
  | 4 => ⟨S8x27x34x34, .f32⟩
  | 5 => ⟨S8x27x32x32, .f32⟩
  | 6 => ⟨S8x27x32x32, .f32⟩
  | 7 => ⟨S8x27x32x32, .f32⟩
  | 8 => ⟨S8x27x32x32, .f32⟩
  | 9 => ⟨S8x27x32x32, .f32⟩
  | 10 => ⟨S8x27x32x32, .f32⟩
  | 11 => ⟨S8x27x32x32, .f32⟩
  | 12 => ⟨S8x27x32x32, .f32⟩
  | 13 => ⟨S8x27x32x32, .f32⟩
  | 14 => ⟨S8x27x1x32x32, .f32⟩
  | 15 => ⟨S8x27x1x32x32, .f32⟩
  | 16 => ⟨S8x27x1x32x32, .f32⟩
  | 17 => ⟨S8x27x1x32x32, .f32⟩
  | 18 => ⟨S8x27x1x32x32, .f32⟩
  | 19 => ⟨S8x27x1x32x32, .f32⟩
  | 20 => ⟨S8x27x1x32x32, .f32⟩
  | 21 => ⟨S8x27x1x32x32, .f32⟩
  | 22 => ⟨S8x27x1x32x32, .f32⟩
  | 23 => ⟨S8x27x9x32x32, .f32⟩
  | 24 => ⟨S8x243x1024, .f32⟩
  | 25 => ⟨S27x243, .f32⟩
  | 26 => ⟨S8x1x243x1024, .f32⟩
  | 27 => ⟨S1x27x243x1, .f32⟩
  | 28 => ⟨S8x27x243x1024, .f32⟩
  | 29 => ⟨S8x27x243x1024, .f32⟩
  | 30 => ⟨S8x27x243x1024, .f32⟩
  | 31 => ⟨S8x27x1024x243, .f32⟩
  | 32 => ⟨S8x27x1024x81x3, .f32⟩
  | 33 => ⟨S_, .f32⟩
  | 34 => ⟨S8x27x1024x81x3, .f32⟩
  | 35 => ⟨S8x27x1024x81x3, .f32⟩
  | 36 => ⟨S_, .f32⟩
  | 37 => ⟨S8x27x1024x81x3, .f32⟩
  | 38 => ⟨S8x27x1024x81x3, .f32⟩
  | 39 => ⟨S8x27x1024x81x1, .f32⟩
  | 40 => ⟨S8x27x1024x81, .f32⟩
  | 41 => ⟨S8x27x1024x81x1, .f32⟩
  | 42 => ⟨S8x27x1024x81, .f32⟩
  | 43 => ⟨S8x27x1024x81x1, .f32⟩
  | 44 => ⟨S8x27x1024x81, .f32⟩
  | 45 => ⟨S8x27x1024x81, .f32⟩
  | 46 => ⟨S8x27x1024x81, .f32⟩
  | 47 => ⟨S8x27x1024x81, .f32⟩
  | 48 => ⟨S8x27x1024x81, .f32⟩
  | 49 => ⟨S8x27x1024x81, .f32⟩
  | 50 => ⟨S_, .f32⟩
  | 51 => ⟨S8x27x1024x81, .f32⟩
  | 52 => ⟨S8x27x1024x81, .f32⟩
  | 53 => ⟨S8x27x1024x81, .f32⟩
  | 54 => ⟨S8x27x1024x81, .f32⟩
  | 55 => ⟨S8x27x1024x81, .f32⟩
  | 56 => ⟨S_, .f32⟩
  | 57 => ⟨S8x27x1024x81, .f32⟩
  | 58 => ⟨S8x27x1024x81, .f32⟩
  | 59 => ⟨S_, .f32⟩
  | 60 => ⟨S8x27x1024x81, .f32⟩
  | 61 => ⟨S8x27x1024x81, .f32⟩
  | 62 => ⟨S8x27x1024x27x3, .f32⟩
  | 63 => ⟨S_, .f32⟩
  | 64 => ⟨S8x27x1024x27x3, .f32⟩
  | 65 => ⟨S8x27x1024x27x3, .f32⟩
  | 66 => ⟨S_, .f32⟩
  | 67 => ⟨S8x27x1024x27x3, .f32⟩
  | 68 => ⟨S8x27x1024x27x3, .f32⟩
  | 69 => ⟨S8x27x1024x27x1, .f32⟩
  | 70 => ⟨S8x27x1024x27, .f32⟩
  | 71 => ⟨S8x27x1024x27x1, .f32⟩
  | 72 => ⟨S8x27x1024x27, .f32⟩
  | 73 => ⟨S8x27x1024x27x1, .f32⟩
  | 74 => ⟨S8x27x1024x27, .f32⟩
  | 75 => ⟨S8x27x1024x27, .f32⟩
  | 76 => ⟨S8x27x1024x27, .f32⟩
  | 77 => ⟨S8x27x1024x27, .f32⟩
  | 78 => ⟨S8x27x1024x27, .f32⟩
  | 79 => ⟨S8x27x1024x27, .f32⟩
  | 80 => ⟨S_, .f32⟩
  | 81 => ⟨S8x27x1024x27, .f32⟩
  | 82 => ⟨S8x27x1024x27, .f32⟩
  | 83 => ⟨S8x27x1024x27, .f32⟩
  | 84 => ⟨S8x27x1024x27, .f32⟩
  | 85 => ⟨S8x27x1024x27, .f32⟩
  | 86 => ⟨S_, .f32⟩
  | 87 => ⟨S8x27x1024x27, .f32⟩
  | 88 => ⟨S8x27x1024x27, .f32⟩
  | 89 => ⟨S_, .f32⟩
  | 90 => ⟨S8x27x1024x27, .f32⟩
  | 91 => ⟨S8x27x1024x27, .f32⟩
  | 92 => ⟨S8x27x1024x9x3, .f32⟩
  | 93 => ⟨S_, .f32⟩
  | 94 => ⟨S8x27x1024x9x3, .f32⟩
  | 95 => ⟨S8x27x1024x9x3, .f32⟩
  | 96 => ⟨S_, .f32⟩
  | 97 => ⟨S8x27x1024x9x3, .f32⟩
  | 98 => ⟨S8x27x1024x9x3, .f32⟩
  | 99 => ⟨S8x27x1024x9x1, .f32⟩
  | 100 => ⟨S8x27x1024x9, .f32⟩
  | 101 => ⟨S8x27x1024x9x1, .f32⟩
  | 102 => ⟨S8x27x1024x9, .f32⟩
  | 103 => ⟨S8x27x1024x9x1, .f32⟩
  | 104 => ⟨S8x27x1024x9, .f32⟩
  | 105 => ⟨S8x27x1024x9, .f32⟩
  | 106 => ⟨S8x27x1024x9, .f32⟩
  | 107 => ⟨S8x27x1024x9, .f32⟩
  | 108 => ⟨S8x27x1024x9, .f32⟩
  | 109 => ⟨S8x27x1024x9, .f32⟩
  | 110 => ⟨S_, .f32⟩
  | 111 => ⟨S8x27x1024x9, .f32⟩
  | 112 => ⟨S8x27x1024x9, .f32⟩
  | 113 => ⟨S8x27x1024x9, .f32⟩
  | 114 => ⟨S8x27x1024x9, .f32⟩
  | 115 => ⟨S8x27x1024x9, .f32⟩
  | 116 => ⟨S_, .f32⟩
  | 117 => ⟨S8x27x1024x9, .f32⟩
  | 118 => ⟨S8x27x1024x9, .f32⟩
  | 119 => ⟨S_, .f32⟩
  | 120 => ⟨S8x27x1024x9, .f32⟩
  | 121 => ⟨S8x27x1024x9, .f32⟩
  | 122 => ⟨S8x27x1024x3x3, .f32⟩
  | 123 => ⟨S_, .f32⟩
  | 124 => ⟨S8x27x1024x3x3, .f32⟩
  | 125 => ⟨S8x27x1024x3x3, .f32⟩
  | 126 => ⟨S_, .f32⟩
  | 127 => ⟨S8x27x1024x3x3, .f32⟩
  | _ => ⟨S8x27x32x32, .f32⟩

abbrev hbmTy0_1 (i : Nat) : BufTy := match i % 128 with
  | 0 => ⟨S8x27x1024x3x3, .f32⟩
  | 1 => ⟨S8x27x1024x3x1, .f32⟩
  | 2 => ⟨S8x27x1024x3, .f32⟩
  | 3 => ⟨S8x27x1024x3x1, .f32⟩
  | 4 => ⟨S8x27x1024x3, .f32⟩
  | 5 => ⟨S8x27x1024x3x1, .f32⟩
  | 6 => ⟨S8x27x1024x3, .f32⟩
  | 7 => ⟨S8x27x1024x3, .f32⟩
  | 8 => ⟨S8x27x1024x3, .f32⟩
  | 9 => ⟨S8x27x1024x3, .f32⟩
  | 10 => ⟨S8x27x1024x3, .f32⟩
  | 11 => ⟨S8x27x1024x3, .f32⟩
  | 12 => ⟨S_, .f32⟩
  | 13 => ⟨S8x27x1024x3, .f32⟩
  | 14 => ⟨S8x27x1024x3, .f32⟩
  | 15 => ⟨S8x27x1024x3, .f32⟩
  | 16 => ⟨S8x27x1024x3, .f32⟩
  | 17 => ⟨S8x27x1024x3, .f32⟩
  | 18 => ⟨S_, .f32⟩
  | 19 => ⟨S8x27x1024x3, .f32⟩
  | 20 => ⟨S8x27x1024x3, .f32⟩
  | 21 => ⟨S_, .f32⟩
  | 22 => ⟨S8x27x1024x3, .f32⟩
  | 23 => ⟨S8x27x1024x3, .f32⟩
  | 24 => ⟨S8x27x1024x1x3, .f32⟩
  | 25 => ⟨S_, .f32⟩
  | 26 => ⟨S8x27x1024x1x3, .f32⟩
  | 27 => ⟨S8x27x1024x1x3, .f32⟩
  | 28 => ⟨S_, .f32⟩
  | 29 => ⟨S8x27x1024x1x3, .f32⟩
  | 30 => ⟨S8x27x1024x1x3, .f32⟩
  | 31 => ⟨S8x27x1024x1x1, .f32⟩
  | 32 => ⟨S8x27x1024x1, .f32⟩
  | 33 => ⟨S8x27x1024x1x1, .f32⟩
  | 34 => ⟨S8x27x1024x1, .f32⟩
  | 35 => ⟨S8x27x1024x1x1, .f32⟩
  | 36 => ⟨S8x27x1024x1, .f32⟩
  | 37 => ⟨S8x27x1024x1, .f32⟩
  | 38 => ⟨S8x27x1024x1, .f32⟩
  | 39 => ⟨S8x27x1024x1, .f32⟩
  | 40 => ⟨S8x27x1024x1, .f32⟩
  | 41 => ⟨S8x27x1024x1, .f32⟩
  | 42 => ⟨S_, .f32⟩
  | 43 => ⟨S8x27x1024x1, .f32⟩
  | 44 => ⟨S8x27x1024x1, .f32⟩
  | 45 => ⟨S8x27x1024x1, .f32⟩
  | 46 => ⟨S8x27x1024x1, .f32⟩
  | 47 => ⟨S8x27x1024x1, .f32⟩
  | 48 => ⟨S_, .f32⟩
  | 49 => ⟨S8x27x1024x1, .f32⟩
  | 50 => ⟨S8x27x1024x1, .f32⟩
  | 51 => ⟨S_, .f32⟩
  | 52 => ⟨S8x27x1024x1, .f32⟩
  | 53 => ⟨S8x27x1024x1, .f32⟩
  | 54 => ⟨S8x27x1024, .f32⟩
  | 55 => ⟨S8x27x32x32, .f32⟩
  | _ => ⟨S8x27x32x32, .f32⟩

abbrev hbmTy (i : Nat) : BufTy := match i / 128 with
  | 0 => hbmTy0_0 i
  | 1 => hbmTy0_1 i
  | _ => ⟨S8x27x32x32, .f32⟩

abbrev bufTy : (tb : Table) → Fin (tcTables nBuf tb) → BufTy
  | .hbm, ⟨i, _⟩ => hbmTy i
  | _, _ => ⟨S8x27x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_10 : Ref sig .tc := ⟨.hbm, 93, rfl⟩
abbrev main_v79 : Ref sig .tc := ⟨.hbm, 94, rfl⟩
abbrev main_v80 : Ref sig .tc := ⟨.hbm, 95, rfl⟩
abbrev main_cst_11 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_12 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_13 : Ref sig .tc := ⟨.hbm, 116, rfl⟩
abbrev main_v99 : Ref sig .tc := ⟨.hbm, 117, rfl⟩
abbrev main_v100 : Ref sig .tc := ⟨.hbm, 118, rfl⟩
abbrev main_cst_14 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_15 : Ref sig .tc := ⟨.hbm, 123, rfl⟩
abbrev main_v104 : Ref sig .tc := ⟨.hbm, 124, rfl⟩
abbrev main_v105 : Ref sig .tc := ⟨.hbm, 125, rfl⟩
abbrev main_cst_16 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_17 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_18 : Ref sig .tc := ⟨.hbm, 146, rfl⟩
abbrev main_v124 : Ref sig .tc := ⟨.hbm, 147, rfl⟩
abbrev main_v125 : Ref sig .tc := ⟨.hbm, 148, rfl⟩
abbrev main_cst_19 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_20 : Ref sig .tc := ⟨.hbm, 153, rfl⟩
abbrev main_v129 : Ref sig .tc := ⟨.hbm, 154, rfl⟩
abbrev main_v130 : Ref sig .tc := ⟨.hbm, 155, rfl⟩
abbrev main_cst_21 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_22 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_23 : Ref sig .tc := ⟨.hbm, 176, rfl⟩
abbrev main_v149 : Ref sig .tc := ⟨.hbm, 177, rfl⟩
abbrev main_v150 : Ref sig .tc := ⟨.hbm, 178, rfl⟩
abbrev main_cst_24 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩

abbrev nD : Nat := 1
abbrev τ : Topo := Topo.v7x

variable {F : FTy → Type} [FloatOps F]

class Facts₀ : Prop where
  pads_S8x27x32x32_S8x27x34x34_000_000_110_110 : S8x27x32x32.Pads (![0, 0, 1, 1] : Fin 4 → Nat) ![0, 0, 1, 1] ![0, 0, 0, 0] S8x27x34x34
  h_S_ : 0 < S_.numel
  slices_S8x27x34x34_S8x27x32x32_0_0_0_0 : S8x27x34x34.Slices ![0, 0, 0, 0] S8x27x32x32
  slices_S8x27x34x34_S8x27x32x32_0_0_0_1 : S8x27x34x34.Slices ![0, 0, 0, 1] S8x27x32x32
  slices_S8x27x34x34_S8x27x32x32_0_0_0_2 : S8x27x34x34.Slices ![0, 0, 0, 2] S8x27x32x32
  slices_S8x27x34x34_S8x27x32x32_0_0_1_0 : S8x27x34x34.Slices ![0, 0, 1, 0] S8x27x32x32
  slices_S8x27x34x34_S8x27x32x32_0_0_1_1 : S8x27x34x34.Slices ![0, 0, 1, 1] S8x27x32x32
  slices_S8x27x34x34_S8x27x32x32_0_0_1_2 : S8x27x34x34.Slices ![0, 0, 1, 2] S8x27x32x32
  slices_S8x27x34x34_S8x27x32x32_0_0_2_0 : S8x27x34x34.Slices ![0, 0, 2, 0] S8x27x32x32
  slices_S8x27x34x34_S8x27x32x32_0_0_2_1 : S8x27x34x34.Slices ![0, 0, 2, 1] S8x27x32x32
  slices_S8x27x34x34_S8x27x32x32_0_0_2_2 : S8x27x34x34.Slices ![0, 0, 2, 2] S8x27x32x32
  bcast_S8x27x32x32_S8x27x1x32x32_0_1_3_4 : S8x27x32x32.BroadcastsInDim S8x27x1x32x32 (![0, 1, 3, 4] : Fin 4 → Fin S8x27x1x32x32.rank)
  concatenates_S8x27x1x32x32_S8x27x1x32x32_S8x27x1x32x32_S8x27x1x32x32_S8x27x1x32x32_S8x27x1x32x32_S8x27x1x32x32_S8x27x1x32x32_S8x27x1x32x32_S8x27x9x32x32_d2 : Shape.Concatenates [S8x27x1x32x32, S8x27x1x32x32, S8x27x1x32x32, S8x27x1x32x32, S8x27x1x32x32, S8x27x1x32x32, S8x27x1x32x32, S8x27x1x32x32, S8x27x1x32x32] S8x27x9x32x32 2
  shapeCasts_S8x27x9x32x32_S8x243x1024 : S8x27x9x32x32.ShapeCasts S8x243x1024
  shapeCasts_S27x27x3x3_S27x243 : S27x27x3x3.ShapeCasts S27x243
  bcast_S8x243x1024_S8x1x243x1024_0_2_3 : S8x243x1024.BroadcastsInDim S8x1x243x1024 (![0, 2, 3] : Fin 3 → Fin S8x1x243x1024.rank)
  bcast_S27x243_S1x27x243x1_1_2 : S27x243.BroadcastsInDim S1x27x243x1 (![1, 2] : Fin 2 → Fin S1x27x243x1.rank)
  bcast_S8x1x243x1024_S8x27x243x1024_0_1_2_3 : S8x1x243x1024.BroadcastsInDim S8x27x243x1024 (![0, 1, 2, 3] : Fin 4 → Fin S8x27x243x1024.rank)
  bcast_S1x27x243x1_S8x27x243x1024_0_1_2_3 : S1x27x243x1.BroadcastsInDim S8x27x243x1024 (![0, 1, 2, 3] : Fin 4 → Fin S8x27x243x1024.rank)
  transposes_S8x27x243x1024_S8x27x1024x243_0_1_3_2 : S8x27x243x1024.Transposes [0, 1, 3, 2] S8x27x1024x243
  shapeCasts_S8x27x1024x243_S8x27x1024x81x3 : S8x27x1024x243.ShapeCasts S8x27x1024x81x3
  bcast_S_S8x27x1024x81x3 : S_.BroadcastsInDim S8x27x1024x81x3 (![] : Fin 0 → Fin S8x27x1024x81x3.rank)
  slices_S8x27x1024x81x3_S8x27x1024x81x1_0_0_0_0_0 : S8x27x1024x81x3.Slices ![0, 0, 0, 0, 0] S8x27x1024x81x1
  shapeCasts_S8x27x1024x81x1_S8x27x1024x81 : S8x27x1024x81x1.ShapeCasts S8x27x1024x81
  slices_S8x27x1024x81x3_S8x27x1024x81x1_0_0_0_0_1 : S8x27x1024x81x3.Slices ![0, 0, 0, 0, 1] S8x27x1024x81x1
  slices_S8x27x1024x81x3_S8x27x1024x81x1_0_0_0_0_2 : S8x27x1024x81x3.Slices ![0, 0, 0, 0, 2] S8x27x1024x81x1
  bcast_S_S8x27x1024x81 : S_.BroadcastsInDim S8x27x1024x81 (![] : Fin 0 → Fin S8x27x1024x81.rank)
  shapeCasts_S8x27x1024x81_S8x27x1024x27x3 : S8x27x1024x81.ShapeCasts S8x27x1024x27x3
  bcast_S_S8x27x1024x27x3 : S_.BroadcastsInDim S8x27x1024x27x3 (![] : Fin 0 → Fin S8x27x1024x27x3.rank)
  slices_S8x27x1024x27x3_S8x27x1024x27x1_0_0_0_0_0 : S8x27x1024x27x3.Slices ![0, 0, 0, 0, 0] S8x27x1024x27x1
  shapeCasts_S8x27x1024x27x1_S8x27x1024x27 : S8x27x1024x27x1.ShapeCasts S8x27x1024x27
  slices_S8x27x1024x27x3_S8x27x1024x27x1_0_0_0_0_1 : S8x27x1024x27x3.Slices ![0, 0, 0, 0, 1] S8x27x1024x27x1
  slices_S8x27x1024x27x3_S8x27x1024x27x1_0_0_0_0_2 : S8x27x1024x27x3.Slices ![0, 0, 0, 0, 2] S8x27x1024x27x1
  bcast_S_S8x27x1024x27 : S_.BroadcastsInDim S8x27x1024x27 (![] : Fin 0 → Fin S8x27x1024x27.rank)
  shapeCasts_S8x27x1024x27_S8x27x1024x9x3 : S8x27x1024x27.ShapeCasts S8x27x1024x9x3
  bcast_S_S8x27x1024x9x3 : S_.BroadcastsInDim S8x27x1024x9x3 (![] : Fin 0 → Fin S8x27x1024x9x3.rank)
  slices_S8x27x1024x9x3_S8x27x1024x9x1_0_0_0_0_0 : S8x27x1024x9x3.Slices ![0, 0, 0, 0, 0] S8x27x1024x9x1
  shapeCasts_S8x27x1024x9x1_S8x27x1024x9 : S8x27x1024x9x1.ShapeCasts S8x27x1024x9
  slices_S8x27x1024x9x3_S8x27x1024x9x1_0_0_0_0_1 : S8x27x1024x9x3.Slices ![0, 0, 0, 0, 1] S8x27x1024x9x1
  slices_S8x27x1024x9x3_S8x27x1024x9x1_0_0_0_0_2 : S8x27x1024x9x3.Slices ![0, 0, 0, 0, 2] S8x27x1024x9x1
  bcast_S_S8x27x1024x9 : S_.BroadcastsInDim S8x27x1024x9 (![] : Fin 0 → Fin S8x27x1024x9.rank)
  shapeCasts_S8x27x1024x9_S8x27x1024x3x3 : S8x27x1024x9.ShapeCasts S8x27x1024x3x3
  bcast_S_S8x27x1024x3x3 : S_.BroadcastsInDim S8x27x1024x3x3 (![] : Fin 0 → Fin S8x27x1024x3x3.rank)
  slices_S8x27x1024x3x3_S8x27x1024x3x1_0_0_0_0_0 : S8x27x1024x3x3.Slices ![0, 0, 0, 0, 0] S8x27x1024x3x1
  shapeCasts_S8x27x1024x3x1_S8x27x1024x3 : S8x27x1024x3x1.ShapeCasts S8x27x1024x3
  slices_S8x27x1024x3x3_S8x27x1024x3x1_0_0_0_0_1 : S8x27x1024x3x3.Slices ![0, 0, 0, 0, 1] S8x27x1024x3x1
  slices_S8x27x1024x3x3_S8x27x1024x3x1_0_0_0_0_2 : S8x27x1024x3x3.Slices ![0, 0, 0, 0, 2] S8x27x1024x3x1
  bcast_S_S8x27x1024x3 : S_.BroadcastsInDim S8x27x1024x3 (![] : Fin 0 → Fin S8x27x1024x3.rank)
  shapeCasts_S8x27x1024x3_S8x27x1024x1x3 : S8x27x1024x3.ShapeCasts S8x27x1024x1x3
  bcast_S_S8x27x1024x1x3 : S_.BroadcastsInDim S8x27x1024x1x3 (![] : Fin 0 → Fin S8x27x1024x1x3.rank)
  slices_S8x27x1024x1x3_S8x27x1024x1x1_0_0_0_0_0 : S8x27x1024x1x3.Slices ![0, 0, 0, 0, 0] S8x27x1024x1x1
  shapeCasts_S8x27x1024x1x1_S8x27x1024x1 : S8x27x1024x1x1.ShapeCasts S8x27x1024x1
  slices_S8x27x1024x1x3_S8x27x1024x1x1_0_0_0_0_1 : S8x27x1024x1x3.Slices ![0, 0, 0, 0, 1] S8x27x1024x1x1
  slices_S8x27x1024x1x3_S8x27x1024x1x1_0_0_0_0_2 : S8x27x1024x1x3.Slices ![0, 0, 0, 0, 2] S8x27x1024x1x1
  bcast_S_S8x27x1024x1 : S_.BroadcastsInDim S8x27x1024x1 (![] : Fin 0 → Fin S8x27x1024x1.rank)
  shapeCasts_S8x27x1024x1_S8x27x1024 : S8x27x1024x1.ShapeCasts S8x27x1024
  shapeCasts_S8x27x1024_S8x27x32x32 : S8x27x1024.ShapeCasts S8x27x32x32

variable [Facts₀]

class Facts : Prop extends Facts₀ where

variable [Facts]
-- ==== Proof.MajTree.lean ====
/-
  The three-way majority gate and its ternary reduction tree, as plain functions.

  On a value `a` the gate first moves it from the interval [-1, 1] to [0, 1]: `s a = (a + 1) · ½`. Of three
  such values it forms `r = s a · s b + s a · s c + s b · s c − 2 · s a · s b · s c` (for bits, the majority of the
  three) and returns `2 · r − 1`. A family of 243 = 3⁵ values is reduced by five rounds, each round combining the
  entries 3k, 3k + 1, 3k + 2 of the family before it into entry k of the next.

  Both programs of this certificate compute exactly this tree: the kernel unrolled over whole (27, 32, 32)
  vectors, the reference one round at a time over a trailing axis of extent 243, 81, 27, 9, 3.
-/
import Idealize.ShloMosaic.PureOps.Ideal

noncomputable section

namespace Cert.MajTree

open Idealize.ShloMosaic

/-! ## One round, and five -/

/-- One round of a ternary reduction by `g`: entry `k` of the result combines entries `3k`, `3k + 1`, `3k + 2`. -/
def round {α : Type} (g : α → α → α → α) (f : ℕ → α) : ℕ → α :=
  fun k => g (f (3 * k)) (f (3 * k + 1)) (f (3 * k + 2))

/-- Five rounds reduce 243 entries to one. -/
def tree5 {α : Type} (g : α → α → α → α) (f : ℕ → α) : α :=
  round g (round g (round g (round g (round g f)))) 0

/-- A round only reads the entries below three times the bound. -/
theorem round_congr {α : Type} (g : α → α → α → α) {f f' : ℕ → α} {n : ℕ}
    (h : ∀ k, k < 3 * n → f k = f' k) : ∀ k, k < n → round g f k = round g f' k := by
  intro k hk
  unfold round
  rw [h (3 * k) (by omega), h (3 * k + 1) (by omega), h (3 * k + 2) (by omega)]

/-- The whole tree only reads the first 243 entries. -/
theorem tree5_congr {α : Type} (g : α → α → α → α) {f f' : ℕ → α}
    (h : ∀ k, k < 243 → f k = f' k) : tree5 g f = tree5 g f' := by
  unfold tree5
  exact round_congr g (n := 1) (round_congr g (n := 3) (round_congr g (n := 9) (round_congr g (n := 27)
    (round_congr g (n := 81) h)))) 0 (by omega)

/-- A round of a pointwise gate on functions, read at a point, is the round of the values at that point. -/
theorem round_apply {ι α : Type} (g : α → α → α → α) (G : (ι → α) → (ι → α) → (ι → α) → (ι → α))
    (hG : ∀ a b c i, G a b c i = g (a i) (b i) (c i)) (f : ℕ → ι → α) (k : ℕ) (i : ι) :
    round G f k i = round g (fun k => f k i) k := by
  unfold round
  exact hG _ _ _ i

/-- Five rounds of a pointwise gate on functions, read at a point. -/
theorem tree5_apply {ι α : Type} (g : α → α → α → α) (G : (ι → α) → (ι → α) → (ι → α) → (ι → α))
    (hG : ∀ a b c i, G a b c i = g (a i) (b i) (c i)) (f : ℕ → ι → α) (i : ι) :
    tree5 G f i = tree5 g (fun k => f k i) := by
  unfold tree5
  rw [round_apply g G hG]
  refine congrArg (fun F => round g F 0) (funext fun k1 => ?_)
  rw [round_apply g G hG]
  refine congrArg (fun F => round g F k1) (funext fun k2 => ?_)
  rw [round_apply g G hG]
  refine congrArg (fun F => round g F k2) (funext fun k3 => ?_)
  rw [round_apply g G hG]
  refine congrArg (fun F => round g F k3) (funext fun k4 => ?_)
  rw [round_apply g G hG]

/-! ## The gate on extended reals -/

/-- The float words 1, ½ and 2 as both programs spell them. -/
abbrev one : EReal := Ideal.ofBits .f32 0x3F800000#32
abbrev half : EReal := Ideal.ofBits .f32 0x3F000000#32
abbrev two : EReal := Ideal.ofBits .f32 0x40000000#32

/-- From [-1, 1] to [0, 1]. -/
def unit (a : EReal) : EReal := (a + one) * half

/-- The majority gate of three values, in the order of operations both programs use. -/
def maj (a b c : EReal) : EReal :=
  two * ((unit a * unit b + unit a * unit c + unit b * unit c) - two * unit a * unit b * unit c) - one

end Cert.MajTree

end
-- ==== Proof.Spec.lean ====
/-
  The function both programs compute, stated once over the argument arrays.

  An output entry (n, oc, h, v) is the five-round ternary majority tree (MajTree) of 243 products, one per tap
  k = 9c + 3kh + kw of the 3 x 3 window over the 27 input channels: the weight entry (oc, c, kh, kw) times the
  entry (n, c, h + kh, v + kw) of the input plane padded by one row and column of -1 on each side. The padded
  plane stays an opaque array here: both programs build it by the same pad operation.

  Also here: the gate as an operation on whole vectors of any shape, in the order of operations the kernel body
  spells it, and its reading at an index on extended reals.
-/
import proofs.«170610_j67250597921090_1_alg».proof.Proof.MajTree
import Idealize.ShloMosaic.Lib.ValueIdx

noncomputable section

namespace Cert.Spec

open Idealize.ShloMosaic Idealize.ShloMosaic.ValueIdx Cert.MajTree

/-! ## Taps -/

/-- Input channel of tap `k`. -/
def tc (k : ℕ) : Fin 27 := ⟨k / 9 % 27, Nat.mod_lt _ (by decide)⟩
/-- Window row of tap `k`. -/
def tkh (k : ℕ) : Fin 3 := ⟨k / 3 % 3, Nat.mod_lt _ (by decide)⟩
/-- Window column of tap `k`. -/
def tkw (k : ℕ) : Fin 3 := ⟨k % 3, Nat.mod_lt _ (by decide)⟩

/-- Row (or column) `h` of the output shifted by the window offset `d`, as a row of the padded plane. -/
def sh (h : Fin 32) (d : Fin 3) : Fin 34 := ⟨h.val + d.val, by have := h.isLt; have := d.isLt; omega⟩

/-! ## The padded input -/

/-- The input with one row and one column of -1 (the word 0xBF800000) added on each side of its two trailing
    axes: the pad operation both programs apply to their first argument, kept as the operation itself. -/
def padX (x : (⟨4, ![8, 27, 32, 32]⟩ : Shape).Idx → EReal) : (⟨4, ![8, 27, 34, 34]⟩ : Shape).Idx → EReal :=
  pad (⟨4, ![8, 27, 34, 34]⟩ : Shape) ![0, 0, 1, 1] ![0, 0, 1, 1] ![0, 0, 0, 0] x
    (constant (F := Ideal) (⟨0, ![]⟩ : Shape) .f32 0xBF800000#32)

/-! ## The result -/

/-- The product at tap `k` for output entry (n, oc, h, v): weight first, as the kernel multiplies. -/
def leaf (xp : (⟨4, ![8, 27, 34, 34]⟩ : Shape).Idx → EReal) (w : (⟨4, ![27, 27, 3, 3]⟩ : Shape).Idx → EReal)
    (n : Fin 8) (oc : Fin 27) (h v : Fin 32) (k : ℕ) : EReal :=
  w (ix4 oc (tc k) (tkh k) (tkw k)) * xp (ix4 n (tc k) (sh h (tkh k)) (sh v (tkw k)))

/-- The whole result from the padded input `xp` and the weight `w`. -/
def G (xp : (⟨4, ![8, 27, 34, 34]⟩ : Shape).Idx → EReal) (w : (⟨4, ![27, 27, 3, 3]⟩ : Shape).Idx → EReal) :
    (⟨4, ![8, 27, 32, 32]⟩ : Shape).Idx → EReal :=
  fun i => tree5 maj (leaf xp w (i 0) (i 1) (i 2) (i 3))

/-! ## The gate on whole vectors -/

section Vectors
variable {F : FTy → Type} [FloatOps F] {s : Shape}

/-- `(a + 1) · ½` on a whole vector. -/
def unitV (a : FVec F s .f32) : FVec F s .f32 :=
  mulf (addf a (broadcast s (Scalar.ofBits .f32 0x3F800000#32))) (broadcast s (Scalar.ofBits .f32 0x3F000000#32))

/-- The majority gate on whole vectors, operation for operation as the kernel body has it. -/
def majV (a b c : FVec F s .f32) : FVec F s .f32 :=
  subf (mulf (broadcast s (Scalar.ofBits .f32 0x40000000#32))
      (subf (addf (addf (mulf (unitV a) (unitV b)) (mulf (unitV a) (unitV c))) (mulf (unitV b) (unitV c)))
        (mulf (mulf (mulf (broadcast s (Scalar.ofBits .f32 0x40000000#32)) (unitV a)) (unitV b)) (unitV c))))
    (broadcast s (Scalar.ofBits .f32 0x3F800000#32))

/-- The gate on vectors already moved to [0, 1]: the reference moves a whole array first and picks the three
    operands afterwards. -/
def coreV (a b c : FVec F s .f32) : FVec F s .f32 :=
  subf (mulf (broadcast s (Scalar.ofBits .f32 0x40000000#32))
      (subf (addf (addf (mulf a b) (mulf a c)) (mulf b c))
        (mulf (mulf (mulf (broadcast s (Scalar.ofBits .f32 0x40000000#32)) a) b) c)))
    (broadcast s (Scalar.ofBits .f32 0x3F800000#32))

end Vectors

/-- At an index, on extended reals, the vector gate is the gate of the three entries. -/
theorem majV_apply {s : Shape} (a b c : FVec Ideal s .f32) (i : s.Idx) :
    majV a b c i = maj (a i) (b i) (c i) := rfl

/-- The gate on three values already moved to [0, 1]. -/
def core (x y z : EReal) : EReal := two * ((x * y + x * z + y * z) - two * x * y * z) - one

/-- The gate moves its three operands, then combines them. -/
theorem maj_eq_core (a b c : EReal) : maj a b c = core (unit a) (unit b) (unit c) := rfl

/-- At an index, on extended reals, the combining part of the vector gate is `core` of the three entries. -/
theorem coreV_apply {s : Shape} (a b c : FVec Ideal s .f32) (i : s.Idx) :
    coreV a b c i = core (a i) (b i) (c i) := rfl

/-- At an index, on extended reals, moving a vector to [0, 1] moves the entry. -/
theorem unitV_apply {s : Shape} (a : FVec Ideal s .f32) (i : s.Idx) : unitV a i = unit (a i) := rfl

end Cert.Spec

end
-- ==== Proof.KBody.lean ====
/-
  What the kernel body stores, as one structured vector term, and its reading at an index.

  The body loads the padded image block (1, 27, 34, 34) and the weight block (27, 3, 3, 27), forms for each tap
  k = 9c + 3kh + kw the (27, 32, 32) vector  weight[c, kh, kw, :] (along axis 0) times  image[c, kh : kh + 32, kw : kw + 32]
  (along axes 1, 2), and reduces the 243 tap vectors by the five-round ternary majority tree, every gate a chain of
  whole-vector additions, products and differences. Unrolled, that is what the printed body computes, operation for
  operation, so the stored value and the structured term are one term. At an index (oc, h, v) every operation of the
  tree is pointwise, and a tap reads weight[c, kh, kw, oc] · image[c, h + kh, v + kw].
-/
import proofs.«170610_j67250597921090_1_alg».proof.Proof.Gen.KernelIdeal.Frame
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.KernelIdeal.Body

open Idealize.ShloMosaic Idealize.ShloMosaic.ValueIdx Cert.KernelIdeal Cert.KernelIdeal.Gen Cert.MajTree Cert.Spec

/-! ## One tap -/

/-- The image slice of tap `k` is inside the padded planes. -/
theorem sliceX (k : ℕ) : S27x34x34.Slices ![(tc k).val, (tkh k).val, (tkw k).val] S1x32x32 :=
  ⟨rfl, fun a => by
    have h0 := (tc k).isLt; have h1 := (tkh k).isLt; have h2 := (tkw k).isLt
    match a with
    | ⟨0, _⟩ => show (tc k).val + 1 ≤ 27; omega
    | ⟨1, _⟩ => show (tkh k).val + 32 ≤ 34; omega
    | ⟨2, _⟩ => show (tkw k).val + 32 ≤ 34; omega⟩

/-- The weight slice of tap `k` is inside the weight block. -/
theorem sliceW (k : ℕ) : S27x3x3x27.Slices ![(tc k).val, (tkh k).val, (tkw k).val, 0] S1x1x1x27 :=
  ⟨rfl, fun a => by
    have h0 := (tc k).isLt; have h1 := (tkh k).isLt; have h2 := (tkw k).isLt
    match a with
    | ⟨0, _⟩ => show (tc k).val + 1 ≤ 27; omega
    | ⟨1, _⟩ => show (tkh k).val + 1 ≤ 3; omega
    | ⟨2, _⟩ => show (tkw k).val + 1 ≤ 3; omega
    | ⟨3, _⟩ => show 0 + 27 ≤ 27; omega⟩

section AnyInstance
variable {F : FTy → Type} [FloatOps F]

/-- Tap `k` as a whole (27, 32, 32) vector: the weight row along axis 0 times the shifted image plane along axes 1, 2. -/
def tapV (x : FVec F S27x34x34 .f32) (w : FVec F S27x3x3x27 .f32) (k : ℕ) : FVec F S27x32x32 .f32 :=
  mulf
    (broadcastTo S27x32x32 (shapeCast S27x1x1 (shapeCast S27
      (extractStridedSlice S1x1x1x27 ![(tc k).val, (tkh k).val, (tkw k).val, 0] w (sliceW k))
      shapeCasts_S1x1x1x27_S27) shapeCasts_S27_S27x1x1) broadcasts_S27x1x1_S27x32x32)
    (broadcastTo S27x32x32 (shapeCast S1x32x32 (shapeCast S32x32
      (extractStridedSlice S1x32x32 ![(tc k).val, (tkh k).val, (tkw k).val] x (sliceX k))
      shapeCasts_S1x32x32_S32x32) shapeCasts_S32x32_S1x32x32) broadcasts_S1x32x32_S27x32x32)

/-- The stored value from the two loaded blocks. -/
def bodyV (x0 : Vec F S1x27x34x34 .f32) (x1 : Vec F S27x3x3x27 .f32) : FVec F S1x27x32x32 .f32 :=
  shapeCast S1x27x32x32
    (tree5 majV (tapV (shapeCast S27x34x34 x0 shapeCasts_S1x27x34x34_S27x34x34)
      (shapeCast S27x3x3x27 x1 shapeCasts_S27x3x3x27_S27x3x3x27)))
    shapeCasts_S27x32x32_S1x27x32x32

set_option maxRecDepth 65536 in
set_option maxHeartbeats 4000000 in
/-- The printed body's one store holds exactly that term. -/
theorem out_eq (x0 : Vec F S1x27x34x34 .f32) (x1 : Vec F S27x3x3x27 .f32) :
    out0_2 x0 x1 = View.canon [⟨r0_2, bodyV (View.ld x0 r0_0) (View.ld x1 r0_1)⟩] := rfl

end AnyInstance

/-! ## At an index, on extended reals -/

theorem hz4 : (![0, 0, 0, 0] : Fin 4 → Nat) = fun _ => 0 := funext fun a => by fin_cases a <;> rfl

/-- Tap `k` at (oc, h, v): the weight entry (c, kh, kw, oc) times the image entry (c, h + kh, v + kw). -/
theorem tapV_apply (x : FVec Ideal S27x34x34 .f32) (w : FVec Ideal S27x3x3x27 .f32) (k : ℕ) (oc : Fin 27) (h v : Fin 32) :
    tapV x w k (ix3 oc h v) = w (ix4 (tc k) (tkh k) (tkw k) oc) * x (ix3 (tc k) (sh h (tkh k)) (sh v (tkw k))) := by
  unfold tapV
  rw [mulf_apply]
  congr 1
  · -- the weight row, broadcast along the two image axes
    refine (broadcastTo_apply _ _ (ix3 oc h v) (ix3 oc (0 : Fin 1) (0 : Fin 1))
      (fun a => match a with | ⟨0, _⟩ => rfl | ⟨1, _⟩ => rfl | ⟨2, _⟩ => rfl)).trans ?_
    refine (shapeCast_apply _ _ (ix3 oc (0 : Fin 1) (0 : Fin 1)) (ix1 oc)
      (by rw [Shape.rowMajor_val_one, Shape.rowMajor_val_three]
          show oc.val = (oc.val * 1 + 0) * 1 + 0
          omega)).trans ?_
    refine (shapeCast_apply _ _ (ix1 oc) (ix4 (0 : Fin 1) (0 : Fin 1) (0 : Fin 1) oc)
      (by rw [Shape.rowMajor_val_four, Shape.rowMajor_val_one]
          show ((0 * 1 + 0) * 1 + 0) * 27 + oc.val = oc.val
          omega)).trans ?_
    exact extractStridedSlice_apply _ _ _ (ix4 (0 : Fin 1) (0 : Fin 1) (0 : Fin 1) oc) (ix4 (tc k) (tkh k) (tkw k) oc)
      (fun a => match a with
        | ⟨0, _⟩ => by show (tc k).val = (tc k).val + 0; omega
        | ⟨1, _⟩ => by show (tkh k).val = (tkh k).val + 0; omega
        | ⟨2, _⟩ => by show (tkw k).val = (tkw k).val + 0; omega
        | ⟨3, _⟩ => by show oc.val = 0 + oc.val; omega)
  · -- the shifted image plane, broadcast along the output-channel axis
    refine (broadcastTo_apply _ _ (ix3 oc h v) (ix3 (0 : Fin 1) h v)
      (fun a => match a with | ⟨0, _⟩ => rfl | ⟨1, _⟩ => rfl | ⟨2, _⟩ => rfl)).trans ?_
    refine (shapeCast_apply _ _ (ix3 (0 : Fin 1) h v) (ix2 h v)
      (by rw [Shape.rowMajor_val_two, Shape.rowMajor_val_three]
          show h.val * 32 + v.val = (0 * 32 + h.val) * 32 + v.val
          omega)).trans ?_
    refine (shapeCast_apply _ _ (ix2 h v) (ix3 (0 : Fin 1) h v)
      (by rw [Shape.rowMajor_val_three, Shape.rowMajor_val_two]
          show (0 * 32 + h.val) * 32 + v.val = h.val * 32 + v.val
          omega)).trans ?_
    exact extractStridedSlice_apply _ _ _ (ix3 (0 : Fin 1) h v) (ix3 (tc k) (sh h (tkh k)) (sh v (tkw k)))
      (fun a => match a with
        | ⟨0, _⟩ => by show (tc k).val = (tc k).val + 0; omega
        | ⟨1, _⟩ => by show h.val + (tkh k).val = (tkh k).val + h.val; omega
        | ⟨2, _⟩ => by show v.val + (tkw k).val = (tkw k).val + v.val; omega)

/-- The stored block at (0, oc, h, v): the majority tree of the 243 products. -/
theorem out_apply (x0 : Vec Ideal S1x27x34x34 .f32) (x1 : Vec Ideal S27x3x3x27 .f32) (oc : Fin 27) (h v : Fin 32) :
    out0_2 x0 x1 (ix4 (0 : Fin 1) oc h v)
      = tree5 maj (fun k => x1 (ix4 (tc k) (tkh k) (tkw k) oc) * x0 (ix4 (0 : Fin 1) (tc k) (sh h (tkh k)) (sh v (tkw k)))) := by
  rw [out_eq, View.canon_unit_zero (S := S1x27x32x32) hz4, View.ld_unit_zero (S := S1x27x34x34) hz4,
    View.ld_unit_zero (S := S27x3x3x27) hz4]
  unfold bodyV
  refine (shapeCast_apply _ _ (ix4 (0 : Fin 1) oc h v) (ix3 oc h v)
    (by rw [Shape.rowMajor_val_three, Shape.rowMajor_val_four]
        show (oc.val * 32 + h.val) * 32 + v.val = ((0 * 27 + oc.val) * 32 + h.val) * 32 + v.val
        omega)).trans ?_
  refine (tree5_apply (ι := S27x32x32.Idx) (α := Ideal .f32) maj (majV (F := Ideal) (s := S27x32x32))
    (fun a b c i => majV_apply a b c i) _ (ix3 oc h v)).trans ?_
  refine congrArg (tree5 maj) (funext fun k => ?_)
  rw [tapV_apply]
  congr 1
  · exact shapeCast_apply _ _ (ix4 (tc k) (tkh k) (tkw k) oc) (ix4 (tc k) (tkh k) (tkw k) oc) rfl
  · exact shapeCast_apply _ _ (ix3 (tc k) (sh h (tkh k)) (sh v (tkw k))) (ix4 (0 : Fin 1) (tc k) (sh h (tkh k)) (sh v (tkw k)))
      (by rw [Shape.rowMajor_val_four, Shape.rowMajor_val_three]
          show (((0 * 27 + (tc k).val) * 34 + (sh h (tkh k)).val) * 34 + (sh v (tkw k)).val)
            = ((tc k).val * 34 + (sh h (tkh k)).val) * 34 + (sh v (tkw k)).val
          omega)

end Cert.KernelIdeal.Body

end
-- ==== Proof.KValue.lean ====
/-
  From the kernel's blocks to its result array.

  The grid has eight points, one per image n. At point n the image window holds rows [n, :, :, :] of the padded
  input, the weight window the whole transposed weight (c, kh, kw, oc), and the output window is written back to
  rows [n, :, :, :] of the result. With the body's value at an index (KBody) every written block is the
  restriction of one function of the two arguments, the blocks cover the result, and the run's final array is
  that function.
-/
import proofs.«170610_j67250597921090_1_alg».proof.Proof.KBody
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.MajTree Cert.Spec
open Idealize.ShloMosaic.Pipeline (Dat)

variable (m : (ℓ : Loc nD τ sig) → Buf (Elt Ideal) ℓ) (ρ : Dev nD → PrngReg)

/-! ## The two staged arrays when the region is entered -/

/-- The image window's array when the region is entered: the padded first argument. -/
theorem V_main_v0 (c : Dev nD) :
    (V m c main_v0 : S8x27x34x34.Idx → EReal) = padX (m ((c : Thread nD τ).loc main_arg0)) := by
  dsimp only [Gen.V]
  simp only [hostOps0, hostOps0_1, hostOps0_2, List.flatten_cons, List.flatten_nil, List.append_nil, List.cons_append,
    List.nil_append]
  after_results
  rfl

/-- The weight window's array when the region is entered: the second argument with its output-channel axis moved last. -/
theorem V_main_v1 (c : Dev nD) :
    (V m c main_v1 : S27x3x3x27.Idx → EReal)
      = transpose S27x3x3x27 [1, 2, 3, 0] (m ((c : Thread nD τ).loc main_arg1)) transposes_S27x27x3x3_S27x3x3x27_1_2_3_0 := by
  dsimp only [Gen.V]
  simp only [hostOps0, hostOps0_1, hostOps0_2, List.flatten_cons, List.flatten_nil, List.append_nil, List.cons_append,
    List.nil_append]
  after_results

/-! ## The windows' blocks at a grid point -/

/-- The printed index maps over the grid: at point n the image and the result windows sit at block n of their
    leading axis and at block 0 of the other three; the weight window never moves. -/
private theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The image n that grid point n works on. -/
private def img (t : Fin cfg0.N) : Fin 8 := ⟨t.val, lt_of_lt_of_eq t.isLt N_0⟩

/-- The image window's block at point n is rows [n, :, :, :] of the padded input. -/
private theorem imgBlock_apply (c : Dev nD) (t : Fin cfg0.N) (c' : Fin 27) (a b : Fin 34) :
    (iblk m c 0 t : Vec Ideal S1x27x34x34 .f32) (ix4 (0 : Fin 1) c' a b)
      = padX (m ((c : Thread nD τ).loc main_arg0)) (ix4 (img t) c' a b) := by
  obtain ⟨⟨e0, e1, e2, e3⟩, -, -⟩ := idx_facts t
  unfold iblk
  rw [View.read_apply]
  show V m c main_v0 _ = _
  rw [V_main_v0]
  refine congrArg _ (funext fun e => Fin.ext ?_)
  match e with
  | ⟨0, _⟩ => show win0_0.index t (0 : Fin 4) * 1 + 1 * 0 = t.val; omega
  | ⟨1, _⟩ => show win0_0.index t (1 : Fin 4) * 27 + 1 * c'.val = c'.val; omega
  | ⟨2, _⟩ => show win0_0.index t (2 : Fin 4) * 34 + 1 * a.val = a.val; omega
  | ⟨3, _⟩ => show win0_0.index t (3 : Fin 4) * 34 + 1 * b.val = b.val; omega

/-- The weight window's block is the whole transposed weight: its entry (c, kh, kw, oc) is the weight's (oc, c, kh, kw). -/
private theorem wtBlock_apply (c : Dev nD) (t : Fin cfg0.N) (c' : Fin 27) (a b : Fin 3) (oc : Fin 27) :
    (iblk m c 1 t : Vec Ideal S27x3x3x27 .f32) (ix4 c' a b oc)
      = (m ((c : Thread nD τ).loc main_arg1) : S27x27x3x3.Idx → EReal) (ix4 oc c' a b) := by
  obtain ⟨-, ⟨e0, e1, e2, e3⟩, -⟩ := idx_facts t
  unfold iblk
  rw [View.read_apply]
  show V m c main_v1 _ = _
  rw [V_main_v1]
  have he : ((cfg0.win 1).blk t).view.emb (ix4 c' a b oc) = (ix4 c' a b oc : S27x3x3x27.Idx) := by
    refine funext fun e => Fin.ext ?_
    match e with
    | ⟨0, _⟩ => show win0_1.index t (0 : Fin 4) * 27 + 1 * c'.val = c'.val; omega
    | ⟨1, _⟩ => show win0_1.index t (1 : Fin 4) * 3 + 1 * a.val = a.val; omega
    | ⟨2, _⟩ => show win0_1.index t (2 : Fin 4) * 3 + 1 * b.val = b.val; omega
    | ⟨3, _⟩ => show win0_1.index t (3 : Fin 4) * 27 + 1 * oc.val = oc.val; omega
  rw [he]
  exact transpose_apply _ _ _ _ _ fun e => by
    match e with
    | ⟨0, _⟩ => rfl
    | ⟨1, _⟩ => rfl
    | ⟨2, _⟩ => rfl
    | ⟨3, _⟩ => rfl

/-! ## What a point writes back -/

/-- The body's block at (0, oc, h, v), from an image block that is rows [n, :, :, :] of `xp` and a weight block that
    is `w` with its output-channel axis last, is the specification's entry (n, oc, h, v): the same tree, leaf by leaf. -/
private theorem out_entry (x0 : Vec Ideal S1x27x34x34 .f32) (x1 : Vec Ideal S27x3x3x27 .f32)
    (xp : S8x27x34x34.Idx → EReal) (w : S27x27x3x3.Idx → EReal) (n : Fin 8)
    (h0 : ∀ (c' : Fin 27) (a b : Fin 34), x0 (ix4 (0 : Fin 1) c' a b) = xp (ix4 n c' a b))
    (h1 : ∀ (c' : Fin 27) (a b : Fin 3) (oc : Fin 27), x1 (ix4 c' a b oc) = w (ix4 oc c' a b))
    (oc : Fin 27) (h v : Fin 32) :
    out0_2 x0 x1 (ix4 (0 : Fin 1) oc h v) = G xp w (ix4 n oc h v) := by
  rw [Body.out_apply]
  show _ = tree5 maj (leaf xp w n oc h v)
  refine tree5_congr maj fun k _ => ?_
  show x1 _ * x0 _ = w _ * xp _
  rw [h0, h1]

/-- The same at any index `y` of the block and any index `i` of the result whose leading coordinate is n and whose
    other three are `y`'s. -/
private theorem out_at (x0 : Vec Ideal S1x27x34x34 .f32) (x1 : Vec Ideal S27x3x3x27 .f32)
    (xp : S8x27x34x34.Idx → EReal) (w : S27x27x3x3.Idx → EReal) (n : Fin 8)
    (h0 : ∀ (c' : Fin 27) (a b : Fin 34), x0 (ix4 (0 : Fin 1) c' a b) = xp (ix4 n c' a b))
    (h1 : ∀ (c' : Fin 27) (a b : Fin 3) (oc : Fin 27), x1 (ix4 c' a b oc) = w (ix4 oc c' a b))
    (y : S1x27x32x32.Idx) (i : S8x27x32x32.Idx)
    (e0 : (i 0).val = n.val) (e1 : (i 1).val = (y 1).val) (e2 : (i 2).val = (y 2).val) (e3 : (i 3).val = (y 3).val) :
    out0_2 x0 x1 y = G xp w i := by
  have hy0 : (y 0).val < 1 := (y 0).isLt
  have hy : y = ix4 (0 : Fin 1) (y 1) (y 2) (y 3) := by
    refine funext fun e => Fin.ext ?_
    match e with
    | ⟨0, _⟩ => show (y 0).val = 0; omega
    | ⟨1, _⟩ => rfl
    | ⟨2, _⟩ => rfl
    | ⟨3, _⟩ => rfl
  have hi : i = ix4 n (y 1) (y 2) (y 3) := by
    refine funext fun e => Fin.ext ?_
    match e with
    | ⟨0, _⟩ => exact e0
    | ⟨1, _⟩ => exact e1
    | ⟨2, _⟩ => exact e2
    | ⟨3, _⟩ => exact e3
  rw [hi, hy]
  exact out_entry x0 x1 xp w n h0 h1 (y 1) (y 2) (y 3)

/-- WHAT POINT n WRITES BACK is block n of the specification's function of the padded input and the weight. -/
private theorem flushed_eq (c : Dev nD) (t : Fin cfg0.N) :
    (dats m 0 c).flushed 2 t = ((cfg0.win 2).blk t).view.read (Elt Ideal)
      (G (padX (m ((c : Thread nD τ).loc main_arg0))) (m ((c : Thread nD τ).loc main_arg1))) := by
  show (cfg0.win 2).cut (grid0.coords t) ((dats m 0 c).after 2 t) = _
  rw [after0_2]
  obtain ⟨-, -, ⟨e0, e1, e2, e3⟩⟩ := idx_facts t
  funext y
  show out0_2 (iblk m c 0 t) (iblk m c 1 t) y
    = G (padX (m ((c : Thread nD τ).loc main_arg0))) (m ((c : Thread nD τ).loc main_arg1)) (((cfg0.win 2).blk t).view.emb y)
  have hy0 : (y 0).val < 1 := (y 0).isLt
  refine out_at (iblk m c 0 t) (iblk m c 1 t) _ _ (img t) (imgBlock_apply m c t) (wtBlock_apply m c t) y _ ?_ ?_ ?_ ?_
  · show win0_2.index t (0 : Fin 4) * 1 + 1 * (y 0).val = t.val; omega
  · show win0_2.index t (1 : Fin 4) * 27 + 1 * (y 1).val = (y 1).val; omega
  · show win0_2.index t (2 : Fin 4) * 32 + 1 * (y 2).val = (y 2).val; omega
  · show win0_2.index t (3 : Fin 4) * 32 + 1 * (y 3).val = (y 3).val; omega

/-! ## The blocks cover the result -/

/-- An index of the result is in point n's block iff each coordinate is in the block's range on its axis. -/
private theorem mem_blk (t : Fin cfg0.N) (i : S8x27x32x32.Idx) :
    i ∈ ((cfg0.win 2).blk t).view.set ↔ ∀ a : Fin 4, win0_2.index t a * S1x27x32x32.size a ≤ (i a).val ∧ (i a).val < win0_2.index t a * S1x27x32x32.size a + S1x27x32x32.size a := by
  show i ∈ ((View.whole main_v2).slice (win0_2.rect t)).set ↔ _
  rw [View.set_slice_whole, Rect.mem_set_unit]
  exact Iff.rfl

/-- Every index (n, oc, h, v) of the result is in the block of point n, and every point writes its block back. -/
private theorem covered (i : S8x27x32x32.Idx) :
    ∃ t : Fin cfg0.N, (cfg0.win 2).flush t = true ∧ i ∈ ((cfg0.win 2).blk t).view.set := by
  have h0 : (i 0).val < 8 := (i 0).isLt
  have h1 : (i 1).val < 27 := (i 1).isLt
  have h2 : (i 2).val < 32 := (i 2).isLt
  have h3 : (i 3).val < 32 := (i 3).isLt
  refine ⟨⟨(i 0).val, lt_of_lt_of_eq h0 N_0.symm⟩, flush0_2 _, ?_⟩
  obtain ⟨-, -, ⟨e0, e1, e2, e3⟩⟩ := idx_facts ⟨(i 0).val, lt_of_lt_of_eq h0 N_0.symm⟩
  rw [mem_blk]
  intro a
  match a with
  | ⟨0, _⟩ =>
    show win0_2.index _ (0 : Fin 4) * 1 ≤ (i 0).val ∧ (i 0).val < win0_2.index _ (0 : Fin 4) * 1 + 1
    rw [e0]
    show (i 0).val * 1 ≤ (i 0).val ∧ (i 0).val < (i 0).val * 1 + 1
    omega
  | ⟨1, _⟩ => show win0_2.index _ (1 : Fin 4) * 27 ≤ (i 1).val ∧ (i 1).val < win0_2.index _ (1 : Fin 4) * 27 + 27; rw [e1]; omega
  | ⟨2, _⟩ => show win0_2.index _ (2 : Fin 4) * 32 ≤ (i 2).val ∧ (i 2).val < win0_2.index _ (2 : Fin 4) * 32 + 32; rw [e2]; omega
  | ⟨3, _⟩ => show win0_2.index _ (3 : Fin 4) * 32 ≤ (i 3).val ∧ (i 3).val < win0_2.index _ (3 : Fin 4) * 32 + 32; rw [e3]; omega

/-! ## The result array and the run -/

/-- The result array after the run is the specification's function of the two arguments. -/
theorem final (c : Dev nD) :
    (dats m 0 c).arrAt 2 cfg0.N = G (padX (m ((c : Thread nD τ).loc main_arg0))) (m ((c : Thread nD τ).loc main_arg1)) :=
  (dats m 0 c).arrAt_eq_of_cover 2 _ (fun t _ => flushed_eq m c t) covered

/-- The kernel's run: the result at the specification's function, the arguments unchanged. -/
theorem run : θ_run defs (onTc (τ := τ) (main (F := Ideal))) ⟨m, fun _ => 0, ρ⟩ fun r => ∀ c : Dev nD,
      r.2.mem ((c : Thread nD τ).loc main_v2) = G (padX (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.KValue

end
-- ==== Proof.RefLeaf.lean ====
/-
  The reference's 243 products per output entry.

  The first thirty operations pad the input by one row and column of -1, take the nine shifted 32 x 32 windows
  (kh, kw) of every channel, stack them as (n, c, 3kh + kw, h, v), flatten to (n, k = 9c + 3kh + kw, l = 32h + v),
  flatten the weight to (oc, k), multiply the two broadcast to (n, oc, k, l), and move k last: entry (n, oc, l, k)
  of the result is the padded input at (n, c, h + kh, v + kw) times the weight at (oc, c, kh, kw).
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Leaf

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.Spec

/-- The nine shifted 32 x 32 windows of a padded input `xp`, in the order (kh, kw) row-major, each given a unit axis
    in front of its two plane axes. -/
def windows (xp : (⟨S8x27x34x34, .f32⟩ : BufTy).Contents (Elt Ideal)) : List ((s : Shape) × (s.Idx → Elt Ideal .f32)) :=
  [⟨S8x27x1x32x32, broadcastInDim S8x27x1x32x32 ![0, 1, 3, 4] bcast_S8x27x32x32_S8x27x1x32x32_0_1_3_4
        (extractStridedSlice S8x27x32x32 ![0, 0, 0, 0] xp slices_S8x27x34x34_S8x27x32x32_0_0_0_0)⟩,
   ⟨S8x27x1x32x32, broadcastInDim S8x27x1x32x32 ![0, 1, 3, 4] bcast_S8x27x32x32_S8x27x1x32x32_0_1_3_4
        (extractStridedSlice S8x27x32x32 ![0, 0, 0, 1] xp slices_S8x27x34x34_S8x27x32x32_0_0_0_1)⟩,
   ⟨S8x27x1x32x32, broadcastInDim S8x27x1x32x32 ![0, 1, 3, 4] bcast_S8x27x32x32_S8x27x1x32x32_0_1_3_4
        (extractStridedSlice S8x27x32x32 ![0, 0, 0, 2] xp slices_S8x27x34x34_S8x27x32x32_0_0_0_2)⟩,
   ⟨S8x27x1x32x32, broadcastInDim S8x27x1x32x32 ![0, 1, 3, 4] bcast_S8x27x32x32_S8x27x1x32x32_0_1_3_4
        (extractStridedSlice S8x27x32x32 ![0, 0, 1, 0] xp slices_S8x27x34x34_S8x27x32x32_0_0_1_0)⟩,
   ⟨S8x27x1x32x32, broadcastInDim S8x27x1x32x32 ![0, 1, 3, 4] bcast_S8x27x32x32_S8x27x1x32x32_0_1_3_4
        (extractStridedSlice S8x27x32x32 ![0, 0, 1, 1] xp slices_S8x27x34x34_S8x27x32x32_0_0_1_1)⟩,
   ⟨S8x27x1x32x32, broadcastInDim S8x27x1x32x32 ![0, 1, 3, 4] bcast_S8x27x32x32_S8x27x1x32x32_0_1_3_4
        (extractStridedSlice S8x27x32x32 ![0, 0, 1, 2] xp slices_S8x27x34x34_S8x27x32x32_0_0_1_2)⟩,
   ⟨S8x27x1x32x32, broadcastInDim S8x27x1x32x32 ![0, 1, 3, 4] bcast_S8x27x32x32_S8x27x1x32x32_0_1_3_4
        (extractStridedSlice S8x27x32x32 ![0, 0, 2, 0] xp slices_S8x27x34x34_S8x27x32x32_0_0_2_0)⟩,
   ⟨S8x27x1x32x32, broadcastInDim S8x27x1x32x32 ![0, 1, 3, 4] bcast_S8x27x32x32_S8x27x1x32x32_0_1_3_4
        (extractStridedSlice S8x27x32x32 ![0, 0, 2, 1] xp slices_S8x27x34x34_S8x27x32x32_0_0_2_1)⟩,
   ⟨S8x27x1x32x32, broadcastInDim S8x27x1x32x32 ![0, 1, 3, 4] bcast_S8x27x32x32_S8x27x1x32x32_0_1_3_4
        (extractStridedSlice S8x27x32x32 ![0, 0, 2, 2] xp slices_S8x27x34x34_S8x27x32x32_0_0_2_2)⟩]

/-- Nine arrays of shape (8, 27, 1, 32, 32) stack along axis 2 to one of shape (8, 27, 9, 32, 32). -/
theorem windows_fit (xp : (⟨S8x27x34x34, .f32⟩ : BufTy).Contents (Elt Ideal)) :
    Shape.Concatenates ((windows xp).map (·.1)) S8x27x9x32x32 2 :=
  concatenates_S8x27x1x32x32_S8x27x1x32x32_S8x27x1x32x32_S8x27x1x32x32_S8x27x1x32x32_S8x27x1x32x32_S8x27x1x32x32_S8x27x1x32x32_S8x27x1x32x32_S8x27x9x32x32_d2

/-- The windows stacked along their unit axis: entry (n, c, 3kh + kw, h, v) is `xp` at (n, c, h + kh, v + kw). -/
def stack (xp : (⟨S8x27x34x34, .f32⟩ : BufTy).Contents (Elt Ideal)) : (⟨S8x27x9x32x32, .f32⟩ : BufTy).Contents (Elt Ideal) :=
  concatenate S8x27x9x32x32 2 (windows xp) (windows_fit xp)

/-- The products array (n, oc, l, k) as the first chunk's operations compose it from the two arguments. -/
def leafT (x : (⟨S8x27x32x32, .f32⟩ : BufTy).Contents (Elt Ideal)) (w : (⟨S27x27x3x3, .f32⟩ : BufTy).Contents (Elt Ideal)) :
    (⟨S8x27x1024x243, .f32⟩ : BufTy).Contents (Elt Ideal) :=
  transpose S8x27x1024x243 [0, 1, 3, 2]
    (mulf (F := Ideal) (φ := .f32)
      (broadcastInDim S8x27x243x1024 ![0, 1, 2, 3] bcast_S8x1x243x1024_S8x27x243x1024_0_1_2_3
        (broadcastInDim S8x1x243x1024 ![0, 2, 3] bcast_S8x243x1024_S8x1x243x1024_0_2_3
          (shapeCast S8x243x1024
            (stack (pad S8x27x34x34 ![0, 0, 1, 1] ![0, 0, 1, 1] ![0, 0, 0, 0] x (id (constant (F := Ideal) S_ .f32 0xBF800000#32))
              pads_S8x27x32x32_S8x27x34x34_000_000_110_110 h_S_))
            shapeCasts_S8x27x9x32x32_S8x243x1024)))
      (broadcastInDim S8x27x243x1024 ![0, 1, 2, 3] bcast_S1x27x243x1_S8x27x243x1024_0_1_2_3
        (broadcastInDim S1x27x243x1 ![1, 2] bcast_S27x243_S1x27x243x1_1_2
          (shapeCast S27x243 w shapeCasts_S27x27x3x3_S27x243))))
    transposes_S8x27x243x1024_S8x27x1024x243_0_1_3_2

/-- What an operation of nine operands leaves in its result buffer, each operand's contents at its own reference. -/
private theorem nary9_result {Val : EltTy → Type} (x0 x1 x2 x3 x4 x5 x6 x7 x8 y : Ref sig .tc)
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

set_option maxHeartbeats 8000000 in
/-- After the first chunk, from any contents, the products buffer holds that term of the two arguments' contents. -/
theorem leaf_after (W : Valuation τ sig (Elt Ideal)) :
    (after ops0 W (Proc.devRef .tc main_v27) : (⟨S8x27x1024x243, .f32⟩ : BufTy).Contents (Elt Ideal))
      = leafT (W (Proc.devRef .tc main_arg0)) (W (Proc.devRef .tc main_arg1)) := by
  simp only [after_cons, after_nil]
  repeat (first
    | rw [nullary_result] | rw [unary_result] | rw [binary_result] | rw [reshape_result] | rw [nary9_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

/-! ## The term at an index -/

/-- One window with its unit axis, read at (n, c, 0, h, v): the padded input at (n, c, a + h, b + v). -/
private theorem window_apply (xp : (⟨S8x27x34x34, .f32⟩ : BufTy).Contents (Elt Ideal)) (a b : Nat)
    (hs : S8x27x34x34.Slices ![0, 0, a, b] S8x27x32x32) (n : Fin 8) (c : Fin 27) (h v : Fin 32) (p q : Fin 34)
    (hp : p.val = a + h.val) (hq : q.val = b + v.val) :
    broadcastInDim S8x27x1x32x32 ![0, 1, 3, 4] bcast_S8x27x32x32_S8x27x1x32x32_0_1_3_4
        (extractStridedSlice S8x27x32x32 ![0, 0, a, b] xp hs) (ix5 n c (0 : Fin 1) h v)
      = xp (ix4 n c p q) := by
  refine (broadcastInDim_apply _ _ _ (ix5 n c (0 : Fin 1) h v) (ix4 n c h v)
    (fun e => match e with | ⟨0, _⟩ => rfl | ⟨1, _⟩ => rfl | ⟨2, _⟩ => rfl | ⟨3, _⟩ => rfl)).trans ?_
  exact extractStridedSlice_apply _ _ _ (ix4 n c h v) (ix4 n c p q)
    (fun e => match e with
      | ⟨0, _⟩ => by show n.val = 0 + n.val; omega
      | ⟨1, _⟩ => by show c.val = 0 + c.val; omega
      | ⟨2, _⟩ => by show p.val = a + h.val; omega
      | ⟨3, _⟩ => by show q.val = b + v.val; omega)

set_option maxHeartbeats 2000000 in
/-- The stack at (n, c, 3kh + kw, h, v) is window (kh, kw) at (n, c, h, v): the padded input at (n, c, h + kh, v + kw). -/
private theorem stack_apply (xp : (⟨S8x27x34x34, .f32⟩ : BufTy).Contents (Elt Ideal)) (n : Fin 8) (c : Fin 27)
    (kh kw : Fin 3) (h v : Fin 32) (j : Fin 9) (hj : j.val = 3 * kh.val + kw.val) :
    stack xp (ix5 n c j h v) = xp (ix4 n c (sh h kh) (sh v kw)) := by
  have hkh := kh.isLt
  have hkw := kw.isLt
  have hlen : (windows xp).length = 9 := rfl
  have hshapes : (windows xp).map (·.1) = List.replicate 9 S8x27x1x32x32 := rfl
  have off_axis : ∀ b : Fin S8x27x1x32x32.rank, b.cast (rfl : S8x27x1x32x32.rank = S8x27x9x32x32.rank) ≠ (2 : Fin 5) →
      ((ix5 n c (0 : Fin 1) h v : S8x27x1x32x32.Idx) b).val = ((ix5 n c j h v : S8x27x9x32x32.Idx) (b.cast rfl)).val :=
    fun b => match b with
      | ⟨0, _⟩ => fun _ => rfl
      | ⟨1, _⟩ => fun _ => rfl
      | ⟨2, _⟩ => fun hne => absurd rfl hne
      | ⟨3, _⟩ => fun _ => rfl
      | ⟨4, _⟩ => fun _ => rfl
  show concatenate S8x27x9x32x32 2 (windows xp) (windows_fit xp) (ix5 n c j h v) = _
  match j, hj with
  | ⟨0, _⟩, hj =>
    have hj' : 0 = 3 * kh.val + kw.val := hj
    refine Eq.trans (concatenate_apply_piece (2 : Fin 5) (windows xp) (windows_fit xp) (ix5 n c (⟨0, by decide⟩ : Fin 9) h v) 0
      (by rw [hlen]; decide) S8x27x1x32x32 _ rfl rfl 0 (by rw [List.map_take, hshapes]; decide)
      (ix5 n c (0 : Fin 1) h v) off_axis rfl) ?_
    exact window_apply xp 0 0 _ n c h v (sh h kh) (sh v kw) (by show h.val + kh.val = 0 + h.val; omega)
      (by show v.val + kw.val = 0 + v.val; omega)
  | ⟨1, _⟩, hj =>
    have hj' : 1 = 3 * kh.val + kw.val := hj
    refine Eq.trans (concatenate_apply_piece (2 : Fin 5) (windows xp) (windows_fit xp) (ix5 n c (⟨1, by decide⟩ : Fin 9) h v) 1
      (by rw [hlen]; decide) S8x27x1x32x32 _ rfl rfl 1 (by rw [List.map_take, hshapes]; decide)
      (ix5 n c (0 : Fin 1) h v) off_axis rfl) ?_
    exact window_apply xp 0 1 _ n c h v (sh h kh) (sh v kw) (by show h.val + kh.val = 0 + h.val; omega)
      (by show v.val + kw.val = 1 + v.val; omega)
  | ⟨2, _⟩, hj =>
    have hj' : 2 = 3 * kh.val + kw.val := hj
    refine Eq.trans (concatenate_apply_piece (2 : Fin 5) (windows xp) (windows_fit xp) (ix5 n c (⟨2, by decide⟩ : Fin 9) h v) 2
      (by rw [hlen]; decide) S8x27x1x32x32 _ rfl rfl 2 (by rw [List.map_take, hshapes]; decide)
      (ix5 n c (0 : Fin 1) h v) off_axis rfl) ?_
    exact window_apply xp 0 2 _ n c h v (sh h kh) (sh v kw) (by show h.val + kh.val = 0 + h.val; omega)
      (by show v.val + kw.val = 2 + v.val; omega)
  | ⟨3, _⟩, hj =>
    have hj' : 3 = 3 * kh.val + kw.val := hj
    refine Eq.trans (concatenate_apply_piece (2 : Fin 5) (windows xp) (windows_fit xp) (ix5 n c (⟨3, by decide⟩ : Fin 9) h v) 3
      (by rw [hlen]; decide) S8x27x1x32x32 _ rfl rfl 3 (by rw [List.map_take, hshapes]; decide)
      (ix5 n c (0 : Fin 1) h v) off_axis rfl) ?_
    exact window_apply xp 1 0 _ n c h v (sh h kh) (sh v kw) (by show h.val + kh.val = 1 + h.val; omega)
      (by show v.val + kw.val = 0 + v.val; omega)
  | ⟨4, _⟩, hj =>
    have hj' : 4 = 3 * kh.val + kw.val := hj
    refine Eq.trans (concatenate_apply_piece (2 : Fin 5) (windows xp) (windows_fit xp) (ix5 n c (⟨4, by decide⟩ : Fin 9) h v) 4
      (by rw [hlen]; decide) S8x27x1x32x32 _ rfl rfl 4 (by rw [List.map_take, hshapes]; decide)
      (ix5 n c (0 : Fin 1) h v) off_axis rfl) ?_
    exact window_apply xp 1 1 _ n c h v (sh h kh) (sh v kw) (by show h.val + kh.val = 1 + h.val; omega)
      (by show v.val + kw.val = 1 + v.val; omega)
  | ⟨5, _⟩, hj =>
    have hj' : 5 = 3 * kh.val + kw.val := hj
    refine Eq.trans (concatenate_apply_piece (2 : Fin 5) (windows xp) (windows_fit xp) (ix5 n c (⟨5, by decide⟩ : Fin 9) h v) 5
      (by rw [hlen]; decide) S8x27x1x32x32 _ rfl rfl 5 (by rw [List.map_take, hshapes]; decide)
      (ix5 n c (0 : Fin 1) h v) off_axis rfl) ?_
    exact window_apply xp 1 2 _ n c h v (sh h kh) (sh v kw) (by show h.val + kh.val = 1 + h.val; omega)
      (by show v.val + kw.val = 2 + v.val; omega)
  | ⟨6, _⟩, hj =>
    have hj' : 6 = 3 * kh.val + kw.val := hj
    refine Eq.trans (concatenate_apply_piece (2 : Fin 5) (windows xp) (windows_fit xp) (ix5 n c (⟨6, by decide⟩ : Fin 9) h v) 6
      (by rw [hlen]; decide) S8x27x1x32x32 _ rfl rfl 6 (by rw [List.map_take, hshapes]; decide)
      (ix5 n c (0 : Fin 1) h v) off_axis rfl) ?_
    exact window_apply xp 2 0 _ n c h v (sh h kh) (sh v kw) (by show h.val + kh.val = 2 + h.val; omega)
      (by show v.val + kw.val = 0 + v.val; omega)
  | ⟨7, _⟩, hj =>
    have hj' : 7 = 3 * kh.val + kw.val := hj
    refine Eq.trans (concatenate_apply_piece (2 : Fin 5) (windows xp) (windows_fit xp) (ix5 n c (⟨7, by decide⟩ : Fin 9) h v) 7
      (by rw [hlen]; decide) S8x27x1x32x32 _ rfl rfl 7 (by rw [List.map_take, hshapes]; decide)
      (ix5 n c (0 : Fin 1) h v) off_axis rfl) ?_
    exact window_apply xp 2 1 _ n c h v (sh h kh) (sh v kw) (by show h.val + kh.val = 2 + h.val; omega)
      (by show v.val + kw.val = 1 + v.val; omega)
  | ⟨8, _⟩, hj =>
    have hj' : 8 = 3 * kh.val + kw.val := hj
    refine Eq.trans (concatenate_apply_piece (2 : Fin 5) (windows xp) (windows_fit xp) (ix5 n c (⟨8, by decide⟩ : Fin 9) h v) 8
      (by rw [hlen]; decide) S8x27x1x32x32 _ rfl rfl 8 (by rw [List.map_take, hshapes]; decide)
      (ix5 n c (0 : Fin 1) h v) off_axis rfl) ?_
    exact window_apply xp 2 2 _ n c h v (sh h kh) (sh v kw) (by show h.val + kh.val = 2 + h.val; omega)
      (by show v.val + kw.val = 2 + v.val; omega)

/-- Entry (n, oc, l, k) with l = 32h + v. -/
private theorem leafT_at (x : (⟨S8x27x32x32, .f32⟩ : BufTy).Contents (Elt Ideal)) (w : (⟨S27x27x3x3, .f32⟩ : BufTy).Contents (Elt Ideal))
    (n : Fin 8) (oc : Fin 27) (h v : Fin 32) (k : Fin 243) (l : Fin 1024) (hl : l.val = h.val * 32 + v.val) :
    leafT x w (ix4 n oc l k)
      = padX x (ix4 n (tc k.val) (sh h (tkh k.val)) (sh v (tkw k.val))) * w (ix4 oc (tc k.val) (tkh k.val) (tkw k.val)) := by
  have hk := k.isLt
  have hh := h.isLt
  have hv := v.isLt
  have e_c : (tc k.val).val = k.val / 9 := by show k.val / 9 % 27 = k.val / 9; omega
  have e_h : (tkh k.val).val = k.val / 3 % 3 := rfl
  have e_w : (tkw k.val).val = k.val % 3 := rfl
  unfold leafT
  refine (transpose_apply _ _ _ (ix4 n oc l k) (ix4 n oc k l)
    (fun b => match b with | ⟨0, _⟩ => rfl | ⟨1, _⟩ => rfl | ⟨2, _⟩ => rfl | ⟨3, _⟩ => rfl)).trans ?_
  rw [mulf_apply]
  congr 1
  · -- the stacked windows, flattened, then broadcast along the output-channel axis
    refine (broadcastInDim_apply _ _ _ (ix4 n oc k l) (ix4 n (0 : Fin 1) k l)
      (fun a => match a with | ⟨0, _⟩ => rfl | ⟨1, _⟩ => rfl | ⟨2, _⟩ => rfl | ⟨3, _⟩ => rfl)).trans ?_
    refine (broadcastInDim_apply _ _ _ (ix4 n (0 : Fin 1) k l) (ix3 n k l)
      (fun a => match a with | ⟨0, _⟩ => rfl | ⟨1, _⟩ => rfl | ⟨2, _⟩ => rfl)).trans ?_
    refine (shapeCast_apply _ _ (ix3 n k l)
      (ix5 n (tc k.val) (⟨3 * (tkh k.val).val + (tkw k.val).val, by omega⟩ : Fin 9) h v)
      (by rw [Shape.rowMajor_val_five, Shape.rowMajor_val_three]
          show (((n.val * 27 + (tc k.val).val) * 9 + (3 * (tkh k.val).val + (tkw k.val).val)) * 32 + h.val) * 32 + v.val
            = (n.val * 243 + k.val) * 1024 + l.val
          omega)).trans ?_
    exact stack_apply _ n (tc k.val) (tkh k.val) (tkw k.val) h v _ rfl
  · -- the flattened weight, broadcast along the image and the position axes
    refine (broadcastInDim_apply _ _ _ (ix4 n oc k l) (ix4 (0 : Fin 1) oc k (0 : Fin 1))
      (fun a => match a with | ⟨0, _⟩ => rfl | ⟨1, _⟩ => rfl | ⟨2, _⟩ => rfl | ⟨3, _⟩ => rfl)).trans ?_
    refine (broadcastInDim_apply _ _ _ (ix4 (0 : Fin 1) oc k (0 : Fin 1)) (ix2 oc k)
      (fun a => match a with | ⟨0, _⟩ => rfl | ⟨1, _⟩ => rfl)).trans ?_
    exact shapeCast_apply _ _ (ix2 oc k) (ix4 oc (tc k.val) (tkh k.val) (tkw k.val))
      (by rw [Shape.rowMajor_val_four, Shape.rowMajor_val_two]
          show ((oc.val * 27 + (tc k.val).val) * 3 + (tkh k.val).val) * 3 + (tkw k.val).val = oc.val * 243 + k.val
          omega)

/-- Entry (n, oc, 32h + v, k): the padded input at (n, c, h + kh, v + kw) times the weight at (oc, c, kh, kw). -/
theorem leafT_apply (x : (⟨S8x27x32x32, .f32⟩ : BufTy).Contents (Elt Ideal)) (w : (⟨S27x27x3x3, .f32⟩ : BufTy).Contents (Elt Ideal))
    (n : Fin 8) (oc : Fin 27) (h v : Fin 32) (k : Fin 243) :
    leafT x w (ix4 n oc (⟨h.val * 32 + v.val, by have := h.isLt; have := v.isLt; omega⟩ : Fin 1024) k)
      = padX x (ix4 n (tc k.val) (sh h (tkh k.val)) (sh v (tkw k.val))) * w (ix4 oc (tc k.val) (tkh k.val) (tkw k.val)) :=
  leafT_at x w n oc h v k _ rfl

end Cert.ReferenceIdeal.Leaf

end
-- ==== Proof.RefRound1.lean ====
/-
  One round of the reference's reduction: from 243 entries per output element to 81.

  The round regroups the trailing axis (…, 243) as (…, 81, 3), moves every entry from [-1, 1] to [0, 1]
  (add 1, halve), picks members 0, 1, 2 of every group of three as three (…, 81) arrays and combines them by
  the gate's products, sums and differences. Entry k of the result is the majority gate of entries
  3k, 3k + 1, 3k + 2 of the operand.
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Round1

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-- The operand regrouped in threes and moved to [0, 1]. -/
def movedT (X : (⟨S8x27x1024x243, .f32⟩ : BufTy).Contents (Elt Ideal)) : (⟨S8x27x1024x81x3, .f32⟩ : BufTy).Contents (Elt Ideal) :=
  mulf (F := Ideal)
    (addf (F := Ideal) (shapeCast S8x27x1024x81x3 X shapeCasts_S8x27x1024x243_S8x27x1024x81x3)
      (broadcastInDim S8x27x1024x81x3 ![] bcast_S_S8x27x1024x81x3 (constant (F := Ideal) S_ .f32 0x3F800000#32)))
    (broadcastInDim S8x27x1024x81x3 ![] bcast_S_S8x27x1024x81x3 (constant (F := Ideal) S_ .f32 0x3F000000#32))

/-- Member `j` of every group of three. -/
def pickT (j : ℕ) (s : (⟨S8x27x1024x81x3, .f32⟩ : BufTy).Contents (Elt Ideal))
    (hs : S8x27x1024x81x3.Slices ![0, 0, 0, 0, j] S8x27x1024x81x1) : (⟨S8x27x1024x81, .f32⟩ : BufTy).Contents (Elt Ideal) :=
  shapeCast S8x27x1024x81 (extractStridedSlice S8x27x1024x81x1 ![0, 0, 0, 0, j] s hs) shapeCasts_S8x27x1024x81x1_S8x27x1024x81

/-- The round on the whole array. -/
def roundT (X : (⟨S8x27x1024x243, .f32⟩ : BufTy).Contents (Elt Ideal)) : (⟨S8x27x1024x81, .f32⟩ : BufTy).Contents (Elt Ideal) :=
  coreV (F := Ideal) (pickT 0 (movedT X) slices_S8x27x1024x81x3_S8x27x1024x81x1_0_0_0_0_0)
    (pickT 1 (movedT X) slices_S8x27x1024x81x3_S8x27x1024x81x1_0_0_0_0_1)
    (pickT 2 (movedT X) slices_S8x27x1024x81x3_S8x27x1024x81x1_0_0_0_0_2)

set_option maxRecDepth 8192 in
set_option maxHeartbeats 4000000 in
/-- After this round's thirty operations, from any contents, its result buffer holds the round of its operand buffer. -/
theorem round_after (W : Valuation τ sig (Elt Ideal)) :
    (after ops1 W (Proc.devRef .tc main_v52) : (⟨S8x27x1024x81, .f32⟩ : BufTy).Contents (Elt Ideal))
      = roundT (W (Proc.devRef .tc main_v27)) := by
  after_results_simp <;> rfl

/-- Entry `k` of the round is the gate of entries 3k, 3k + 1, 3k + 2 of the operand. -/
theorem roundT_apply (X : (⟨S8x27x1024x243, .f32⟩ : BufTy).Contents (Elt Ideal)) (n : Fin 8) (oc : Fin 27) (l : Fin 1024) (k : Fin 81) :
    roundT X (ix4 n oc l k)
      = maj (X (ix4 n oc l (⟨3 * k.val, by have := k.isLt; omega⟩ : Fin 243)))
          (X (ix4 n oc l (⟨3 * k.val + 1, by have := k.isLt; omega⟩ : Fin 243)))
          (X (ix4 n oc l (⟨3 * k.val + 2, by have := k.isLt; omega⟩ : Fin 243))) := by
  have pick : ∀ (j : Fin 3) (hs : S8x27x1024x81x3.Slices ![0, 0, 0, 0, j.val] S8x27x1024x81x1),
      pickT j.val (movedT X) hs (ix4 n oc l k)
        = unit (X (ix4 n oc l (⟨3 * k.val + j.val, by have := k.isLt; have := j.isLt; omega⟩ : Fin 243))) := by
    intro j hs
    unfold pickT
    refine (shapeCast_apply _ _ (ix4 n oc l k) (ix5 n oc l k (0 : Fin 1))
      (by rw [Shape.rowMajor_val_five, Shape.rowMajor_val_four]
          show ((((n.val * 27 + oc.val) * 1024 + l.val) * 81 + k.val) * 1 + 0) = ((n.val * 27 + oc.val) * 1024 + l.val) * 81 + k.val
          omega)).trans ?_
    refine (extractStridedSlice_apply _ _ _ (ix5 n oc l k (0 : Fin 1)) (ix5 n oc l k j)
      (fun a => match a with
        | ⟨0, _⟩ => by show n.val = 0 + n.val; omega
        | ⟨1, _⟩ => by show oc.val = 0 + oc.val; omega
        | ⟨2, _⟩ => by show l.val = 0 + l.val; omega
        | ⟨3, _⟩ => by show k.val = 0 + k.val; omega
        | ⟨4, _⟩ => by show j.val = j.val + 0; omega)).trans ?_
    unfold movedT
    show unit (shapeCast S8x27x1024x81x3 X shapeCasts_S8x27x1024x243_S8x27x1024x81x3 (ix5 n oc l k j)) = _
    refine congrArg unit ?_
    exact shapeCast_apply _ _ (ix5 n oc l k j) (ix4 n oc l (⟨3 * k.val + j.val, by have := k.isLt; have := j.isLt; omega⟩ : Fin 243))
      (by rw [Shape.rowMajor_val_four, Shape.rowMajor_val_five]
          show ((n.val * 27 + oc.val) * 1024 + l.val) * 243 + (3 * k.val + j.val)
            = ((((n.val * 27 + oc.val) * 1024 + l.val) * 81 + k.val) * 3 + j.val)
          omega)
  unfold roundT
  rw [coreV_apply, maj_eq_core]
  exact congr (congr (congrArg core (pick 0 _)) (pick 1 _)) (pick 2 _)

end Cert.ReferenceIdeal.Round1

end
-- ==== Proof.RefRound2.lean ====
/-
  One round of the reference's reduction: from 81 entries per output element to 27.

  The round regroups the trailing axis (…, 81) as (…, 27, 3), moves every entry from [-1, 1] to [0, 1]
  (add 1, halve), picks members 0, 1, 2 of every group of three as three (…, 27) arrays and combines them by
  the gate's products, sums and differences. Entry k of the result is the majority gate of entries
  3k, 3k + 1, 3k + 2 of the operand.
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Round2

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-- The operand regrouped in threes and moved to [0, 1]. -/
def movedT (X : (⟨S8x27x1024x81, .f32⟩ : BufTy).Contents (Elt Ideal)) : (⟨S8x27x1024x27x3, .f32⟩ : BufTy).Contents (Elt Ideal) :=
  mulf (F := Ideal)
    (addf (F := Ideal) (shapeCast S8x27x1024x27x3 X shapeCasts_S8x27x1024x81_S8x27x1024x27x3)
      (broadcastInDim S8x27x1024x27x3 ![] bcast_S_S8x27x1024x27x3 (constant (F := Ideal) S_ .f32 0x3F800000#32)))
    (broadcastInDim S8x27x1024x27x3 ![] bcast_S_S8x27x1024x27x3 (constant (F := Ideal) S_ .f32 0x3F000000#32))

/-- Member `j` of every group of three. -/
def pickT (j : ℕ) (s : (⟨S8x27x1024x27x3, .f32⟩ : BufTy).Contents (Elt Ideal))
    (hs : S8x27x1024x27x3.Slices ![0, 0, 0, 0, j] S8x27x1024x27x1) : (⟨S8x27x1024x27, .f32⟩ : BufTy).Contents (Elt Ideal) :=
  shapeCast S8x27x1024x27 (extractStridedSlice S8x27x1024x27x1 ![0, 0, 0, 0, j] s hs) shapeCasts_S8x27x1024x27x1_S8x27x1024x27

/-- The round on the whole array. -/
def roundT (X : (⟨S8x27x1024x81, .f32⟩ : BufTy).Contents (Elt Ideal)) : (⟨S8x27x1024x27, .f32⟩ : BufTy).Contents (Elt Ideal) :=
  coreV (F := Ideal) (pickT 0 (movedT X) slices_S8x27x1024x27x3_S8x27x1024x27x1_0_0_0_0_0)
    (pickT 1 (movedT X) slices_S8x27x1024x27x3_S8x27x1024x27x1_0_0_0_0_1)
    (pickT 2 (movedT X) slices_S8x27x1024x27x3_S8x27x1024x27x1_0_0_0_0_2)

set_option maxRecDepth 8192 in
set_option maxHeartbeats 4000000 in
/-- After this round's thirty operations, from any contents, its result buffer holds the round of its operand buffer. -/
theorem round_after (W : Valuation τ sig (Elt Ideal)) :
    (after ops2 W (Proc.devRef .tc main_v77) : (⟨S8x27x1024x27, .f32⟩ : BufTy).Contents (Elt Ideal))
      = roundT (W (Proc.devRef .tc main_v52)) := by
  after_results_simp <;> rfl

/-- Entry `k` of the round is the gate of entries 3k, 3k + 1, 3k + 2 of the operand. -/
theorem roundT_apply (X : (⟨S8x27x1024x81, .f32⟩ : BufTy).Contents (Elt Ideal)) (n : Fin 8) (oc : Fin 27) (l : Fin 1024) (k : Fin 27) :
    roundT X (ix4 n oc l k)
      = maj (X (ix4 n oc l (⟨3 * k.val, by have := k.isLt; omega⟩ : Fin 81)))
          (X (ix4 n oc l (⟨3 * k.val + 1, by have := k.isLt; omega⟩ : Fin 81)))
          (X (ix4 n oc l (⟨3 * k.val + 2, by have := k.isLt; omega⟩ : Fin 81))) := by
  have pick : ∀ (j : Fin 3) (hs : S8x27x1024x27x3.Slices ![0, 0, 0, 0, j.val] S8x27x1024x27x1),
      pickT j.val (movedT X) hs (ix4 n oc l k)
        = unit (X (ix4 n oc l (⟨3 * k.val + j.val, by have := k.isLt; have := j.isLt; omega⟩ : Fin 81))) := by
    intro j hs
    unfold pickT
    refine (shapeCast_apply _ _ (ix4 n oc l k) (ix5 n oc l k (0 : Fin 1))
      (by rw [Shape.rowMajor_val_five, Shape.rowMajor_val_four]
          show ((((n.val * 27 + oc.val) * 1024 + l.val) * 27 + k.val) * 1 + 0) = ((n.val * 27 + oc.val) * 1024 + l.val) * 27 + k.val
          omega)).trans ?_
    refine (extractStridedSlice_apply _ _ _ (ix5 n oc l k (0 : Fin 1)) (ix5 n oc l k j)
      (fun a => match a with
        | ⟨0, _⟩ => by show n.val = 0 + n.val; omega
        | ⟨1, _⟩ => by show oc.val = 0 + oc.val; omega
        | ⟨2, _⟩ => by show l.val = 0 + l.val; omega
        | ⟨3, _⟩ => by show k.val = 0 + k.val; omega
        | ⟨4, _⟩ => by show j.val = j.val + 0; omega)).trans ?_
    unfold movedT
    show unit (shapeCast S8x27x1024x27x3 X shapeCasts_S8x27x1024x81_S8x27x1024x27x3 (ix5 n oc l k j)) = _
    refine congrArg unit ?_
    exact shapeCast_apply _ _ (ix5 n oc l k j) (ix4 n oc l (⟨3 * k.val + j.val, by have := k.isLt; have := j.isLt; omega⟩ : Fin 81))
      (by rw [Shape.rowMajor_val_four, Shape.rowMajor_val_five]
          show ((n.val * 27 + oc.val) * 1024 + l.val) * 81 + (3 * k.val + j.val)
            = ((((n.val * 27 + oc.val) * 1024 + l.val) * 27 + k.val) * 3 + j.val)
          omega)
  unfold roundT
  rw [coreV_apply, maj_eq_core]
  exact congr (congr (congrArg core (pick 0 _)) (pick 1 _)) (pick 2 _)

end Cert.ReferenceIdeal.Round2

end
-- ==== Proof.RefRound3.lean ====
/-
  One round of the reference's reduction: from 27 entries per output element to 9.

  The round regroups the trailing axis (…, 27) as (…, 9, 3), moves every entry from [-1, 1] to [0, 1]
  (add 1, halve), picks members 0, 1, 2 of every group of three as three (…, 9) arrays and combines them by
  the gate's products, sums and differences. Entry k of the result is the majority gate of entries
  3k, 3k + 1, 3k + 2 of the operand.
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Round3

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-- The operand regrouped in threes and moved to [0, 1]. -/
def movedT (X : (⟨S8x27x1024x27, .f32⟩ : BufTy).Contents (Elt Ideal)) : (⟨S8x27x1024x9x3, .f32⟩ : BufTy).Contents (Elt Ideal) :=
  mulf (F := Ideal)
    (addf (F := Ideal) (shapeCast S8x27x1024x9x3 X shapeCasts_S8x27x1024x27_S8x27x1024x9x3)
      (broadcastInDim S8x27x1024x9x3 ![] bcast_S_S8x27x1024x9x3 (constant (F := Ideal) S_ .f32 0x3F800000#32)))
    (broadcastInDim S8x27x1024x9x3 ![] bcast_S_S8x27x1024x9x3 (constant (F := Ideal) S_ .f32 0x3F000000#32))

/-- Member `j` of every group of three. -/
def pickT (j : ℕ) (s : (⟨S8x27x1024x9x3, .f32⟩ : BufTy).Contents (Elt Ideal))
    (hs : S8x27x1024x9x3.Slices ![0, 0, 0, 0, j] S8x27x1024x9x1) : (⟨S8x27x1024x9, .f32⟩ : BufTy).Contents (Elt Ideal) :=
  shapeCast S8x27x1024x9 (extractStridedSlice S8x27x1024x9x1 ![0, 0, 0, 0, j] s hs) shapeCasts_S8x27x1024x9x1_S8x27x1024x9

/-- The round on the whole array. -/
def roundT (X : (⟨S8x27x1024x27, .f32⟩ : BufTy).Contents (Elt Ideal)) : (⟨S8x27x1024x9, .f32⟩ : BufTy).Contents (Elt Ideal) :=
  coreV (F := Ideal) (pickT 0 (movedT X) slices_S8x27x1024x9x3_S8x27x1024x9x1_0_0_0_0_0)
    (pickT 1 (movedT X) slices_S8x27x1024x9x3_S8x27x1024x9x1_0_0_0_0_1)
    (pickT 2 (movedT X) slices_S8x27x1024x9x3_S8x27x1024x9x1_0_0_0_0_2)

set_option maxRecDepth 8192 in
set_option maxHeartbeats 4000000 in
/-- After this round's thirty operations, from any contents, its result buffer holds the round of its operand buffer. -/
theorem round_after (W : Valuation τ sig (Elt Ideal)) :
    (after ops3 W (Proc.devRef .tc main_v102) : (⟨S8x27x1024x9, .f32⟩ : BufTy).Contents (Elt Ideal))
      = roundT (W (Proc.devRef .tc main_v77)) := by
  after_results_simp <;> rfl

/-- Entry `k` of the round is the gate of entries 3k, 3k + 1, 3k + 2 of the operand. -/
theorem roundT_apply (X : (⟨S8x27x1024x27, .f32⟩ : BufTy).Contents (Elt Ideal)) (n : Fin 8) (oc : Fin 27) (l : Fin 1024) (k : Fin 9) :
    roundT X (ix4 n oc l k)
      = maj (X (ix4 n oc l (⟨3 * k.val, by have := k.isLt; omega⟩ : Fin 27)))
          (X (ix4 n oc l (⟨3 * k.val + 1, by have := k.isLt; omega⟩ : Fin 27)))
          (X (ix4 n oc l (⟨3 * k.val + 2, by have := k.isLt; omega⟩ : Fin 27))) := by
  have pick : ∀ (j : Fin 3) (hs : S8x27x1024x9x3.Slices ![0, 0, 0, 0, j.val] S8x27x1024x9x1),
      pickT j.val (movedT X) hs (ix4 n oc l k)
        = unit (X (ix4 n oc l (⟨3 * k.val + j.val, by have := k.isLt; have := j.isLt; omega⟩ : Fin 27))) := by
    intro j hs
    unfold pickT
    refine (shapeCast_apply _ _ (ix4 n oc l k) (ix5 n oc l k (0 : Fin 1))
      (by rw [Shape.rowMajor_val_five, Shape.rowMajor_val_four]
          show ((((n.val * 27 + oc.val) * 1024 + l.val) * 9 + k.val) * 1 + 0) = ((n.val * 27 + oc.val) * 1024 + l.val) * 9 + k.val
          omega)).trans ?_
    refine (extractStridedSlice_apply _ _ _ (ix5 n oc l k (0 : Fin 1)) (ix5 n oc l k j)
      (fun a => match a with
        | ⟨0, _⟩ => by show n.val = 0 + n.val; omega
        | ⟨1, _⟩ => by show oc.val = 0 + oc.val; omega
        | ⟨2, _⟩ => by show l.val = 0 + l.val; omega
        | ⟨3, _⟩ => by show k.val = 0 + k.val; omega
        | ⟨4, _⟩ => by show j.val = j.val + 0; omega)).trans ?_
    unfold movedT
    show unit (shapeCast S8x27x1024x9x3 X shapeCasts_S8x27x1024x27_S8x27x1024x9x3 (ix5 n oc l k j)) = _
    refine congrArg unit ?_
    exact shapeCast_apply _ _ (ix5 n oc l k j) (ix4 n oc l (⟨3 * k.val + j.val, by have := k.isLt; have := j.isLt; omega⟩ : Fin 27))
      (by rw [Shape.rowMajor_val_four, Shape.rowMajor_val_five]
          show ((n.val * 27 + oc.val) * 1024 + l.val) * 27 + (3 * k.val + j.val)
            = ((((n.val * 27 + oc.val) * 1024 + l.val) * 9 + k.val) * 3 + j.val)
          omega)
  unfold roundT
  rw [coreV_apply, maj_eq_core]
  exact congr (congr (congrArg core (pick 0 _)) (pick 1 _)) (pick 2 _)

end Cert.ReferenceIdeal.Round3

end
-- ==== Proof.RefRound4.lean ====
/-
  One round of the reference's reduction: from 9 entries per output element to 3.

  The round regroups the trailing axis (…, 9) as (…, 3, 3), moves every entry from [-1, 1] to [0, 1]
  (add 1, halve), picks members 0, 1, 2 of every group of three as three (…, 3) arrays and combines them by
  the gate's products, sums and differences. Entry k of the result is the majority gate of entries
  3k, 3k + 1, 3k + 2 of the operand.
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Round4

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-- The operand regrouped in threes and moved to [0, 1]. -/
def movedT (X : (⟨S8x27x1024x9, .f32⟩ : BufTy).Contents (Elt Ideal)) : (⟨S8x27x1024x3x3, .f32⟩ : BufTy).Contents (Elt Ideal) :=
  mulf (F := Ideal)
    (addf (F := Ideal) (shapeCast S8x27x1024x3x3 X shapeCasts_S8x27x1024x9_S8x27x1024x3x3)
      (broadcastInDim S8x27x1024x3x3 ![] bcast_S_S8x27x1024x3x3 (constant (F := Ideal) S_ .f32 0x3F800000#32)))
    (broadcastInDim S8x27x1024x3x3 ![] bcast_S_S8x27x1024x3x3 (constant (F := Ideal) S_ .f32 0x3F000000#32))

/-- Member `j` of every group of three. -/
def pickT (j : ℕ) (s : (⟨S8x27x1024x3x3, .f32⟩ : BufTy).Contents (Elt Ideal))
    (hs : S8x27x1024x3x3.Slices ![0, 0, 0, 0, j] S8x27x1024x3x1) : (⟨S8x27x1024x3, .f32⟩ : BufTy).Contents (Elt Ideal) :=
  shapeCast S8x27x1024x3 (extractStridedSlice S8x27x1024x3x1 ![0, 0, 0, 0, j] s hs) shapeCasts_S8x27x1024x3x1_S8x27x1024x3

/-- The round on the whole array. -/
def roundT (X : (⟨S8x27x1024x9, .f32⟩ : BufTy).Contents (Elt Ideal)) : (⟨S8x27x1024x3, .f32⟩ : BufTy).Contents (Elt Ideal) :=
  coreV (F := Ideal) (pickT 0 (movedT X) slices_S8x27x1024x3x3_S8x27x1024x3x1_0_0_0_0_0)
    (pickT 1 (movedT X) slices_S8x27x1024x3x3_S8x27x1024x3x1_0_0_0_0_1)
    (pickT 2 (movedT X) slices_S8x27x1024x3x3_S8x27x1024x3x1_0_0_0_0_2)

set_option maxRecDepth 8192 in
set_option maxHeartbeats 4000000 in
/-- After this round's thirty operations, from any contents, its result buffer holds the round of its operand buffer. -/
theorem round_after (W : Valuation τ sig (Elt Ideal)) :
    (after ops4 W (Proc.devRef .tc main_v127) : (⟨S8x27x1024x3, .f32⟩ : BufTy).Contents (Elt Ideal))
      = roundT (W (Proc.devRef .tc main_v102)) := by
  after_results_simp <;> rfl

/-- Entry `k` of the round is the gate of entries 3k, 3k + 1, 3k + 2 of the operand. -/
theorem roundT_apply (X : (⟨S8x27x1024x9, .f32⟩ : BufTy).Contents (Elt Ideal)) (n : Fin 8) (oc : Fin 27) (l : Fin 1024) (k : Fin 3) :
    roundT X (ix4 n oc l k)
      = maj (X (ix4 n oc l (⟨3 * k.val, by have := k.isLt; omega⟩ : Fin 9)))
          (X (ix4 n oc l (⟨3 * k.val + 1, by have := k.isLt; omega⟩ : Fin 9)))
          (X (ix4 n oc l (⟨3 * k.val + 2, by have := k.isLt; omega⟩ : Fin 9))) := by
  have pick : ∀ (j : Fin 3) (hs : S8x27x1024x3x3.Slices ![0, 0, 0, 0, j.val] S8x27x1024x3x1),
      pickT j.val (movedT X) hs (ix4 n oc l k)
        = unit (X (ix4 n oc l (⟨3 * k.val + j.val, by have := k.isLt; have := j.isLt; omega⟩ : Fin 9))) := by
    intro j hs
    unfold pickT
    refine (shapeCast_apply _ _ (ix4 n oc l k) (ix5 n oc l k (0 : Fin 1))
      (by rw [Shape.rowMajor_val_five, Shape.rowMajor_val_four]
          show ((((n.val * 27 + oc.val) * 1024 + l.val) * 3 + k.val) * 1 + 0) = ((n.val * 27 + oc.val) * 1024 + l.val) * 3 + k.val
          omega)).trans ?_
    refine (extractStridedSlice_apply _ _ _ (ix5 n oc l k (0 : Fin 1)) (ix5 n oc l k j)
      (fun a => match a with
        | ⟨0, _⟩ => by show n.val = 0 + n.val; omega
        | ⟨1, _⟩ => by show oc.val = 0 + oc.val; omega
        | ⟨2, _⟩ => by show l.val = 0 + l.val; omega
        | ⟨3, _⟩ => by show k.val = 0 + k.val; omega
        | ⟨4, _⟩ => by show j.val = j.val + 0; omega)).trans ?_
    unfold movedT
    show unit (shapeCast S8x27x1024x3x3 X shapeCasts_S8x27x1024x9_S8x27x1024x3x3 (ix5 n oc l k j)) = _
    refine congrArg unit ?_
    exact shapeCast_apply _ _ (ix5 n oc l k j) (ix4 n oc l (⟨3 * k.val + j.val, by have := k.isLt; have := j.isLt; omega⟩ : Fin 9))
      (by rw [Shape.rowMajor_val_four, Shape.rowMajor_val_five]
          show ((n.val * 27 + oc.val) * 1024 + l.val) * 9 + (3 * k.val + j.val)
            = ((((n.val * 27 + oc.val) * 1024 + l.val) * 3 + k.val) * 3 + j.val)
          omega)
  unfold roundT
  rw [coreV_apply, maj_eq_core]
  exact congr (congr (congrArg core (pick 0 _)) (pick 1 _)) (pick 2 _)

end Cert.ReferenceIdeal.Round4

end
-- ==== Proof.RefRound5.lean ====
/-
  One round of the reference's reduction: from 3 entries per output element to 1.

  The round regroups the trailing axis (…, 3) as (…, 1, 3), moves every entry from [-1, 1] to [0, 1]
  (add 1, halve), picks members 0, 1, 2 of every group of three as three (…, 1) arrays and combines them by
  the gate's products, sums and differences. Entry k of the result is the majority gate of entries
  3k, 3k + 1, 3k + 2 of the operand.
-/
import proofs.«170610_j67250597921090_1_alg».proof.Proof.RefRun
import proofs.«170610_j67250597921090_1_alg».proof.Proof.Spec
import Idealize.ShloMosaic.Lib.Pipeline.Value
import Idealize.ShloMosaic.Lib.ValueIdx

set_option pp.maxSteps 5000
set_option pp.deepTerms false

noncomputable section

namespace Cert.ReferenceIdeal.Round5

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-- The operand regrouped in threes and moved to [0, 1]. -/
def movedT (X : (⟨S8x27x1024x3, .f32⟩ : BufTy).Contents (Elt Ideal)) : (⟨S8x27x1024x1x3, .f32⟩ : BufTy).Contents (Elt Ideal) :=
  mulf (F := Ideal)
    (addf (F := Ideal) (shapeCast S8x27x1024x1x3 X shapeCasts_S8x27x1024x3_S8x27x1024x1x3)
      (broadcastInDim S8x27x1024x1x3 ![] bcast_S_S8x27x1024x1x3 (constant (F := Ideal) S_ .f32 0x3F800000#32)))
    (broadcastInDim S8x27x1024x1x3 ![] bcast_S_S8x27x1024x1x3 (constant (F := Ideal) S_ .f32 0x3F000000#32))

/-- Member `j` of every group of three. -/
def pickT (j : ℕ) (s : (⟨S8x27x1024x1x3, .f32⟩ : BufTy).Contents (Elt Ideal))
    (hs : S8x27x1024x1x3.Slices ![0, 0, 0, 0, j] S8x27x1024x1x1) : (⟨S8x27x1024x1, .f32⟩ : BufTy).Contents (Elt Ideal) :=
  shapeCast S8x27x1024x1 (extractStridedSlice S8x27x1024x1x1 ![0, 0, 0, 0, j] s hs) shapeCasts_S8x27x1024x1x1_S8x27x1024x1

/-- The round on the whole array. -/
def roundT (X : (⟨S8x27x1024x3, .f32⟩ : BufTy).Contents (Elt Ideal)) : (⟨S8x27x1024x1, .f32⟩ : BufTy).Contents (Elt Ideal) :=
  coreV (F := Ideal) (pickT 0 (movedT X) slices_S8x27x1024x1x3_S8x27x1024x1x1_0_0_0_0_0)
    (pickT 1 (movedT X) slices_S8x27x1024x1x3_S8x27x1024x1x1_0_0_0_0_1)
    (pickT 2 (movedT X) slices_S8x27x1024x1x3_S8x27x1024x1x1_0_0_0_0_2)

set_option maxRecDepth 8192 in
set_option maxHeartbeats 4000000 in
/-- After this round's thirty operations, from any contents, its result buffer holds the round of its operand buffer. -/
theorem round_after (W : Valuation τ sig (Elt Ideal)) :
    (after ops5 W (Proc.devRef .tc main_v152) : (⟨S8x27x1024x1, .f32⟩ : BufTy).Contents (Elt Ideal))
      = roundT (W (Proc.devRef .tc main_v127)) := by
  after_results_simp <;> rfl

/-- Entry `k` of the round is the gate of entries 3k, 3k + 1, 3k + 2 of the operand. -/
theorem roundT_apply (X : (⟨S8x27x1024x3, .f32⟩ : BufTy).Contents (Elt Ideal)) (n : Fin 8) (oc : Fin 27) (l : Fin 1024) (k : Fin 1) :
    roundT X (ix4 n oc l k)
      = maj (X (ix4 n oc l (⟨3 * k.val, by have := k.isLt; omega⟩ : Fin 3)))
          (X (ix4 n oc l (⟨3 * k.val + 1, by have := k.isLt; omega⟩ : Fin 3)))
          (X (ix4 n oc l (⟨3 * k.val + 2, by have := k.isLt; omega⟩ : Fin 3))) := by
  have pick : ∀ (j : Fin 3) (hs : S8x27x1024x1x3.Slices ![0, 0, 0, 0, j.val] S8x27x1024x1x1),
      pickT j.val (movedT X) hs (ix4 n oc l k)
        = unit (X (ix4 n oc l (⟨3 * k.val + j.val, by have := k.isLt; have := j.isLt; omega⟩ : Fin 3))) := by
    intro j hs
    unfold pickT
    refine (shapeCast_apply _ _ (ix4 n oc l k) (ix5 n oc l k (0 : Fin 1))
      (by rw [Shape.rowMajor_val_five, Shape.rowMajor_val_four]
          show ((((n.val * 27 + oc.val) * 1024 + l.val) * 1 + k.val) * 1 + 0) = ((n.val * 27 + oc.val) * 1024 + l.val) * 1 + k.val
          omega)).trans ?_
    refine (extractStridedSlice_apply _ _ _ (ix5 n oc l k (0 : Fin 1)) (ix5 n oc l k j)
      (fun a => match a with
        | ⟨0, _⟩ => by show n.val = 0 + n.val; omega
        | ⟨1, _⟩ => by show oc.val = 0 + oc.val; omega
        | ⟨2, _⟩ => by show l.val = 0 + l.val; omega
        | ⟨3, _⟩ => by show k.val = 0 + k.val; omega
        | ⟨4, _⟩ => by show j.val = j.val + 0; omega)).trans ?_
    unfold movedT
    show unit (shapeCast S8x27x1024x1x3 X shapeCasts_S8x27x1024x3_S8x27x1024x1x3 (ix5 n oc l k j)) = _
    refine congrArg unit ?_
    exact shapeCast_apply _ _ (ix5 n oc l k j) (ix4 n oc l (⟨3 * k.val + j.val, by have := k.isLt; have := j.isLt; omega⟩ : Fin 3))
      (by rw [Shape.rowMajor_val_four, Shape.rowMajor_val_five]
          show ((n.val * 27 + oc.val) * 1024 + l.val) * 3 + (3 * k.val + j.val)
            = ((((n.val * 27 + oc.val) * 1024 + l.val) * 1 + k.val) * 3 + j.val)
          omega)
  unfold roundT
  rw [coreV_apply, maj_eq_core]
  exact congr (congr (congrArg core (pick 0 _)) (pick 1 _)) (pick 2 _)

end Cert.ReferenceIdeal.Round5

end
-- ==== Proof.RefValue.lean ====
/-
  The reference's result as the specification's function of the two arguments.

  The run ends with every buffer at the fold of the 182 operations over the launch contents. Cut into its chunks,
  the fold is: the products array (n, oc, l, k), five rounds each combining entries 3k, 3k + 1, 3k + 2 by the
  majority gate, and two reshapes that drop the last unit axis and unflatten l = 32h + v. Read as sequences in k,
  the five rounds are the five rounds of the tree, and a product is the specification's leaf with its two factors
  in the other order.
-/
import proofs.«170610_j67250597921090_1_alg».proof.Proof.RefRun
import proofs.«170610_j67250597921090_1_alg».proof.Proof.RefLeaf
import proofs.«170610_j67250597921090_1_alg».proof.Proof.RefRound1
import proofs.«170610_j67250597921090_1_alg».proof.Proof.RefRound2
import proofs.«170610_j67250597921090_1_alg».proof.Proof.RefRound3
import proofs.«170610_j67250597921090_1_alg».proof.Proof.RefRound4
import proofs.«170610_j67250597921090_1_alg».proof.Proof.RefRound5
import proofs.«170610_j67250597921090_1_alg».proof.Proof.Spec
import Idealize.ShloMosaic.Lib.Pipeline.Frame
import Idealize.ShloMosaic.Lib.Pipeline.Value
import Idealize.ShloMosaic.Lib.ValueIdx

set_option pp.maxSteps 5000
set_option pp.deepTerms false

noncomputable section

namespace Cert.ReferenceIdeal.RefValue

open Cert.ReferenceIdeal Cert.ReferenceIdeal.Gen Cert.ReferenceIdeal.RunP Idealize.ShloMosaic Idealize.ShloMosaic.TcCoe Idealize.SL.Sem
open Idealize.ShloMosaic.StableHlo Idealize.ShloMosaic.ValueIdx Cert.MajTree Cert.Spec

/-! ## Entries (n, oc, l, ·) as a sequence -/

/-- The trailing axis of an array at fixed (n, oc, l) as a sequence, zero past the extent. -/
def fam {K : ℕ} (A : (⟨4, ![8, 27, 1024, K]⟩ : Shape).Idx → EReal) (n : Fin 8) (oc : Fin 27) (l : Fin 1024) : ℕ → EReal :=
  fun k => if h : k < K then A (ix4 n oc l ⟨k, h⟩) else 0

/-- An array whose entry k is the gate of entries 3k, 3k + 1, 3k + 2 of another is, as sequences, one round of it. -/
theorem fam_round {K K3 : ℕ} (hK : K3 = 3 * K) (A : (⟨4, ![8, 27, 1024, K3]⟩ : Shape).Idx → EReal)
    (B : (⟨4, ![8, 27, 1024, K]⟩ : Shape).Idx → EReal)
    (hB : ∀ (n : Fin 8) (oc : Fin 27) (l : Fin 1024) (k : Fin K),
      B (ix4 n oc l k) = maj (A (ix4 n oc l ⟨3 * k.val, by have := k.isLt; omega⟩))
        (A (ix4 n oc l ⟨3 * k.val + 1, by have := k.isLt; omega⟩)) (A (ix4 n oc l ⟨3 * k.val + 2, by have := k.isLt; omega⟩)))
    (n : Fin 8) (oc : Fin 27) (l : Fin 1024) : ∀ k, k < K → fam B n oc l k = Cert.MajTree.round maj (fam A n oc l) k := by
  intro k hk
  unfold fam Cert.MajTree.round
  beta_reduce
  rw [dif_pos hk, dif_pos (show 3 * k < K3 by omega), dif_pos (show 3 * k + 1 < K3 by omega), dif_pos (show 3 * k + 2 < K3 by omega)]
  exact hB n oc l ⟨k, hk⟩

/-! ## The fold, chunk by chunk -/

set_option maxRecDepth 8192 in
/-- The fold of the whole list is the fold of its chunks, one after the other. -/
theorem after_cut (V : Valuation τ sig (Elt Ideal)) :
    after (ops (F := Ideal)) V = after ops6 (after ops5 (after ops4 (after ops3 (after ops2 (after ops1 (after ops0 V)))))) := by
  rw [ops_cut]
  simp only [StableHlo.after_append]

/-- The two closing reshapes. -/
theorem tail_after (W : Valuation τ sig (Elt Ideal)) :
    (after ops6 W (Proc.devRef .tc main_v154) : (⟨S8x27x32x32, .f32⟩ : BufTy).Contents (Elt Ideal))
      = shapeCast S8x27x32x32 (shapeCast S8x27x1024 (W (Proc.devRef .tc main_v152)) shapeCasts_S8x27x1024x1_S8x27x1024)
          shapeCasts_S8x27x1024_S8x27x32x32 := by
  after_results
  rfl

/-- The result buffer after the whole fold, as the rounds of the products of the two arguments. -/
theorem result_after (V : Valuation τ sig (Elt Ideal)) :
    (after (ops (F := Ideal)) V (Proc.devRef .tc main_v154) : (⟨S8x27x32x32, .f32⟩ : BufTy).Contents (Elt Ideal))
      = shapeCast S8x27x32x32 (shapeCast S8x27x1024
          (Round5.roundT (Round4.roundT (Round3.roundT (Round2.roundT (Round1.roundT
            (Leaf.leafT (V (Proc.devRef .tc main_arg0)) (V (Proc.devRef .tc main_arg1))))))))
          shapeCasts_S8x27x1024x1_S8x27x1024) shapeCasts_S8x27x1024_S8x27x32x32 := by
  rw [after_cut, tail_after, Round5.round_after, Round4.round_after, Round3.round_after, Round2.round_after,
    Round1.round_after, Leaf.leaf_after]

/-! ## The value -/

/-- The rounds of the products, read at an output entry, are the specification's tree. -/
theorem value_eq (x : (⟨S8x27x32x32, .f32⟩ : BufTy).Contents (Elt Ideal)) (w : (⟨S27x27x3x3, .f32⟩ : BufTy).Contents (Elt Ideal)) :
    shapeCast S8x27x32x32 (shapeCast S8x27x1024
        (Round5.roundT (Round4.roundT (Round3.roundT (Round2.roundT (Round1.roundT (Leaf.leafT x w))))))
        shapeCasts_S8x27x1024x1_S8x27x1024) shapeCasts_S8x27x1024_S8x27x32x32
      = G (padX x) w := by
  funext i
  obtain ⟨n, oc, h, v, rfl⟩ : ∃ (n : Fin 8) (oc : Fin 27) (h v : Fin 32), i = ix4 n oc h v := ⟨i 0, i 1, i 2, i 3, eq_ix4 i⟩
  have hh := h.isLt
  have hv := v.isLt
  let l : Fin 1024 := ⟨h.val * 32 + v.val, by omega⟩
  -- the two reshapes: (n, oc, h, v) is (n, oc, l) is (n, oc, l, 0)
  refine (shapeCast_apply _ _ (ix4 n oc h v) (ix3 n oc l)
    (by rw [Shape.rowMajor_val_three, Shape.rowMajor_val_four]
        show (n.val * 27 + oc.val) * 1024 + (h.val * 32 + v.val) = ((n.val * 27 + oc.val) * 32 + h.val) * 32 + v.val
        omega)).trans ?_
  refine (shapeCast_apply _ _ (ix3 n oc l) (ix4 n oc l (0 : Fin 1))
    (by rw [Shape.rowMajor_val_four, Shape.rowMajor_val_three]
        show ((n.val * 27 + oc.val) * 1024 + l.val) * 1 + 0 = (n.val * 27 + oc.val) * 1024 + l.val
        omega)).trans ?_
  -- the five rounds as sequences
  set A0 := Leaf.leafT x w with hA0
  set A1 := Round1.roundT A0 with hA1
  set A2 := Round2.roundT A1 with hA2
  set A3 := Round3.roundT A2 with hA3
  set A4 := Round4.roundT A3 with hA4
  have r1 := fam_round (K := 81) (K3 := 243) rfl A0 A1 (fun n oc l k => Round1.roundT_apply A0 n oc l k) n oc l
  have r2 := fam_round (K := 27) (K3 := 81) rfl A1 A2 (fun n oc l k => Round2.roundT_apply A1 n oc l k) n oc l
  have r3 := fam_round (K := 9) (K3 := 27) rfl A2 A3 (fun n oc l k => Round3.roundT_apply A2 n oc l k) n oc l
  have r4 := fam_round (K := 3) (K3 := 9) rfl A3 A4 (fun n oc l k => Round4.roundT_apply A3 n oc l k) n oc l
  have r5 := fam_round (K := 1) (K3 := 3) rfl A4 (Round5.roundT A4) (fun n oc l k => Round5.roundT_apply A4 n oc l k) n oc l
  have e5 : Round5.roundT A4 (ix4 n oc l (0 : Fin 1)) = fam (K := 1) (Round5.roundT A4) n oc l 0 := by
    unfold fam; rw [dif_pos (by omega : 0 < 1)]; rfl
  rw [e5, r5 0 (by omega)]
  have tree : Cert.MajTree.round maj (fam (K := 3) A4 n oc l) 0 = tree5 maj (fam (K := 243) A0 n oc l) := by
    unfold tree5
    exact round_congr maj (n := 1) (fun k hk => (r4 k (by omega)).trans
      (round_congr maj (n := 3) (fun k hk => (r3 k (by omega)).trans
        (round_congr maj (n := 9) (fun k hk => (r2 k (by omega)).trans
          (round_congr maj (n := 27) (fun k hk => r1 k (by omega)) k (by omega))) k (by omega))) k (by omega))) 0 (by omega)
  rw [tree]
  -- the leaves: a product is the specification's leaf with its factors in the other order
  show _ = tree5 maj (leaf (padX x) w n oc h v)
  refine tree5_congr maj (fun k hk => ?_)
  unfold fam leaf
  rw [dif_pos hk, hA0, Leaf.leafT_apply x w n oc h v ⟨k, hk⟩]
  exact mul_comm _ _

/-! ## The run -/

set_option maxRecDepth 8192 in
set_option maxHeartbeats 4000000 in
/-- No operation writes the first argument. -/
theorem keep_arg0 (V : Valuation τ sig (Elt Ideal)) :
    after (ops (F := Ideal)) V (Proc.devRef .tc main_arg0) = V (Proc.devRef .tc main_arg0) := by
  after_results_simp <;> rfl

set_option maxRecDepth 8192 in
set_option maxHeartbeats 4000000 in
/-- No operation writes the second argument. -/
theorem keep_arg1 (V : Valuation τ sig (Elt Ideal)) :
    after (ops (F := Ideal)) V (Proc.devRef .tc main_arg1) = V (Proc.devRef .tc main_arg1) := by
  after_results_simp <;> rfl

/-- The reference's run: the result at the specification's function of the two arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v154)
          = G (padX (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v154).trans ((result_after (launchContents m c)).trans (value_eq _ _)),
        (h c main_arg0).trans (keep_arg0 (launchContents m c)),
        (h c main_arg1).trans (keep_arg1 (launchContents m c))⟩)
    (run_after m ρ)

end Cert.ReferenceIdeal.RefValue

end
-- ==== Proof.lean ====
/-
  The kernel and its reference compute one function.

  Both programs pad the input by one row and column of -1, form for every output entry (n, oc, h, v) the 243
  products  weight[oc, c, kh, kw] · padded[n, c, h + kh, v + kw]  over the taps k = 9c + 3kh + kw, and reduce them by
  the same five-round ternary majority tree, every gate the same chain of sums, products and differences. The kernel
  does it one image per grid point on whole (27, 32, 32) vectors; the reference round by round over a trailing axis.
  They differ only in the order of the two factors of a product, and multiplication of extended reals commutes:
  the precondition is not needed for the value. The frames are the generated ones; the reference's frame is its run
  with the result dropped; the idealization rewrote nothing.
-/
import proofs.«170610_j67250597921090_1_alg».proof.Defs
import proofs.«170610_j67250597921090_1_alg».proof.Proof.Gen.Kernel
import proofs.«170610_j67250597921090_1_alg».proof.Proof.Gen.Kernel.Skeleton
import proofs.«170610_j67250597921090_1_alg».proof.Proof.Gen.Kernel.Launch
import proofs.«170610_j67250597921090_1_alg».proof.Proof.Gen.Kernel.Points
import proofs.«170610_j67250597921090_1_alg».proof.Proof.Gen.Kernel.Frame
import proofs.«170610_j67250597921090_1_alg».proof.Proof.Gen.KernelIdeal
import proofs.«170610_j67250597921090_1_alg».proof.Proof.Gen.KernelIdeal.Skeleton
import proofs.«170610_j67250597921090_1_alg».proof.Proof.Gen.KernelIdeal.Launch
import proofs.«170610_j67250597921090_1_alg».proof.Proof.Gen.KernelIdeal.Points
import proofs.«170610_j67250597921090_1_alg».proof.Proof.Gen.KernelIdeal.Frame
import proofs.«170610_j67250597921090_1_alg».proof.Proof.Gen.ReferenceIdeal
import proofs.«170610_j67250597921090_1_alg».proof.Proof.Gen.Pre_finite_inputs
import proofs.«170610_j67250597921090_1_alg».proof.Proof.KValue
import proofs.«170610_j67250597921090_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the two arguments both programs end with the specification's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
